-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2000x128 : Shape := ⟨2, ![2000, 128]⟩
abbrev S100000 : Shape := ⟨1, ![100000]⟩
abbrev S100000x3 : Shape := ⟨2, ![100000, 3]⟩
abbrev S2x400000 : Shape := ⟨2, ![2, 400000]⟩
abbrev S400000x3 : Shape := ⟨2, ![400000, 3]⟩
abbrev S259x128 : Shape := ⟨2, ![259, 128]⟩
abbrev S128 : Shape := ⟨1, ![128]⟩
abbrev S128x128 : Shape := ⟨2, ![128, 128]⟩
abbrev S_ : Shape := ⟨0, ![]⟩
abbrev S1x400000 : Shape := ⟨2, ![1, 400000]⟩
abbrev S400000 : Shape := ⟨1, ![400000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S100000x3 : S_.BroadcastsInDim S100000x3 (![] : Fin 0 → Fin S100000x3.rank)
  reducesTo_S100000x3_S_d0_1 : S100000x3.ReducesTo [0, 1] S_
  bcast_S_S400000x3 : S_.BroadcastsInDim S400000x3 (![] : Fin 0 → Fin S400000x3.rank)
  reducesTo_S400000x3_S_d0_1 : S400000x3.ReducesTo [0, 1] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_
  slices_S2x400000_S1x400000_1_0 : S2x400000.Slices ![1, 0] S1x400000

variable [Facts]

def fn_part6 {F : FTy → Type} [FloatOps F] (main_v96 : IVec S_ 1) (main_v100 : IVec S400000 1) (main_v102 : IVec S400000 32) (main_v103 : IVec S400000 32) : IVec S_ 1 :=
  let main_v104 : IVec S400000 1 := cmpi .slt main_v102 main_v103
  let main_v105 : IVec S400000 1 := andi main_v100 main_v104
  let main_c_38 : IVec S_ 1 := constantI S_ 1 1#1
  let main_v106 : IVec S_ 1 := (fun x v => Host.reduce IntOp.andi x v reducesTo_S400000_S_d0 h_S_) main_v105 main_c_38
  let main_v107 : IVec S_ 1 := andi main_v96 main_v106
  main_v107

def fn_part5 {F : FTy → Type} [FloatOps F] (main_arg4 : IVec S2x400000 32) (main_v78 : IVec S_ 1) (main_v84 : IVec S_ 1) : IVec S_ 1 :=
  let main_v85 : IVec S_ 1 := andi main_v78 main_v84
  let main_v86 : IVec S1x400000 32 := (extractStridedSlice S1x400000 ![0, 0] · slices_S2x400000_S1x400000_0_0) main_arg4
  let main_v87 : IVec S400000 32 := shapeCast S400000 main_v86 shapeCasts_S1x400000_S400000
  let main_c_33 : IVec S_ 32 := constantI S_ 32 0#32
  let main_v88 : IVec S400000 32 := broadcastInDim S400000 ![] bcast_S_S400000 main_c_33
  let main_v89 : IVec S400000 1 := cmpi .sge main_v87 main_v88
  let main_v90 : IVec S1x400000 32 := (extractStridedSlice S1x400000 ![0, 0] · slices_S2x400000_S1x400000_0_0) main_arg4
  let main_v91 : IVec S400000 32 := shapeCast S400000 main_v90 shapeCasts_S1x400000_S400000
  let main_c_34 : IVec S_ 32 := constantI S_ 32 2000#32
  let main_v92 : IVec S400000 32 := broadcastInDim S400000 ![] bcast_S_S400000 main_c_34
  let main_v93 : IVec S400000 1 := cmpi .slt main_v91 main_v92
  let main_v94 : IVec S400000 1 := andi main_v89 main_v93
  let main_c_35 : IVec S_ 1 := constantI S_ 1 1#1
  let main_v95 : IVec S_ 1 := (fun x v => Host.reduce IntOp.andi x v reducesTo_S400000_S_d0 h_S_) main_v94 main_c_35
  let main_v96 : IVec S_ 1 := andi main_v85 main_v95
  let main_v97 : IVec S1x400000 32 := (extractStridedSlice S1x400000 ![1, 0] · slices_S2x400000_S1x400000_1_0) main_arg4
  let main_v98 : IVec S400000 32 := shapeCast S400000 main_v97 shapeCasts_S1x400000_S400000
  let main_c_36 : IVec S_ 32 := constantI S_ 32 0#32
  let main_v99 : IVec S400000 32 := broadcastInDim S400000 ![] bcast_S_S400000 main_c_36
  let main_v100 : IVec S400000 1 := cmpi .sge main_v98 main_v99
  let main_v101 : IVec S1x400000 32 := (extractStridedSlice S1x400000 ![1, 0] · slices_S2x400000_S1x400000_1_0) main_arg4
  let main_v102 : IVec S400000 32 := shapeCast S400000 main_v101 shapeCasts_S1x400000_S400000
  let main_c_37 : IVec S_ 32 := constantI S_ 32 100000#32
  let main_v103 : IVec S400000 32 := broadcastInDim S400000 ![] bcast_S_S400000 main_c_37
  fn_part6 (F := F) main_v96 main_v100 main_v102 main_v103

def fn_part4 {F : FTy → Type} [FloatOps F] (main_arg2 : IVec S100000 32) (main_arg4 : IVec S2x400000 32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S100000 32 := broadcastInDim S100000 ![] bcast_S_S100000 main_c_30
  let main_v80 : IVec S100000 1 := cmpi .sge main_arg2 main_v79
  let main_c_31 : IVec S_ 32 := constantI S_ 32 2000#32
  let main_v81 : IVec S100000 32 := broadcastInDim S100000 ![] bcast_S_S100000 main_c_31
  let main_v82 : IVec S100000 1 := cmpi .slt main_arg2 main_v81
  let main_v83 : IVec S100000 1 := andi main_v80 main_v82
  let main_c_32 : IVec S_ 1 := constantI S_ 1 1#1
  let main_v84 : IVec S_ 1 := (fun x v => Host.reduce IntOp.andi x v reducesTo_S100000_S_d0 h_S_) main_v83 main_c_32
  fn_part5 (F := F) main_arg4 main_v78 main_v84

def fn_part3 {F : FTy → Type} [FloatOps F] (main_arg2 : IVec S100000 32) (main_arg4 : IVec S2x400000 32) (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg4 main_arg16 main_arg17 main_v63 main_v67

def fn_part2 {F : FTy → Type} [FloatOps F] (main_arg2 : IVec S100000 32) (main_arg4 : IVec S2x400000 32) (main_arg9 : FVec F S128 .f32) (main_arg10 : FVec F S259x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S259x128 .f32 := Host.absf main_arg10
  let main_cst_14 : FVec F S_ .f32 := constant S_ .f32 0x7F800000#32
  let main_v40 : FVec F S259x128 .f32 := broadcastInDim S259x128 ![] bcast_S_S259x128 main_cst_14
  let main_v41 : IVec S259x128 1 := cmpf .olt main_v39 main_v40
  let main_c_15 : IVec S_ 1 := constantI S_ 1 1#1
  let main_v42 : IVec S_ 1 := (fun x v => Host.reduce IntOp.andi x v reducesTo_S259x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg4 main_arg13 main_arg14 main_arg15 main_arg16 main_arg17 main_v48 main_v49 main_v50

def fn_part1 {F : FTy → Type} [FloatOps F] (main_arg2 : IVec S100000 32) (main_arg4 : IVec S2x400000 32) (main_arg6 : FVec F S259x128 .f32) (main_arg7 : FVec F S128 .f32) (main_arg8 : FVec F S128x128 .f32) (main_arg9 : FVec F S128 .f32) (main_arg10 : FVec F S259x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S400000x3 1) : IVec S_ 1 :=
  let main_c_5 : IVec S_ 1 := constantI S_ 1 1#1
  let main_v17 : IVec S_ 1 := (fun x v => Host.reduce IntOp.andi x v reducesTo_S400000x3_S_d0_1 h_S_) main_v16 main_c_5
  let main_v18 : IVec S_ 1 := andi main_v13 main_v17
  let main_v19 : FVec F S259x128 .f32 := Host.absf main_arg6
  let main_cst_6 : FVec F S_ .f32 := constant S_ .f32 0x7F800000#32
  let main_v20 : FVec F S259x128 .f32 := broadcastInDim S259x128 ![] bcast_S_S259x128 main_cst_6
  let main_v21 : IVec S259x128 1 := cmpf .olt main_v19 main_v20
  let main_c_7 : IVec S_ 1 := constantI S_ 1 1#1
  let main_v22 : IVec S_ 1 := (fun x v => Host.reduce IntOp.andi x v reducesTo_S259x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg4 main_arg9 main_arg10 main_arg11 main_arg12 main_arg13 main_arg14 main_arg15 main_arg16 main_arg17 main_v33

def fn {F : FTy → Type} [FloatOps F] (main_arg0 : FVec F S100000x128 .f32) (main_arg1 : FVec F S2000x128 .f32) (main_arg2 : IVec S100000 32) (main_arg3 : FVec F S100000x3 .f32) (main_arg4 : IVec S2x400000 32) (main_arg5 : FVec F S400000x3 .f32) (main_arg6 : FVec F S259x128 .f32) (main_arg7 : FVec F S128 .f32) (main_arg8 : FVec F S128x128 .f32) (main_arg9 : FVec F S128 .f32) (main_arg10 : FVec F S259x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S100000x3 .f32 := Host.absf main_arg3
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S400000x3 .f32 := Host.absf main_arg5
  let main_cst_4 : FVec F S_ .f32 := constant S_ .f32 0x7F800000#32
  let main_v15 : FVec F S400000x3 .f32 := broadcastInDim S400000x3 ![] bcast_S_S400000x3 main_cst_4
  let main_v16 : IVec S400000x3 1 := cmpf .olt main_v14 main_v15
  fn_part1 (F := F) main_arg2 main_arg4 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2000x128 : Shape := ⟨2, ![2000, 128]⟩
abbrev S100000 : Shape := ⟨1, ![100000]⟩
abbrev S100000x3 : Shape := ⟨2, ![100000, 3]⟩
abbrev S2x400000 : Shape := ⟨2, ![2, 400000]⟩
abbrev S400000x3 : Shape := ⟨2, ![400000, 3]⟩
abbrev S259x128 : Shape := ⟨2, ![259, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S3x128 : Shape := ⟨2, ![3, 128]⟩
abbrev S1x128 : Shape := ⟨2, ![1, 128]⟩
abbrev S2000x3 : Shape := ⟨2, ![2000, 3]⟩
abbrev S4000x128 : Shape := ⟨2, ![4000, 128]⟩
abbrev S4000x3 : Shape := ⟨2, ![4000, 3]⟩

abbrev nBuf : Space → Nat
  | .hbm => 122
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2000x128, .f32⟩
  | .hbm, ⟨2, _⟩ => ⟨S100000, .i32⟩
  | .hbm, ⟨3, _⟩ => ⟨S100000x3, .f32⟩
  | .hbm, ⟨4, _⟩ => ⟨S2x400000, .i32⟩
  | .hbm, ⟨5, _⟩ => ⟨S400000x3, .f32⟩
  | .hbm, ⟨6, _⟩ => ⟨S259x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S259x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S1, .i32⟩
  | .hbm, ⟨27, _⟩ => ⟨S_, .i32⟩
  | .hbm, ⟨28, _⟩ => ⟨S100000x1, .i32⟩
  | .hbm, ⟨29, _⟩ => ⟨S100000x1, .i1⟩
  | .hbm, ⟨30, _⟩ => ⟨S1x1, .i32⟩
  | .hbm, ⟨31, _⟩ => ⟨S100000x1, .i32⟩
  | .hbm, ⟨32, _⟩ => ⟨S100000x1, .i1⟩
  | .hbm, ⟨33, _⟩ => ⟨S100000x1, .i1⟩
  | .hbm, ⟨34, _⟩ => ⟨S_, .i1⟩
  | .hbm, ⟨35, _⟩ => ⟨S100000, .i1⟩
  | .hbm, ⟨36, _⟩ => ⟨S100000x128, .f32⟩
  | .hbm, ⟨37, _⟩ => ⟨S100000x128, .i1⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S1x400000, .i32⟩
  | .hbm, ⟨42, _⟩ => ⟨S400000, .i32⟩
  | .hbm, ⟨43, _⟩ => ⟨S1x400000, .i32⟩
  | .hbm, ⟨44, _⟩ => ⟨S400000, .i32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S1, .i32⟩
  | .hbm, ⟨54, _⟩ => ⟨S_, .i32⟩
  | .hbm, ⟨55, _⟩ => ⟨S400000x1, .i32⟩
  | .hbm, ⟨56, _⟩ => ⟨S400000x1, .i1⟩
  | .hbm, ⟨57, _⟩ => ⟨S1x1, .i32⟩
  | .hbm, ⟨58, _⟩ => ⟨S400000x1, .i32⟩
  | .hbm, ⟨59, _⟩ => ⟨S400000x1, .i1⟩
  | .hbm, ⟨60, _⟩ => ⟨S400000x1, .i1⟩
  | .hbm, ⟨61, _⟩ => ⟨S_, .i1⟩
  | .hbm, ⟨62, _⟩ => ⟨S400000, .i1⟩
  | .hbm, ⟨63, _⟩ => ⟨S400000x128, .f32⟩
  | .hbm, ⟨64, _⟩ => ⟨S400000x128, .i1⟩
  | .hbm, ⟨65, _⟩ => ⟨S_, .f32⟩
  | .hbm, ⟨66, _⟩ => ⟨S400000x128, .f32⟩
  | .hbm, ⟨67, _⟩ => ⟨S400000x128, .f32⟩
  | .hbm, ⟨68, _⟩ => ⟨S_, .i32⟩
  | .hbm, ⟨69, _⟩ => ⟨S400000, .i32⟩
  | .hbm, ⟨70, _⟩ => ⟨S400000, .i1⟩
  | .hbm, ⟨71, _⟩ => ⟨S_, .i32⟩
  | .hbm, ⟨72, _⟩ => ⟨S400000, .i32⟩
  | .hbm, ⟨73, _⟩ => ⟨S400000, .i32⟩
  | .hbm, ⟨74, _⟩ => ⟨S400000, .i32⟩
  | .hbm, ⟨75, _⟩ => ⟨S400000x1, .i32⟩
  | .hbm, ⟨76, _⟩ => ⟨S1, .i32⟩
  | .hbm, ⟨77, _⟩ => ⟨S_, .i32⟩
  | .hbm, ⟨78, _⟩ => ⟨S400000x1, .i32⟩
  | .hbm, ⟨79, _⟩ => ⟨S400000x1, .i1⟩
  | .hbm, ⟨80, _⟩ => ⟨S1x1, .i32⟩
  | .hbm, ⟨81, _⟩ => ⟨S400000x1, .i32⟩
  | .hbm, ⟨82, _⟩ => ⟨S400000x1, .i1⟩
  | .hbm, ⟨83, _⟩ => ⟨S400000x1, .i1⟩
  | .hbm, ⟨84, _⟩ => ⟨S_, .i1⟩
  | .hbm, ⟨85, _⟩ => ⟨S400000, .i1⟩
  | .hbm, ⟨86, _⟩ => ⟨S400000x128, .f32⟩
  | .hbm, ⟨87, _⟩ => ⟨S400000x128, .i1⟩
  | .hbm, ⟨88, _⟩ => ⟨S_, .f32⟩
  | .hbm, ⟨89, _⟩ => ⟨S400000x128, .f32⟩
  | .hbm, ⟨90, _⟩ => ⟨S400000x128, .f32⟩
  | .hbm, ⟨91, _⟩ => ⟨S128x128, .f32⟩
  | .hbm, ⟨92, _⟩ => ⟨S128x128, .f32⟩
  | .hbm, ⟨93, _⟩ => ⟨S3x128, .f32⟩
  | .hbm, ⟨94, _⟩ => ⟨S128x128, .f32⟩
  | .hbm, ⟨95, _⟩ => ⟨S128x128, .f32⟩
  | .hbm, ⟨96, _⟩ => ⟨S3x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S100000x128, .f32⟩
  | .hbm, ⟨104, _⟩ => ⟨S400000x128, .f32⟩
  | .hbm, ⟨105, _⟩ => ⟨S_, .f32⟩
  | .hbm, ⟨106, _⟩ => ⟨S100000x128, .f32⟩
  | .hbm, ⟨107, _⟩ => ⟨S400000x1, .i32⟩
  | .hbm, ⟨108, _⟩ => ⟨S100000x128, .f32⟩
  | .hbm, ⟨109, _⟩ => ⟨S_, .f32⟩
  | .hbm, ⟨110, _⟩ => ⟨S400000, .f32⟩
  | .hbm, ⟨111, _⟩ => ⟨S_, .f32⟩
  | .hbm, ⟨112, _⟩ => ⟨S100000, .f32⟩
  | .hbm, ⟨113, _⟩ => ⟨S400000x1, .i32⟩
  | .hbm, ⟨114, _⟩ => ⟨S100000, .f32⟩
  | .hbm, ⟨115, _⟩ => ⟨S_, .f32⟩
  | .hbm, ⟨116, _⟩ => ⟨S100000, .f32⟩
  | .hbm, ⟨117, _⟩ => ⟨S100000, .f32⟩
  | .hbm, ⟨118, _⟩ => ⟨S100000x1, .f32⟩
  | .hbm, ⟨119, _⟩ => ⟨S100000x128, .f32⟩
  | .hbm, ⟨120, _⟩ => ⟨S100000x128, .f32⟩
  | .hbm, ⟨121, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x3, .f32⟩
  | .local _ .vmem, ⟨5, _⟩ => ⟨S2000x3, .f32⟩
  | .local _ .vmem, ⟨6, _⟩ => ⟨S128x128, .f32⟩
  | .local _ .vmem, ⟨7, _⟩ => ⟨S128x128, .f32⟩
  | .local _ .vmem, ⟨8, _⟩ => ⟨S3x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x3, .f32⟩
  | .local _ .vmem, ⟨19, _⟩ => ⟨S4000x3, .f32⟩
  | .local _ .vmem, ⟨20, _⟩ => ⟨S128x128, .f32⟩
  | .local _ .vmem, ⟨21, _⟩ => ⟨S128x128, .f32⟩
  | .local _ .vmem, ⟨22, _⟩ => ⟨S3x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v5 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v6 : Ref sig .tc := ⟨.hbm, 90, rfl⟩
abbrev main_v7 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_cst : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_cst_0 : Ref sig .tc := ⟨.hbm, 109, rfl⟩
abbrev main_v24 : Ref sig .tc := ⟨.hbm, 110, rfl⟩
abbrev main_cst_1 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_cst_2 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  slices_S259x128_S128x128_0_0 : S259x128.Slices ![0, 0] S128x128
  slices_S259x128_S128x128_128_0 : S259x128.Slices ![128, 0] S128x128
  slices_S259x128_S3x128_256_0 : S259x128.Slices ![256, 0] S3x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  broadcasts_S1x128_S4000x128 : S1x128.Broadcasts S4000x128
  bcast_S100000x1_S100000x128_0_1 : S100000x1.BroadcastsInDim S100000x128 (![0, 1] : Fin 2 → Fin S100000x128.rank)
  gather_S2000x128_S100000x1_S100000x128_1_0_n_n_0_1_1128_wf : GatherDims.WF S2000x128 S100000x1 S100000x128 [1] [0] [] [0] [] 1 ![1, 128]
  gather_S2000x128_S400000x1_S400000x128_1_0_n_n_0_1_1128_wf : GatherDims.WF S2000x128 S400000x1 S400000x128 [1] [0] [] [0] [] 1 ![1, 128]
  gather_S100000x128_S400000x1_S400000x128_1_0_n_n_0_1_1128_wf : GatherDims.WF S100000x128 S400000x1 S400000x128 [1] [0] [] [0] [] 1 ![1, 128]
  dot_S2000x128_S128x128_S2000x128_1_0_0_1_n_n_wf : DotDims.WF S2000x128 S128x128 S2000x128 [1] [0] [0] [1] [] []
  dot_S2000x3_S3x128_S2000x128_1_0_0_1_n_n_wf : DotDims.WF S2000x3 S3x128 S2000x128 [1] [0] [0] [1] [] []
  dot_S4000x128_S128x128_S4000x128_1_0_0_1_n_n_wf : DotDims.WF S4000x128 S128x128 S4000x128 [1] [0] [0] [1] [] []
  dot_S4000x3_S3x128_S4000x128_1_0_0_1_n_n_wf : DotDims.WF S4000x3 S3x128 S4000x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S100000x3.size a
  hwx0_2 : ∀ i : grid0.Coords, EltTy.bits .f32 = 32 ∨ (Rect.block (s := S100000x3) S2000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .f32 = 32 ∨ (Rect.block (s := S400000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S400000x3.size a
  hwx1_2 : ∀ i : grid1.Coords, EltTy.bits .f32 = 32 ∨ (Rect.block (s := S400000x3) S4000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x128.size a
  hwx1_5 : ∀ i : grid1.Coords, EltTy.bits .f32 = 32 ∨ (Rect.block (s := S3x128) S3x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S400000x128.size a
  hwx1_9 : ∀ i : grid1.Coords, EltTy.bits .f32 = 32 ∨ (Rect.block (s := S400000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def gather_S2000x128_S400000x1_S400000x128_1_0_n_n_0_1_1128 : GatherDims S2000x128 S400000x1 S400000x128 where
  offsetDims := [1]
  collapsedSliceDims := [0]
  operandBatchingDims := []
  startIndicesBatchingDims := []
  startIndexMap := [0]
  indexVectorDim := 1
  sliceSizes := ![1, 128]
  wf := gather_S2000x128_S400000x1_S400000x128_1_0_n_n_0_1_1128_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x3_S3x128_S2000x128_1_0_0_1_n_n : DotDims S2000x3 S3x128 S2000x128 where
  lhsContracting := [1]
  rhsContracting := [0]
  lhsNonContracting := [0]
  rhsNonContracting := [1]
  lhsBatch := []
  rhsBatch := []
  wf := dot_S2000x3_S3x128_S2000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S4000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S3x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2000x128 : Shape := ⟨2, ![2000, 128]⟩
abbrev S100000 : Shape := ⟨1, ![100000]⟩
abbrev S100000x3 : Shape := ⟨2, ![100000, 3]⟩
abbrev S2x400000 : Shape := ⟨2, ![2, 400000]⟩
abbrev S400000x3 : Shape := ⟨2, ![400000, 3]⟩
abbrev S259x128 : Shape := ⟨2, ![259, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S100000x259 : Shape := ⟨2, ![100000, 259]⟩
abbrev S1x128 : Shape := ⟨2, ![1, 128]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S400000x259 : Shape := ⟨2, ![400000, 259]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2000x128, .f32⟩
  | .hbm, ⟨2, _⟩ => ⟨S100000, .i32⟩
  | .hbm, ⟨3, _⟩ => ⟨S100000x3, .f32⟩
  | .hbm, ⟨4, _⟩ => ⟨S2x400000, .i32⟩
  | .hbm, ⟨5, _⟩ => ⟨S400000x3, .f32⟩
  | .hbm, ⟨6, _⟩ => ⟨S259x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S259x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x128, .f32⟩
  | .hbm, ⟨27, _⟩ => ⟨S100000x3, .f32⟩
  | .hbm, ⟨28, _⟩ => ⟨S100000x259, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S1x400000, .i32⟩
  | .hbm, ⟨41, _⟩ => ⟨S400000, .i32⟩
  | .hbm, ⟨42, _⟩ => ⟨S1x400000, .i32⟩
  | .hbm, ⟨43, _⟩ => ⟨S400000, .i32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x128, .f32⟩
  | .hbm, ⟨62, _⟩ => ⟨S400000x259, .f32⟩
  | .hbm, ⟨63, _⟩ => ⟨S400000x128, .f32⟩
  | .hbm, ⟨64, _⟩ => ⟨S1x128, .f32⟩
  | .hbm, ⟨65, _⟩ => ⟨S400000x128, .f32⟩
  | .hbm, ⟨66, _⟩ => ⟨S400000x128, .f32⟩
  | .hbm, ⟨67, _⟩ => ⟨S_, .f32⟩
  | .hbm, ⟨68, _⟩ => ⟨S400000x128, .f32⟩
  | .hbm, ⟨69, _⟩ => ⟨S400000x128, .f32⟩
  | .hbm, ⟨70, _⟩ => ⟨S400000x128, .f32⟩
  | .hbm, ⟨71, _⟩ => ⟨S1x128, .f32⟩
  | .hbm, ⟨72, _⟩ => ⟨S400000x128, .f32⟩
  | .hbm, ⟨73, _⟩ => ⟨S400000x128, .f32⟩
  | .hbm, ⟨74, _⟩ => ⟨S400000x128, .f32⟩
  | .hbm, ⟨75, _⟩ => ⟨S_, .f32⟩
  | .hbm, ⟨76, _⟩ => ⟨S100000x128, .f32⟩
  | .hbm, ⟨77, _⟩ => ⟨S400000x1, .i32⟩
  | .hbm, ⟨78, _⟩ => ⟨S100000x128, .f32⟩
  | .hbm, ⟨79, _⟩ => ⟨S_, .f32⟩
  | .hbm, ⟨80, _⟩ => ⟨S400000, .f32⟩
  | .hbm, ⟨81, _⟩ => ⟨S_, .f32⟩
  | .hbm, ⟨82, _⟩ => ⟨S100000, .f32⟩
  | .hbm, ⟨83, _⟩ => ⟨S400000x1, .i32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x3_S100000x259_d1 : Shape.Concatenates [S100000x128, S100000x128, S100000x3] S100000x259 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x3_S400000x259_d1 : Shape.Concatenates [S400000x128, S400000x128, S400000x3] S400000x259 1
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S100000x1_S100000x128_0_1 : S100000x1.BroadcastsInDim S100000x128 (![0, 1] : Fin 2 → Fin S100000x128.rank)
  gather_S2000x128_S100000x1_S100000x128_1_0_n_n_0_1_1128_wf : GatherDims.WF S2000x128 S100000x1 S100000x128 [1] [0] [] [0] [] 1 ![1, 128]
  dot_S100000x259_S259x128_S100000x128_1_0_0_1_n_n_wf : DotDims.WF S100000x259 S259x128 S100000x128 [1] [0] [0] [1] [] []
  dot_S100000x128_S128x128_S100000x128_1_0_0_1_n_n_wf : DotDims.WF S100000x128 S128x128 S100000x128 [1] [0] [0] [1] [] []
  gather_S2000x128_S400000x1_S400000x128_1_0_n_n_0_1_1128_wf : GatherDims.WF S2000x128 S400000x1 S400000x128 [1] [0] [] [0] [] 1 ![1, 128]
  gather_S100000x128_S400000x1_S400000x128_1_0_n_n_0_1_1128_wf : GatherDims.WF S100000x128 S400000x1 S400000x128 [1] [0] [] [0] [] 1 ![1, 128]
  dot_S400000x259_S259x128_S400000x128_1_0_0_1_n_n_wf : DotDims.WF S400000x259 S259x128 S400000x128 [1] [0] [0] [1] [] []
  dot_S400000x128_S128x128_S400000x128_1_0_0_1_n_n_wf : DotDims.WF S400000x128 S128x128 S400000x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1

variable [Facts₀]

def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S100000x259_S259x128_S100000x128_1_0_0_1_n_n : DotDims S100000x259 S259x128 S100000x128 where
  lhsContracting := [1]
  rhsContracting := [0]
  lhsNonContracting := [0]
  rhsNonContracting := [1]
  lhsBatch := []
  rhsBatch := []
  wf := dot_S100000x259_S259x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S2000x128_S400000x1_S400000x128_1_0_n_n_0_1_1128 : GatherDims S2000x128 S400000x1 S400000x128 where
  offsetDims := [1]
  collapsedSliceDims := [0]
  operandBatchingDims := []
  startIndicesBatchingDims := []
  startIndexMap := [0]
  indexVectorDim := 1
  sliceSizes := ![1, 128]
  wf := gather_S2000x128_S400000x1_S400000x128_1_0_n_n_0_1_1128_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x259_S259x128_S400000x128_1_0_0_1_n_n : DotDims S400000x259 S259x128 S400000x128 where
  lhsContracting := [1]
  rhsContracting := [0]
  lhsNonContracting := [0]
  rhsNonContracting := [1]
  lhsBatch := []
  rhsBatch := []
  wf := dot_S400000x259_S259x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf

class Facts : Prop extends Facts₀ where

variable [Facts]
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.Spec.lean ====
/-
  The mathematics both programs compute, stated once on extended reals and for any number of rows.

  A row of the gate network's hidden layer is an affine map of three row vectors (two of width 128, one of width 3)
  through three weight blocks, followed by the positive part; the gate is a second affine map of that. Each of these
  is a function of the ROW alone, which is why a tile of rows of the program computes the same numbers as the whole
  array does at those rows. The neighbour mean divides, entry by entry, the sum of the edge values landing on a node
  by the number of edges landing there (at least one).
-/
import Idealize.ShloMosaic.PureOps.Ideal
import Idealize.ShloMosaic.Lib.ValueIdx
import proofs.«409560_j59931973649030_1_alg».proof.Proof.LibMatProd

noncomputable section

namespace Cert.Spec

open Idealize.ShloMosaic Idealize.ShloMosaic.ValueIdx MatProd

/-- An M × N array of extended reals. -/
abbrev Mat (M N : ℕ) := (⟨2, ![M, N]⟩ : Shape).Idx → EReal
/-- A vector of N extended reals. -/
abbrev Vec1 (N : ℕ) := (⟨1, ![N]⟩ : Shape).Idx → EReal

/-- The one row of a 1 × N array, as a vector. -/
def rowOf {N : ℕ} (B : Mat 1 N) : Vec1 N := fun k => B (ix2 0 (k 0))

/-- Rows of a table picked by row numbers (read signed, clamped into the table). -/
def rowsel {N C E : ℕ} (hN : 0 < N) (x : Mat N C) (idx : IVec ⟨1, ![E]⟩ 32) : Mat E C :=
  fun j => x (ix2 (⟨min (idx (ix1 ⟨(j 0).val, (j 0).isLt⟩)).toInt.toNat (N - 1), by omega⟩ : Fin N) ⟨(j 1).val, (j 1).isLt⟩)

/-- Rows [o, o + K) of a taller array. -/
def rowsFrom {R K N : ℕ} (o : ℕ) (h : o + K ≤ R) (W : Mat R N) : Mat K N :=
  fun i => W (ix2 ⟨o + (i 0).val, by have := (i 0).isLt; change (i 0).val < K at this; omega⟩ ⟨(i 1).val, (i 1).isLt⟩)

/-- An affine map of the rows: x ↦ x · W + b. -/
def affine {M K : ℕ} (H : Mat M K) (W : Mat K 128) (b : Vec1 128) : Mat M 128 :=
  fun i => mmP H W i + b (ix1 ⟨(i 1).val, (i 1).isLt⟩)

/-- The positive part, entry by entry. -/
def relu {M N : ℕ} (H : Mat M N) : Mat M N := fun i => max (H i) 0

/-- The hidden layer before its positive part, from three row blocks through three weight blocks. -/
def hidden3 {M : ℕ} (X Y : Mat M 128) (Z : Mat M 3) (Wa Wb : Mat 128 128) (Wc : Mat 3 128) (b1 : Vec1 128) : Mat M 128 :=
  fun i => ((mmP X Wa i + mmP Y Wb i) + mmP Z Wc i) + b1 (ix1 ⟨(i 1).val, (i 1).isLt⟩)

/-- The gate's weight: affine ∘ positive part ∘ hidden layer. -/
def gateW {M : ℕ} (X Y : Mat M 128) (Z : Mat M 3) (Wa Wb : Mat 128 128) (Wc : Mat 3 128) (b1 : Vec1 128)
    (W2 : Mat 128 128) (b2 : Vec1 128) : Mat M 128 :=
  affine (relu (hidden3 X Y Z Wa Wb Wc b1)) W2 b2

/-- The node gate: x + w(x, y, −z) · y. -/
def gate1 {M : ℕ} (X Y : Mat M 128) (Z : Mat M 3) (Wa Wb : Mat 128 128) (Wc : Mat 3 128) (b1 : Vec1 128)
    (W2 : Mat 128 128) (b2 : Vec1 128) : Mat M 128 :=
  fun i => X i + gateW X Y (fun k => -(Z k)) Wa Wb Wc b1 W2 b2 i * Y i

/-- The edge gate: w(x, y, z) · y. -/
def gate2 {M : ℕ} (X Y : Mat M 128) (Z : Mat M 3) (Wa Wb : Mat 128 128) (Wc : Mat 3 128) (b1 : Vec1 128)
    (W2 : Mat 128 128) (b2 : Vec1 128) : Mat M 128 :=
  fun i => gateW X Y Z Wa Wb Wc b1 W2 b2 i * Y i

/-- The closing network on the sum of two arrays: affine ∘ positive part ∘ affine. -/
def fuse {M : ℕ} (A B : Mat M 128) (W1 : Mat 128 128) (b1 : Vec1 128) (W2 : Mat 128 128) (b2 : Vec1 128) : Mat M 128 :=
  affine (relu (affine (fun i => A i + B i) W1 b1)) W2 b2

end Cert.Spec

end
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«409560_j59931973649030_1_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.Region0Value.lean ====
/-
  The first launch (the node gate), read as a value: over a grid of 50 tiles of 2000 rows, tile t of the result holds,
  at its row r, the node gate of row 2000·t + r of the three row arrays; the six weight arrays are read whole at every
  tile. So the result array is the node gate of the whole arrays.
-/
import proofs.«409560_j59931973649030_1_alg».proof.Proof.Gen.KernelIdeal.Frame
import proofs.«409560_j59931973649030_1_alg».proof.Proof.Spec
import proofs.«409560_j59931973649030_1_alg».proof.Proof.LibDotPlain
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProd

/-! ## One tile: the body's result block is the node gate of the tile's blocks -/

/-- The zero offsets of a whole-block access, as the constant function. -/
theorem hz : (![0, 0] : Fin 2 → Nat) = fun _ => 0 := funext fun a => by fin_cases a <;> rfl

/-- A narrowing of the format changes no extended real. -/
theorem truncf_eq {s : Shape} {φ ψ : FTy} (a : FVec Ideal s φ) (h : ψ.bits < φ.bits) : (truncf ψ a h : FVec Ideal s ψ) = a := rfl

/-- A 2000 × 128 by 128 × 128 product into a zero accumulator is the matrix product. -/
theorem mm128 (X : FVec Ideal S2000x128 .bf16) (Y : FVec Ideal S128x128 .bf16) :
    matmul dot_S2000x128_S128x128_S2000x128_1_0_0_1_n_n none X Y (constant S2000x128 .f32 0x00000000#32) = mmP X Y :=
  Idealize.ShloMosaic.DotPlain.matmul_zero_eq _ rfl rfl rfl rfl rfl rfl none X Y

/-- A 2000 × 3 by 3 × 128 product into a zero accumulator is the matrix product. -/
theorem mm3 (X : FVec Ideal S2000x3 .bf16) (Y : FVec Ideal S3x128 .bf16) :
    matmul dot_S2000x3_S3x128_S2000x128_1_0_0_1_n_n none X Y (constant S2000x128 .f32 0x00000000#32) = mmP X Y :=
  Idealize.ShloMosaic.DotPlain.matmul_zero_eq _ rfl rfl rfl rfl rfl rfl none X Y

/-- The second row block passes through its reshaping unchanged. -/
theorem pay2_eq (x1 : Vec Ideal S2000x128 .f32) : k0_pay2 x1 = x1 := by
  unfold k0_pay2; exact shapeCast_self _ _

/-- The closing bias passes through its reshaping unchanged. -/
theorem pay4_eq (x8 : Vec Ideal S1x128 .f32) : k0_pay4 x8 = x8 := by
  unfold k0_pay4; exact shapeCast_self _ _

/-- A [1,128] row spread over 2000 rows reads the row's entry of the column. -/
theorem spread_apply (b : Vec Ideal S1x128 .f32) (r : Fin 2000) (j : Fin 128) :
    broadcastTo S2000x128 b broadcasts_S1x128_S2000x128 (ix2 r j) = b (ix2 0 j) := by
  refine broadcastTo_apply b _ (ix2 r j) (ix2 0 j) fun a => ?_
  match a with
  | ⟨0, _⟩ => rfl
  | ⟨1, _⟩ => rfl

/-- The hidden layer's positive part times the closing weights: the body's last product. -/
theorem pay3_eq (x0 x1 : Vec Ideal S2000x128 .f32) (x2 : Vec Ideal S2000x3 .f32) (x3 x4 : Vec Ideal S128x128 .f32)
    (x5 : Vec Ideal S3x128 .f32) (x6 : Vec Ideal S1x128 .f32) (x7 : Vec Ideal S128x128 .f32) :
    k0_pay3 x0 x1 x2 x3 x4 x5 x6 x7
      = mmP (Spec.relu (Spec.hidden3 (M := 2000) x0 x1 (fun k => -(x2 k)) x3 x4 x5 (Spec.rowOf x6))) x7 := by
  unfold k0_pay3
  dsimp only
  simp only [mm128, mm3, truncf_eq, shapeCast_self, pay2_eq]
  refine congrArg (fun H => mmP H x7) (funext fun i => ?_)
  obtain ⟨r, k, rfl⟩ : ∃ (r : Fin 2000) (k : Fin 128), i = ix2 r k := ⟨i 0, i 1, eq_ix2 i⟩
  have hneg : subf (broadcast S2000x3 (FloatOps.ofBits (F := Ideal) FTy.f32 0#32)) x2 = fun k => -(x2 k) := by
    funext k
    show Ideal.ofBits .f32 0x00000000#32 - x2 k = -(x2 k)
    rw [Ideal.ofBits_zero_f32, zero_sub]
  rw [hneg, maximumf_apply, addf_apply, addf_apply, addf_apply, spread_apply, broadcast_apply]
  show max _ (Ideal.ofBits .f32 0x00000000#32) = _
  rw [Ideal.ofBits_zero_f32]
  rfl

/-- THE TILE LAW: the body's result block is the node gate of its nine input blocks. -/
theorem tile_gate (x0 x1 : Vec Ideal S2000x128 .f32) (x2 : Vec Ideal S2000x3 .f32) (x3 x4 : Vec Ideal S128x128 .f32)
    (x5 : Vec Ideal S3x128 .f32) (x6 : Vec Ideal S1x128 .f32) (x7 : Vec Ideal S128x128 .f32) (x8 : Vec Ideal S1x128 .f32) :
    out0_9 x0 x1 x2 x3 x4 x5 x6 x7 x8
      = Spec.gate1 (M := 2000) x0 x1 x2 x3 x4 x5 (Spec.rowOf x6) x7 (Spec.rowOf x8) := by
  unfold out0_9
  rw [View.canon_unit_zero hz]
  simp only [View.ld_unit_zero (S := S2000x128) hz, View.ld_unit_zero (S := S2000x3) hz, View.ld_unit_zero (S := S128x128) hz,
    View.ld_unit_zero (S := S3x128) hz, View.ld_unit_zero (S := S1x128) hz]
  rw [pay2_eq, pay3_eq, pay4_eq]
  funext i
  obtain ⟨r, j, rfl⟩ : ∃ (r : Fin 2000) (j : Fin 128), i = ix2 r j := ⟨i 0, i 1, eq_ix2 i⟩
  unfold k0_pay1
  rw [addf_apply, mulf_apply, addf_apply, spread_apply]
  rfl

/-! ## The node gate is a function of the row: rows re-indexed go through it -/

section Rows
open Cert.Spec
variable {M M' : ℕ} (f : Fin M' → Fin M)

/-- A product's row depends on the left operand's same row only. -/
theorem mmP_rows {K N : ℕ} (X : Mat M K) (X' : Mat M' K) (W : Mat K N) (hX : ∀ r k, X' (ix2 r k) = X (ix2 (f r) k))
    (r : Fin M') (j : Fin N) : mmP X' W (ix2 r j) = mmP X W (ix2 (f r) j) := by
  rw [mmP_apply, mmP_apply]
  exact Finset.sum_congr rfl fun l _ => by rw [hX]

/-- The hidden layer's row depends on the three row arrays' same row only. -/
theorem hidden3_rows (X Y : Mat M 128) (Z : Mat M 3) (X' Y' : Mat M' 128) (Z' : Mat M' 3) (Wa Wb : Mat 128 128) (Wc : Mat 3 128)
    (b1 : Vec1 128) (hX : ∀ r k, X' (ix2 r k) = X (ix2 (f r) k)) (hY : ∀ r k, Y' (ix2 r k) = Y (ix2 (f r) k))
    (hZ : ∀ r k, Z' (ix2 r k) = Z (ix2 (f r) k)) (r : Fin M') (k : Fin 128) :
    hidden3 X' Y' Z' Wa Wb Wc b1 (ix2 r k) = hidden3 X Y Z Wa Wb Wc b1 (ix2 (f r) k) := by
  show ((mmP X' Wa (ix2 r k) + mmP Y' Wb (ix2 r k)) + mmP Z' Wc (ix2 r k)) + b1 (ix1 k)
    = ((mmP X Wa (ix2 (f r) k) + mmP Y Wb (ix2 (f r) k)) + mmP Z Wc (ix2 (f r) k)) + b1 (ix1 k)
  rw [mmP_rows f X X' Wa hX, mmP_rows f Y Y' Wb hY, mmP_rows f Z Z' Wc hZ]

/-- ROW LOCALITY: the node gate of re-indexed rows is the node gate at the re-indexed row. -/
theorem gate1_rows (X Y : Mat M 128) (Z : Mat M 3) (X' Y' : Mat M' 128) (Z' : Mat M' 3) (Wa Wb : Mat 128 128) (Wc : Mat 3 128)
    (b1 : Vec1 128) (W2 : Mat 128 128) (b2 : Vec1 128) (hX : ∀ r k, X' (ix2 r k) = X (ix2 (f r) k))
    (hY : ∀ r k, Y' (ix2 r k) = Y (ix2 (f r) k)) (hZ : ∀ r k, Z' (ix2 r k) = Z (ix2 (f r) k)) (r : Fin M') (j : Fin 128) :
    gate1 X' Y' Z' Wa Wb Wc b1 W2 b2 (ix2 r j) = gate1 X Y Z Wa Wb Wc b1 W2 b2 (ix2 (f r) j) := by
  show X' (ix2 r j) + (mmP (relu (hidden3 X' Y' (fun k => -(Z' k)) Wa Wb Wc b1)) W2 (ix2 r j) + b2 (ix1 j)) * Y' (ix2 r j)
    = X (ix2 (f r) j) + (mmP (relu (hidden3 X Y (fun k => -(Z k)) Wa Wb Wc b1)) W2 (ix2 (f r) j) + b2 (ix1 j)) * Y (ix2 (f r) j)
  rw [hX, hY, mmP_rows f (relu (hidden3 X Y (fun k => -(Z k)) Wa Wb Wc b1)) (relu (hidden3 X' Y' (fun k => -(Z' k)) Wa Wb Wc b1)) W2
    fun r k => by
      show max (hidden3 X' Y' (fun k => -(Z' k)) Wa Wb Wc b1 (ix2 r k)) 0 = max (hidden3 X Y (fun k => -(Z k)) Wa Wb Wc b1 (ix2 (f r) k)) 0
      rw [hidden3_rows f X Y (fun k => -(Z k)) X' Y' (fun k => -(Z' k)) Wa Wb Wc b1 hX hY fun r k => by
        show -(Z' (ix2 r k)) = -(Z (ix2 (f r) k))
        rw [hZ]]]

end Rows

/-! ## The tiles in the arrays: each window's block at a point, read off its array -/

variable (V : (c : Dev nD) → (b : Ref sig .tc) → Buf (Elt Ideal) ((c : Thread nD τ).loc b))

/-- The printed index maps, decided over the 50 points: the three row windows and the result's window sit at block
    (t, 0); the six weight windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- A point's number is below 50. -/
theorem point_lt (t : Fin cfg0.N) : t.val < 50 := lt_of_lt_of_eq t.isLt N_0

/-- Row r of tile t is row 2000·t + r of the 100000 rows. -/
def rowAt (t : Fin cfg0.N) (r : Fin 2000) : Fin 100000 := ⟨2000 * t.val + r.val, by have := point_lt t; omega⟩

/-- Window 0's block at point t holds rows 2000·t … of the first row array. -/
theorem rows0 (c : Dev nD) (t : Fin cfg0.N) (r : Fin 2000) (k : Fin 128) :
    (iblk0 V c 0 t : Vec Ideal S2000x128 .f32) (ix2 r k) = (V c main_arg0 : Spec.Mat 100000 128) (ix2 (rowAt t r) k) := by
  obtain ⟨⟨e0, e1⟩, -⟩ := idx_facts t
  show V c main_arg0 (((cfg0.win 0).blk t).view.emb (ix2 r k)) = V c main_arg0 (ix2 (rowAt t r) k)
  refine congrArg (V c main_arg0) (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * k.val = k.val; omega

/-- Window 1's block at point t holds rows 2000·t … of the second row array. -/
theorem rows1 (c : Dev nD) (t : Fin cfg0.N) (r : Fin 2000) (k : Fin 128) :
    (iblk0 V c 1 t : Vec Ideal S2000x128 .f32) (ix2 r k) = (V c main_v0 : Spec.Mat 100000 128) (ix2 (rowAt t r) k) := by
  obtain ⟨-, ⟨e0, e1⟩, -⟩ := idx_facts t
  show V c main_v0 (((cfg0.win 1).blk t).view.emb (ix2 r k)) = V c main_v0 (ix2 (rowAt t r) k)
  refine congrArg (V c main_v0) (funext fun a => Fin.ext ?_)
  match a with
  | ⟨0, _⟩ => show win0_1.index t (0 : Fin 2) * 2000 + 1 * r.val = 2000 * t.val + r.val; omega
  | ⟨1, _⟩ => show win0_1.index t (1 : Fin 2) * 128 + 1 * k.val = k.val; omega

/-- Window 2's block at point t holds rows 2000·t … of the third row array. -/
theorem rows2 (c : Dev nD) (t : Fin cfg0.N) (r : Fin 2000) (k : Fin 3) :
    (iblk0 V c 2 t : Vec Ideal S2000x3 .f32) (ix2 r k) = (V c main_arg3 : Spec.Mat 100000 3) (ix2 (rowAt t r) k) := by
  obtain ⟨-, -, ⟨e0, e1⟩, -⟩ := idx_facts t
  show V c main_arg3 (((cfg0.win 2).blk t).view.emb (ix2 r k)) = V c main_arg3 (ix2 (rowAt t r) k)
  refine congrArg (V c main_arg3) (funext fun a => Fin.ext ?_)
  match a with
  | ⟨0, _⟩ => show win0_2.index t (0 : Fin 2) * 2000 + 1 * r.val = 2000 * t.val + r.val; omega
  | ⟨1, _⟩ => show win0_2.index t (1 : Fin 2) * 3 + 1 * k.val = k.val; omega

/-- Window 3's block at every point is the whole first weight array. -/
theorem whole3 (c : Dev nD) (t : Fin cfg0.N) : (iblk0 V c 3 t : Vec Ideal S128x128 .f32) = V c main_v7 := by
  obtain ⟨-, -, -, ⟨e0, e1⟩, -⟩ := idx_facts t
  funext y
  show V c main_v7 (((cfg0.win 3).blk t).view.emb y) = V c main_v7 y
  refine congrArg (V c main_v7) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block at every point is the whole second weight array. -/
theorem whole4 (c : Dev nD) (t : Fin cfg0.N) : (iblk0 V c 4 t : Vec Ideal S128x128 .f32) = V c main_v8 := by
  obtain ⟨-, -, -, -, ⟨e0, e1⟩, -⟩ := idx_facts t
  funext y
  show V c main_v8 (((cfg0.win 4).blk t).view.emb y) = V c main_v8 y
  refine congrArg (V c main_v8) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is the whole third weight array. -/
theorem whole5 (c : Dev nD) (t : Fin cfg0.N) : (iblk0 V c 5 t : Vec Ideal S3x128 .f32) = V c main_v9 := by
  obtain ⟨-, -, -, -, -, ⟨e0, e1⟩, -⟩ := idx_facts t
  funext y
  show V c main_v9 (((cfg0.win 5).blk t).view.emb y) = V c main_v9 y
  refine congrArg (V c main_v9) (funext fun a => Fin.ext ?_)
  match a with
  | ⟨0, _⟩ => show win0_5.index t (0 : Fin 2) * 3 + 1 * (y 0).val = (y 0).val; omega
  | ⟨1, _⟩ => show win0_5.index t (1 : Fin 2) * 128 + 1 * (y 1).val = (y 1).val; omega

/-- Window 6's block at every point is the whole hidden bias. -/
theorem whole6 (c : Dev nD) (t : Fin cfg0.N) : (iblk0 V c 6 t : Vec Ideal S1x128 .f32) = V c main_v13 := by
  obtain ⟨-, -, -, -, -, -, ⟨e0, e1⟩, -⟩ := idx_facts t
  funext y
  show V c main_v13 (((cfg0.win 6).blk t).view.emb y) = V c main_v13 y
  refine congrArg (V c main_v13) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block at every point is the whole closing weight array. -/
theorem whole7 (c : Dev nD) (t : Fin cfg0.N) : (iblk0 V c 7 t : Vec Ideal S128x128 .f32) = V c main_arg8 := by
  obtain ⟨-, -, -, -, -, -, -, ⟨e0, e1⟩, -⟩ := idx_facts t
  funext y
  show V c main_arg8 (((cfg0.win 7).blk t).view.emb y) = V c main_arg8 y
  refine congrArg (V c main_arg8) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block at every point is the whole closing bias. -/
theorem whole8 (c : Dev nD) (t : Fin cfg0.N) : (iblk0 V c 8 t : Vec Ideal S1x128 .f32) = V c main_v14 := by
  obtain ⟨-, -, -, -, -, -, -, -, ⟨e0, e1⟩, -⟩ := idx_facts t
  funext y
  show V c main_v14 (((cfg0.win 8).blk t).view.emb y) = V c main_v14 y
  refine congrArg (V c main_v14) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- The result window's block at point t sits at rows 2000·t … of the result array. -/
theorem out_emb (t : Fin cfg0.N) (r : Fin 2000) (j : Fin 128) :
    ((cfg0.win 9).blk t).view.emb (ix2 r j) = (ix2 (rowAt t r) j : (⟨2, ![100000, 128]⟩ : Shape).Idx) := by
  obtain ⟨-, -, -, -, -, -, -, -, -, ⟨e0, e1⟩⟩ := idx_facts t
  refine funext fun a => Fin.ext ?_
  match a with
  | ⟨0, _⟩ => show win0_9.index t (0 : Fin 2) * 2000 + 1 * r.val = 2000 * t.val + r.val; omega
  | ⟨1, _⟩ => show win0_9.index t (1 : Fin 2) * 128 + 1 * j.val = j.val; omega

/-! ## From the tiles to the array -/

/-- The node gate of the arrays the launch was entered with. -/
abbrev gateAll (c : Dev nD) : Spec.Mat 100000 128 :=
  Spec.gate1 (M := 100000) (V c main_arg0) (V c main_v0) (V c main_arg3) (V c main_v7) (V c main_v8) (V c main_v9)
    (Spec.rowOf (V c main_v13)) (V c main_arg8) (Spec.rowOf (V c main_v14))

/-- WHAT POINT t WRITES BACK is block t of the node gate of the whole arrays. -/
theorem flushed_eq (c : Dev nD) (t : Fin cfg0.N) :
    (dat0 (F := Ideal) V c).flushed 9 t = ((cfg0.win 9).blk t).view.read (Elt Ideal) (gateAll V c) := by
  show (cfg0.win 9).cut (grid0.coords t) ((dat0 (F := Ideal) V c).after 9 t) = _
  rw [after0_9, tile_gate, whole3, whole4, whole5, whole6, whole7, whole8]
  refine funext fun (y : S2000x128.Idx) => ?_
  obtain ⟨r, j, rfl⟩ : ∃ (r : Fin 2000) (j : Fin 128), y = ix2 r j := ⟨y 0, y 1, eq_ix2 y⟩
  show Spec.gate1 (M := 2000) (iblk0 V c 0 t) (iblk0 V c 1 t) (iblk0 V c 2 t) (V c main_v7) (V c main_v8) (V c main_v9)
      (Spec.rowOf (V c main_v13)) (V c main_arg8) (Spec.rowOf (V c main_v14)) (ix2 r j)
    = gateAll V c (((cfg0.win 9).blk t).view.emb (ix2 r j))
  rw [out_emb]
  exact gate1_rows (rowAt t) _ _ _ _ _ _ _ _ _ _ _ _ (rows0 V c t) (rows1 V c t) (rows2 V c t) r j

/-- Every row of the result array is in some point's block: row i in point i / 2000's. -/
theorem covered (i : S100000x128.Idx) :
    ∃ t : Fin cfg0.N, (cfg0.win 9).flush t = true ∧ i ∈ ((cfg0.win 9).blk t).view.set := by
  have h0 : (i 0).val < 100000 := (i 0).isLt
  have h1 : (i 1).val < 128 := (i 1).isLt
  have ht : (i 0).val / 2000 < cfg0.N := by rw [show cfg0.N = 50 from N_0]; omega
  obtain ⟨-, -, -, -, -, -, -, -, -, ⟨e0, e1⟩⟩ := idx_facts ⟨(i 0).val / 2000, ht⟩
  refine ⟨⟨(i 0).val / 2000, ht⟩, flush0_9 _, ?_⟩
  show i ∈ ((View.whole main_v19).slice (win0_9.rect ⟨(i 0).val / 2000, ht⟩)).set
  rw [View.set_slice_whole, Rect.mem_set_unit]
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, ht⟩ (1 : Fin 2) * 128 ≤ (i 1).val
      ∧ (i 1).val < win0_9.index ⟨(i 0).val / 2000, ht⟩ (1 : Fin 2) * 128 + 128
    omega

/-- The array the first launch leaves: the node gate of the arrays it was entered with. -/
theorem final0 (c : Dev nD) :
    (dat0 (F := Ideal) V c).arrAt 9 cfg0.N
      = Spec.gate1 (M := 100000) (V c main_arg0) (V c main_v0) (V c main_arg3) (V c main_v7) (V c main_v8) (V c main_v9)
          (Spec.rowOf (V c main_v13)) (V c main_arg8) (Spec.rowOf (V c main_v14)) :=
  (dat0 (F := Ideal) V c).arrAt_eq_of_cover 9 (gateAll V c) (fun t _ => flushed_eq V c t) covered

end Cert.KernelIdeal.Region0

end
-- ==== Proof.Region1Value.lean ====
/-
  The second launch (the edge gate), read as a value: over a grid of 100 tiles of 4000 rows, tile t of the result holds,
  at its row r, the edge gate of row 4000·t + r of the three row arrays; the six weight arrays are read whole at every
  tile. So the result array is the edge gate of the whole arrays.

  In order: the body's result block is the edge gate of its nine input blocks (the block law); the edge gate is a
  function of the row alone (row locality); each input block read off its array (rows 4000·t + r of a row array, the
  whole of a weight array); so what point t writes back is block t of the edge gate of the whole arrays; the 100 blocks
  cover the result array (row i lies in block i / 4000); hence the array.
-/
import proofs.«409560_j59931973649030_1_alg».proof.Proof.Gen.KernelIdeal.Frame
import proofs.«409560_j59931973649030_1_alg».proof.Proof.Spec
import proofs.«409560_j59931973649030_1_alg».proof.Proof.LibDotPlain
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block law -/

/-- Offsets written as the pair (0, 0) are the zero offsets. -/
theorem zero_offsets : (![0, 0] : Fin 2 → Nat) = fun _ => 0 := funext fun a => by fin_cases a <;> rfl

/-- A format change is the identity on extended reals. -/
theorem truncf_id {s : Shape} {φ ψ : FTy} (a : FVec Ideal s φ) (h : ψ.bits < φ.bits) :
    (truncf ψ a h : FVec Ideal s ψ) = a := rfl

/-- A [4000 × 128] by [128 × 128] product of the matrix unit into a zero accumulator is the matrix product. -/
theorem mm128 {φ₁ φ₂ : FTy} (X : FVec Ideal S4000x128 φ₁) (Y : FVec Ideal S128x128 φ₂) :
    matmul dot_S4000x128_S128x128_S4000x128_1_0_0_1_n_n none X Y (constant S4000x128 .f32 0x00000000#32) = MatProd.mmP X Y :=
  DotPlain.matmul_zero_eq dot_S4000x128_S128x128_S4000x128_1_0_0_1_n_n rfl rfl rfl rfl rfl rfl none X Y

/-- A [4000 × 3] by [3 × 128] product of the matrix unit into a zero accumulator is the matrix product. -/
theorem mm3 {φ₁ φ₂ : FTy} (X : FVec Ideal S4000x3 φ₁) (Y : FVec Ideal S3x128 φ₂) :
    matmul dot_S4000x3_S3x128_S4000x128_1_0_0_1_n_n none X Y (constant S4000x128 .f32 0x00000000#32) = MatProd.mmP X Y :=
  DotPlain.matmul_zero_eq dot_S4000x3_S3x128_S4000x128_1_0_0_1_n_n rfl rfl rfl rfl rfl rfl none X Y

/-- A [1 × 128] row broadcast down 4000 rows reads the row's entry at the column. -/
theorem bcast_row (v : FVec Ideal S1x128 .f32) (h : S1x128.Broadcasts S4000x128) (i : S4000x128.Idx) :
    broadcastTo S4000x128 v h i = v (ix2 0 (i 1)) := by
  refine broadcastTo_apply v h i (ix2 0 (i 1)) fun a => ?_
  match a with
  | ⟨0, _⟩ => rfl
  | ⟨1, _⟩ => rfl

/-- THE BLOCK LAW. On any nine blocks the body's one whole-block store leaves the edge gate of the blocks:
    ((max (((x0·x3 + x1·x4) + x2·x5) + b1) 0)·x7 + b2) * x1, entry by entry, the two biases the one rows of x6 and x8. -/
theorem block_law (x0 x1 : Vec Ideal S4000x128 .f32) (x2 : Vec Ideal S4000x3 .f32) (x3 x4 : Vec Ideal S128x128 .f32)
    (x5 : Vec Ideal S3x128 .f32) (x6 : Vec Ideal S1x128 .f32) (x7 : Vec Ideal S128x128 .f32) (x8 : Vec Ideal S1x128 .f32) :
    out1_9 x0 x1 x2 x3 x4 x5 x6 x7 x8
      = Spec.gate2 (M := 4000) x0 x1 x2 x3 x4 x5 (Spec.rowOf x6) x7 (Spec.rowOf x8) := by
  unfold out1_9
  rw [View.canon_unit_zero zero_offsets]
  simp only [View.ld_unit_zero (S := S4000x128) zero_offsets, View.ld_unit_zero (S := S4000x3) zero_offsets, View.ld_unit_zero (S := S128x128) zero_offsets,
    View.ld_unit_zero (S := S3x128) zero_offsets, View.ld_unit_zero (S := S1x128) zero_offsets]
  unfold k1_pay1 k1_pay3 k1_pay2
  simp only [shapeCast_self, truncf_id, mm128, mm3]
  funext i
  rw [mulf_apply, addf_apply, bcast_row]
  refine congrArg (· * x1 i) (congrArg₂ (· + ·) (congrArg (fun H => MatProd.mmP H x7 i) ?_) rfl)
  funext k
  rw [maximumf_apply, addf_apply, bcast_row, broadcast_apply]
  show max _ (Ideal.ofBits .f32 0#32) = max _ 0
  rw [Ideal.ofBits_zero_f32]
  rfl

/-! ## Row locality of the edge gate -/

section RowLocal
open Cert.Spec

variable {M M' : ℕ} (f : Fin M' → Fin M) (X Y : Mat M 128) (Z : Mat M 3) (X' Y' : Mat M' 128) (Z' : Mat M' 3)
  (Wa Wb : Mat 128 128) (Wc : Mat 3 128) (b1 : Vec1 128) (W2 : Mat 128 128) (b2 : Vec1 128)

/-- The hidden layer is a function of the row: if the rows of the primed arrays are rows f r of the unprimed ones,
    so is the hidden layer's row. -/
theorem hidden_rows (hX : ∀ r k, X' (ix2 r k) = X (ix2 (f r) k)) (hY : ∀ r k, Y' (ix2 r k) = Y (ix2 (f r) k))
    (hZ : ∀ r k, Z' (ix2 r k) = Z (ix2 (f r) k)) (r : Fin M') (k : Fin 128) :
    relu (hidden3 X' Y' Z' Wa Wb Wc b1) (ix2 r k) = relu (hidden3 X Y Z Wa Wb Wc b1) (ix2 (f r) k) := by
  show max (((MatProd.mmP X' Wa (ix2 r k) + MatProd.mmP Y' Wb (ix2 r k)) + MatProd.mmP Z' Wc (ix2 r k)) + b1 (ix1 k)) 0
     = max (((MatProd.mmP X Wa (ix2 (f r) k) + MatProd.mmP Y Wb (ix2 (f r) k)) + MatProd.mmP Z Wc (ix2 (f r) k)) + b1 (ix1 k)) 0
  simp only [MatProd.mmP_apply, hX, hY, hZ]

/-- So is the edge gate. -/
theorem gate2_rows (hX : ∀ r k, X' (ix2 r k) = X (ix2 (f r) k)) (hY : ∀ r k, Y' (ix2 r k) = Y (ix2 (f r) k))
    (hZ : ∀ r k, Z' (ix2 r k) = Z (ix2 (f r) k)) (r : Fin M') (j : Fin 128) :
    gate2 X' Y' Z' Wa Wb Wc b1 W2 b2 (ix2 r j) = gate2 X Y Z Wa Wb Wc b1 W2 b2 (ix2 (f r) j) := by
  show (MatProd.mmP (relu (hidden3 X' Y' Z' Wa Wb Wc b1)) W2 (ix2 r j) + b2 (ix1 j)) * Y' (ix2 r j)
     = (MatProd.mmP (relu (hidden3 X Y Z Wa Wb Wc b1)) W2 (ix2 (f r) j) + b2 (ix1 j)) * Y (ix2 (f r) j)
  rw [MatProd.mmP_apply, MatProd.mmP_apply, hY]
  simp only [hidden_rows f X Y Z X' Y' Z' Wa Wb Wc b1 hX hY hZ]

end RowLocal

/-! ## The blocks, read off the arrays -/

variable (V : (c : Dev nD) → (b : Ref sig .tc) → Buf (Elt Ideal) ((c : Thread nD τ).loc b))

/-- The index maps over the grid: the row windows and the result move down one block per point, the weight windows stay. -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- The grid has 100 points. -/
theorem point_lt (t : Fin cfg1.N) : t.val < 100 := by
  have h : cfg1.N = 100 := N_1
  have := t.isLt
  omega

/-- Row r of row window 0's block at point t is row 4000·t + r of its array. -/
theorem iblk0_apply (c : Dev nD) (t : Fin cfg1.N) (r : Fin 4000) (k : Fin 128) (hr : 4000 * t.val + r.val < 400000) :
    (iblk1 V c 0 t : Vec Ideal S4000x128 .f32) (ix2 r k)
      = (V c main_v6 : S400000x128.Idx → EReal) (ix2 ⟨4000 * t.val + r.val, hr⟩ k) := by
  obtain ⟨⟨e0, e1⟩, -⟩ := block_indices t
  unfold iblk1
  rw [View.read_apply]
  show V c main_v6 _ = V c main_v6 _
  congr 1
  funext a
  apply Fin.ext
  match a with
  | ⟨0, _⟩ => show win1_0.index t (0 : Fin 2) * 4000 + 1 * r.val = 4000 * t.val + r.val; rw [e0]; omega
  | ⟨1, _⟩ => show win1_0.index t (1 : Fin 2) * 128 + 1 * k.val = k.val; rw [e1]; omega

/-- Row r of row window 1's block at point t is row 4000·t + r of its array. -/
theorem iblk1_apply (c : Dev nD) (t : Fin cfg1.N) (r : Fin 4000) (k : Fin 128) (hr : 4000 * t.val + r.val < 400000) :
    (iblk1 V c 1 t : Vec Ideal S4000x128 .f32) (ix2 r k)
      = (V c main_v5 : S400000x128.Idx → EReal) (ix2 ⟨4000 * t.val + r.val, hr⟩ k) := by
  obtain ⟨-, ⟨e0, e1⟩, -⟩ := block_indices t
  unfold iblk1
  rw [View.read_apply]
  show V c main_v5 _ = V c main_v5 _
  congr 1
  funext a
  apply Fin.ext
  match a with
  | ⟨0, _⟩ => show win1_1.index t (0 : Fin 2) * 4000 + 1 * r.val = 4000 * t.val + r.val; rw [e0]; omega
  | ⟨1, _⟩ => show win1_1.index t (1 : Fin 2) * 128 + 1 * k.val = k.val; rw [e1]; omega

/-- Row r of row window 2's block at point t is row 4000·t + r of its array. -/
theorem iblk2_apply (c : Dev nD) (t : Fin cfg1.N) (r : Fin 4000) (k : Fin 3) (hr : 4000 * t.val + r.val < 400000) :
    (iblk1 V c 2 t : Vec Ideal S4000x3 .f32) (ix2 r k)
      = (V c main_arg5 : S400000x3.Idx → EReal) (ix2 ⟨4000 * t.val + r.val, hr⟩ k) := by
  obtain ⟨-, -, ⟨e0, e1⟩, -⟩ := block_indices t
  unfold iblk1
  rw [View.read_apply]
  show V c main_arg5 _ = V c main_arg5 _
  congr 1
  funext a
  apply Fin.ext
  match a with
  | ⟨0, _⟩ => show win1_2.index t (0 : Fin 2) * 4000 + 1 * r.val = 4000 * t.val + r.val; rw [e0]; omega
  | ⟨1, _⟩ => show win1_2.index t (1 : Fin 2) * 3 + 1 * k.val = k.val; rw [e1]; omega

/-- Weight window 3's block is its whole array at every point. -/
theorem iblk3_eq (c : Dev nD) (t : Fin cfg1.N) :
    (iblk1 V c 3 t : Vec Ideal S128x128 .f32) = (V c main_v10 : S128x128.Idx → EReal) := by
  obtain ⟨-, -, -, ⟨e0, e1⟩, -⟩ := block_indices t
  funext y
  unfold iblk1
  rw [View.read_apply]
  show V c main_v10 _ = V c main_v10 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Weight window 4's block is its whole array at every point. -/
theorem iblk4_eq (c : Dev nD) (t : Fin cfg1.N) :
    (iblk1 V c 4 t : Vec Ideal S128x128 .f32) = (V c main_v11 : S128x128.Idx → EReal) := by
  obtain ⟨-, -, -, -, ⟨e0, e1⟩, -⟩ := block_indices t
  funext y
  unfold iblk1
  rw [View.read_apply]
  show V c main_v11 _ = V c main_v11 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Weight window 5's block is its whole array at every point. -/
theorem iblk5_eq (c : Dev nD) (t : Fin cfg1.N) :
    (iblk1 V c 5 t : Vec Ideal S3x128 .f32) = (V c main_v12 : S3x128.Idx → EReal) := by
  obtain ⟨-, -, -, -, -, ⟨e0, e1⟩, -⟩ := block_indices t
  funext y
  unfold iblk1
  rw [View.read_apply]
  show V c main_v12 _ = V c main_v12 _
  congr 1
  funext a
  apply Fin.ext
  match a with
  | ⟨0, _⟩ => show win1_5.index t (0 : Fin 2) * 3 + 1 * (y 0).val = (y 0).val; rw [e0]; omega
  | ⟨1, _⟩ => show win1_5.index t (1 : Fin 2) * 128 + 1 * (y 1).val = (y 1).val; rw [e1]; omega

/-- Weight window 6's block is its whole array at every point. -/
theorem iblk6_eq (c : Dev nD) (t : Fin cfg1.N) :
    (iblk1 V c 6 t : Vec Ideal S1x128 .f32) = (V c main_v15 : S1x128.Idx → EReal) := by
  obtain ⟨-, -, -, -, -, -, ⟨e0, e1⟩, -⟩ := block_indices t
  funext y
  unfold iblk1
  rw [View.read_apply]
  show V c main_v15 _ = V c main_v15 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Weight window 7's block is its whole array at every point. -/
theorem iblk7_eq (c : Dev nD) (t : Fin cfg1.N) :
    (iblk1 V c 7 t : Vec Ideal S128x128 .f32) = (V c main_arg12 : S128x128.Idx → EReal) := by
  obtain ⟨-, -, -, -, -, -, -, ⟨e0, e1⟩, -⟩ := block_indices t
  funext y
  unfold iblk1
  rw [View.read_apply]
  show V c main_arg12 _ = V c main_arg12 _
  congr 1
  funext a
  apply Fin.ext
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

/-- Weight window 8's block is its whole array at every point. -/
theorem iblk8_eq (c : Dev nD) (t : Fin cfg1.N) :
    (iblk1 V c 8 t : Vec Ideal S1x128 .f32) = (V c main_v16 : S1x128.Idx → EReal) := by
  obtain ⟨-, -, -, -, -, -, -, -, ⟨e0, e1⟩, -⟩ := block_indices t
  funext y
  unfold iblk1
  rw [View.read_apply]
  show V c main_v16 _ = V c main_v16 _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-! ## From the blocks to the array -/

/-- An element of the result's block at point t sits in the result array at row 4000·t + r. -/
theorem result_block_row (t : Fin cfg1.N) (r : Fin 4000) (j : Fin 128) (hr : 4000 * t.val + r.val < 400000) :
    (((cfg1.win 9).blk t).view.emb (ix2 r j : S4000x128.Idx) : S400000x128.Idx) = ix2 ⟨4000 * t.val + r.val, hr⟩ j := by
  obtain ⟨-, -, -, -, -, -, -, -, -, ⟨e0, e1⟩⟩ := block_indices t
  funext a
  apply Fin.ext
  match a with
  | ⟨0, _⟩ => show win1_9.index t (0 : Fin 2) * 4000 + 1 * r.val = 4000 * t.val + r.val; rw [e0]; omega
  | ⟨1, _⟩ => show win1_9.index t (1 : Fin 2) * 128 + 1 * j.val = j.val; rw [e1]; omega

/-- The edge gate of the arrays the launch was entered with. -/
abbrev gateOut (c : Dev nD) : S400000x128.Idx → EReal :=
  Spec.gate2 (M := 400000) (V c main_v6) (V c main_v5) (V c main_arg5) (V c main_v10) (V c main_v11) (V c main_v12)
    (Spec.rowOf (V c main_v15)) (V c main_arg12) (Spec.rowOf (V c main_v16))

/-- What point t writes back is block t of the edge gate of the whole arrays. -/
theorem written_back_eq (c : Dev nD) (t : Fin cfg1.N) :
    (dat1 (F := Ideal) V c).flushed 9 t = ((cfg1.win 9).blk t).view.read (Elt Ideal) (gateOut V c) := by
  show (cfg1.win 9).cut (grid1.coords t) ((dat1 V c).after 9 t) = _
  rw [after1_9]
  rw [block_law (iblk1 V c 0 t) (iblk1 V c 1 t) (iblk1 V c 2 t) (iblk1 V c 3 t) (iblk1 V c 4 t) (iblk1 V c 5 t)
    (iblk1 V c 6 t) (iblk1 V c 7 t) (iblk1 V c 8 t)]
  rw [iblk3_eq V c t, iblk4_eq V c t, iblk5_eq V c t, iblk6_eq V c t, iblk7_eq V c t, iblk8_eq V c t]
  refine funext fun (y : S4000x128.Idx) => ?_
  obtain ⟨r, j, rfl⟩ : ∃ (r : Fin 4000) (j : Fin 128), y = ix2 r j := ⟨y 0, y 1, eq_ix2 y⟩
  have ht := point_lt t
  have hr : ∀ r : Fin 4000, 4000 * t.val + r.val < 400000 := fun r => by have := r.isLt; omega
  rw [View.read_apply]
  show Spec.gate2 (M := 4000) (iblk1 V c 0 t) (iblk1 V c 1 t) (iblk1 V c 2 t) (V c main_v10) (V c main_v11) (V c main_v12)
      (Spec.rowOf (V c main_v15)) (V c main_arg12) (Spec.rowOf (V c main_v16)) (ix2 r j)
    = gateOut V c (((cfg1.win 9).blk t).view.emb (ix2 r j : S4000x128.Idx))
  rw [result_block_row t r j (hr r)]
  exact gate2_rows (fun r => ⟨4000 * t.val + r.val, hr r⟩) (V c main_v6) (V c main_v5) (V c main_arg5)
    (iblk1 V c 0 t) (iblk1 V c 1 t) (iblk1 V c 2 t) (V c main_v10) (V c main_v11) (V c main_v12)
    (Spec.rowOf (V c main_v15)) (V c main_arg12) (Spec.rowOf (V c main_v16))
    (fun r k => iblk0_apply V c t r k (hr r)) (fun r k => iblk1_apply V c t r k (hr r)) (fun r k => iblk2_apply V c t r k (hr r)) r j

/-- An index of the result array is in point t's block iff its row is among the block's 4000 rows. -/
theorem mem_result_block (t : Fin cfg1.N) (i : S400000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v20).slice (win1_9.rect t)).set ↔ _
  rw [View.set_slice_whole, Rect.mem_set_unit]
  exact Iff.rfl

/-- Row i of the result is written by point i / 4000. -/
theorem rows_covered (i : S400000x128.Idx) :
    ∃ t : Fin cfg1.N, (cfg1.win 9).flush t = true ∧ i ∈ ((cfg1.win 9).blk t).view.set := by
  have hN : cfg1.N = 100 := N_1
  have hi0 : (i 0).val < 400000 := (i 0).isLt
  have hi1 : (i 1).val < 128 := (i 1).isLt
  let t : Fin cfg1.N := ⟨(i 0).val / 4000, by rw [hN]; omega⟩
  have htv : t.val = (i 0).val / 4000 := rfl
  obtain ⟨-, -, -, -, -, -, -, -, -, ⟨e0, e1⟩⟩ := block_indices t
  refine ⟨t, flush1_9 t, ?_⟩
  rw [mem_result_block]
  intro a
  match a with
  | ⟨0, _⟩ => show win1_9.index t (0 : Fin 2) * 4000 ≤ (i 0).val ∧ (i 0).val < win1_9.index t (0 : Fin 2) * 4000 + 4000; rw [e0, htv]; omega
  | ⟨1, _⟩ => show win1_9.index t (1 : Fin 2) * 128 ≤ (i 1).val ∧ (i 1).val < win1_9.index t (1 : Fin 2) * 128 + 128; rw [e1]; omega

/-- The array the second launch leaves: the edge gate of the arrays it was entered with. -/
theorem final1 (c : Dev nD) :
    (dat1 (F := Ideal) V c).arrAt 9 cfg1.N
      = Spec.gate2 (M := 400000) (V c main_v6) (V c main_v5) (V c main_arg5) (V c main_v10) (V c main_v11) (V c main_v12)
          (Spec.rowOf (V c main_v15)) (V c main_arg12) (Spec.rowOf (V c main_v16)) :=
  (dat1 (F := Ideal) V c).arrAt_eq_of_cover 9 (gateOut V c) (fun t _ => written_back_eq V c t) rows_covered

end Cert.KernelIdeal.Region1

end
-- ==== Proof.Region2Value.lean ====
/-
  The third launch (the closing network), read as a value: over a grid of 50 tiles of 2000 rows, tile t of the result
  holds, at its row r, the closing network of row 2000·t + r of the sum of its two row arrays; the four weight arrays are
  read whole at every tile. So the result array is the closing network of the whole arrays.

  The steps: the body's result block is the closing network of its input blocks (two matrix products into zero
  accumulators, two row vectors spread over the rows, one positive part); the closing network of a row depends on that
  row alone; tile t of a row window is rows 2000·t … 2000·t + 1999 of its array and a weight window is its whole array;
  so tile t writes back tile t of the closing network of the whole arrays, and the 50 tiles cover the result.
-/
import proofs.«409560_j59931973649030_1_alg».proof.Proof.Gen.KernelIdeal.Frame
import proofs.«409560_j59931973649030_1_alg».proof.Proof.Spec
import proofs.«409560_j59931973649030_1_alg».proof.Proof.LibDotPlain
import Idealize.ShloMosaic.Lib.Pipeline.Value
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's result block -/

/-- The zero offsets, however spelt. -/
theorem hz : (![0, 0] : Fin 2 → Nat) = fun _ => 0 := funext fun a => by fin_cases a <;> rfl

/-- The matrix unit's product into a zero accumulator is the matrix product. -/
theorem mm_eq (X : FVec Ideal S2000x128 .bf16) (Y : FVec Ideal S128x128 .bf16) :
    matmul dot_S2000x128_S128x128_S2000x128_1_0_0_1_n_n none X Y (constant S2000x128 .f32 0x00000000#32) = MatProd.mmP X Y :=
  Idealize.ShloMosaic.DotPlain.matmul_zero_eq dot_S2000x128_S128x128_S2000x128_1_0_0_1_n_n rfl rfl rfl rfl rfl rfl none X Y

/-- A matrix product plus a row vector spread over the rows is the affine map of the rows. -/
theorem affine_eq (H : FVec Ideal S2000x128 .bf16) (W : FVec Ideal S128x128 .bf16) (b : Vec Ideal S1x128 .f32) :
    (addf (MatProd.mmP H W : FVec Ideal S2000x128 .f32) (broadcastTo S2000x128 b broadcasts_S1x128_S2000x128) : FVec Ideal S2000x128 .f32)
      = Spec.affine H W (Spec.rowOf b) := by
  funext i
  obtain ⟨r, j, rfl⟩ : ∃ (r : Fin 2000) (j : Fin 128), i = ix2 r j := ⟨i 0, i 1, eq_ix2 i⟩
  show MatProd.mmP H W (ix2 r j) + broadcastTo S2000x128 b broadcasts_S1x128_S2000x128 (ix2 r j) = MatProd.mmP H W (ix2 r j) + b (ix2 0 j)
  rw [broadcastTo_1b_ab_apply]

/-- The maximum with the zero constant is the positive part. -/
theorem relu_eq (Z : FVec Ideal S2000x128 .f32) :
    truncf .bf16 (maximumf Z (broadcast S2000x128 (FloatOps.ofBits .f32 0x00000000#32))) bitsLt_bf16_f32 = Spec.relu Z := by
  funext i
  show max (Z i) (Ideal.ofBits .f32 0x00000000#32) = max (Z i) 0
  rw [Ideal.ofBits_zero_f32]

/-- What the body stores, from the blocks it loads: the closing network of the sum of the two row blocks. -/
theorem pay_eq (x0 x1 : Vec Ideal S2000x128 .f32) (x2 : Vec Ideal S128x128 .f32) (x3 : Vec Ideal S1x128 .f32)
    (x4 : Vec Ideal S128x128 .f32) (x5 : Vec Ideal S1x128 .f32) :
    k2_pay1 (F := Ideal) x0 x1 x2 x3 x4 x5 = Spec.fuse (M := 2000) x0 x1 x2 (Spec.rowOf x3) x4 (Spec.rowOf x5) := by
  unfold k2_pay1
  dsimp only
  simp only [mm_eq, shapeCast_self, affine_eq, relu_eq]
  rfl

/-- THE BLOCK LAW: the result block is the closing network of the input blocks. -/
theorem block_law (x0 x1 : Vec Ideal S2000x128 .f32) (x2 : Vec Ideal S128x128 .f32) (x3 : Vec Ideal S1x128 .f32)
    (x4 : Vec Ideal S128x128 .f32) (x5 : Vec Ideal S1x128 .f32) :
    out2_6 (F := Ideal) x0 x1 x2 x3 x4 x5 = Spec.fuse (M := 2000) x0 x1 x2 (Spec.rowOf x3) x4 (Spec.rowOf x5) := by
  unfold out2_6
  rw [View.canon_unit_zero hz]
  simp only [View.ld_unit_zero (S := S2000x128) hz, View.ld_unit_zero (S := S128x128) hz, View.ld_unit_zero (S := S1x128) hz]
  exact pay_eq x0 x1 x2 x3 x4 x5

/-! ## The closing network of a row depends on that row alone -/

/-- ROW LOCALITY: the closing network at row r of arrays whose rows are rows f r of other arrays is the closing network
    of those at row f r. -/
theorem fuse_rows {M M' : ℕ} (f : Fin M' → Fin M) (A B : Spec.Mat M 128) (A' B' : Spec.Mat M' 128)
    (W1 : Spec.Mat 128 128) (b1 : Spec.Vec1 128) (W2 : Spec.Mat 128 128) (b2 : Spec.Vec1 128)
    (hA : ∀ (r : Fin M') (k : Fin 128), A' (ix2 r k) = A (ix2 (f r) k))
    (hB : ∀ (r : Fin M') (k : Fin 128), B' (ix2 r k) = B (ix2 (f r) k)) (r : Fin M') (j : Fin 128) :
    Spec.fuse A' B' W1 b1 W2 b2 (ix2 r j) = Spec.fuse A B W1 b1 W2 b2 (ix2 (f r) j) := by
  show MatProd.mmP (Spec.relu (Spec.affine (fun i => A' i + B' i) W1 b1)) W2 (ix2 r j) + b2 (ix1 j)
     = MatProd.mmP (Spec.relu (Spec.affine (fun i => A i + B i) W1 b1)) W2 (ix2 (f r) j) + b2 (ix1 j)
  rw [MatProd.mmP_apply, MatProd.mmP_apply]
  refine congrArg (· + b2 (ix1 j)) (Finset.sum_congr rfl fun k _ => ?_)
  refine congrArg (· * W2 (ix2 k j)) ?_
  show max (MatProd.mmP (fun i => A' i + B' i) W1 (ix2 r k) + b1 (ix1 k)) 0
     = max (MatProd.mmP (fun i => A i + B i) W1 (ix2 (f r) k) + b1 (ix1 k)) 0
  rw [MatProd.mmP_apply, MatProd.mmP_apply]
  refine congrArg (fun z => max (z + b1 (ix1 k)) 0) (Finset.sum_congr rfl fun l _ => ?_)
  show (A' (ix2 r l) + B' (ix2 r l)) * W1 (ix2 l k) = (A (ix2 (f r) l) + B (ix2 (f r) l)) * W1 (ix2 l k)
  rw [hA, hB]

/-! ## The tiles of the windows -/

variable (V : (c : Dev nD) → (b : Ref sig .tc) → Buf (Elt Ideal) ((c : Thread nD τ).loc b))

/-- The windows' index maps over the grid: the row windows are at tile t, the weight windows at tile 0. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row r of tile t is row 2000·t + r of the array. -/
def rowAt (t : Fin cfg2.N) (r : Fin 2000) : Fin 100000 :=
  ⟨2000 * t.val + r.val, by have h : t.val < 50 := lt_of_lt_of_eq t.isLt (N_2 : cfg2.N = 50); have := r.isLt; omega⟩

/-- The first row window's tile t, at its row r, is the array's row 2000·t + r. -/
theorem rblk0 (c : Dev nD) (t : Fin cfg2.N) (r : Fin 2000) (k : Fin 128) :
    iblk2 (F := Ideal) V c 0 t (ix2 r k) = V c main_v19 (ix2 (rowAt t r) k) := by
  obtain ⟨⟨e0, e1⟩, -⟩ := idx_facts t
  unfold iblk2
  rw [View.read_apply]
  show V c main_v19 (((cfg2.win 0).blk t).view.emb (ix2 r k)) = V c main_v19 (ix2 (rowAt t r) k)
  refine congrArg (V c main_v19) (funext fun a => Fin.ext ?_)
  match a with
  | ⟨0, _⟩ => show win2_0.index t (0 : Fin 2) * 2000 + 1 * r.val = 2000 * t.val + r.val; rw [e0]; omega
  | ⟨1, _⟩ => show win2_0.index t (1 : Fin 2) * 128 + 1 * k.val = k.val; rw [e1]; omega

/-- The second row window's tile t, at its row r, is the array's row 2000·t + r. -/
theorem rblk1 (c : Dev nD) (t : Fin cfg2.N) (r : Fin 2000) (k : Fin 128) :
    iblk2 (F := Ideal) V c 1 t (ix2 r k) = V c main_v32 (ix2 (rowAt t r) k) := by
  obtain ⟨-, ⟨e0, e1⟩, -⟩ := idx_facts t
  unfold iblk2
  rw [View.read_apply]
  show V c main_v32 (((cfg2.win 1).blk t).view.emb (ix2 r k)) = V c main_v32 (ix2 (rowAt t r) k)
  refine congrArg (V c main_v32) (funext fun a => Fin.ext ?_)
  match a with
  | ⟨0, _⟩ => show win2_1.index t (0 : Fin 2) * 2000 + 1 * r.val = 2000 * t.val + r.val; rw [e0]; omega
  | ⟨1, _⟩ => show win2_1.index t (1 : Fin 2) * 128 + 1 * k.val = k.val; rw [e1]; omega

/-- The first weight window is read whole at every tile. -/
theorem wblk2 (c : Dev nD) (t : Fin cfg2.N) : (iblk2 (F := Ideal) V c 2 t : S128x128.Idx → EReal) = V c main_arg14 := by
  obtain ⟨-, -, ⟨e0, e1⟩, -⟩ := idx_facts t
  funext y
  unfold iblk2
  rw [View.read_apply]
  show V c main_arg14 (((cfg2.win 2).blk t).view.emb y) = V c main_arg14 y
  refine congrArg (V c main_arg14) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The first bias window is read whole at every tile. -/
theorem wblk3 (c : Dev nD) (t : Fin cfg2.N) : (iblk2 (F := Ideal) V c 3 t : S1x128.Idx → EReal) = V c main_v17 := by
  obtain ⟨-, -, -, ⟨e0, e1⟩, -⟩ := idx_facts t
  funext y
  unfold iblk2
  rw [View.read_apply]
  show V c main_v17 (((cfg2.win 3).blk t).view.emb y) = V c main_v17 y
  refine congrArg (V c main_v17) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The second weight window is read whole at every tile. -/
theorem wblk4 (c : Dev nD) (t : Fin cfg2.N) : (iblk2 (F := Ideal) V c 4 t : S128x128.Idx → EReal) = V c main_arg16 := by
  obtain ⟨-, -, -, -, ⟨e0, e1⟩, -⟩ := idx_facts t
  funext y
  unfold iblk2
  rw [View.read_apply]
  show V c main_arg16 (((cfg2.win 4).blk t).view.emb y) = V c main_arg16 y
  refine congrArg (V c main_arg16) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The second bias window is read whole at every tile. -/
theorem wblk5 (c : Dev nD) (t : Fin cfg2.N) : (iblk2 (F := Ideal) V c 5 t : S1x128.Idx → EReal) = V c main_v18 := by
  obtain ⟨-, -, -, -, -, ⟨e0, e1⟩, -⟩ := idx_facts t
  funext y
  unfold iblk2
  rw [View.read_apply]
  show V c main_v18 (((cfg2.win 5).blk t).view.emb y) = V c main_v18 y
  refine congrArg (V c main_v18) (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The result window's tile t, at its row r, sits at the array's row 2000·t + r. -/
theorem emb6 (t : Fin cfg2.N) (r : Fin 2000) (j : Fin 128) :
    ((cfg2.win 6).blk t).view.emb (ix2 r j) = (ix2 (rowAt t r) j : S100000x128.Idx) := by
  obtain ⟨-, -, -, -, -, -, ⟨e0, e1⟩⟩ := idx_facts t
  refine funext fun a => Fin.ext ?_
  match a with
  | ⟨0, _⟩ => show win2_6.index t (0 : Fin 2) * 2000 + 1 * r.val = 2000 * t.val + r.val; rw [e0]; omega
  | ⟨1, _⟩ => show win2_6.index t (1 : Fin 2) * 128 + 1 * j.val = j.val; rw [e1]; omega

/-! ## From the tiles to the array -/

/-- WHAT TILE t WRITES BACK is tile t of the closing network of the whole arrays. -/
theorem flushed_eq (c : Dev nD) (t : Fin cfg2.N) :
    (dat2 (F := Ideal) V c).flushed 6 t
      = ((cfg2.win 6).blk t).view.read (Elt Ideal)
          (Spec.fuse (M := 100000) (V c main_v19) (V c main_v32) (V c main_arg14) (Spec.rowOf (V c main_v17)) (V c main_arg16)
            (Spec.rowOf (V c main_v18))) := by
  show (cfg2.win 6).cut (grid2.coords t) ((dat2 (F := Ideal) V c).after 6 t) = _
  rw [after2_6, block_law, wblk2 V c t, wblk3 V c t, wblk4 V c t, wblk5 V c t]
  funext y
  obtain ⟨r, j, rfl⟩ : ∃ (r : Fin 2000) (j : Fin 128), y = ix2 r j := ⟨y 0, y 1, eq_ix2 y⟩
  rw [View.read_apply]
  refine Eq.trans ?_ (congrArg (Spec.fuse (M := 100000) (V c main_v19) (V c main_v32) (V c main_arg14) (Spec.rowOf (V c main_v17))
    (V c main_arg16) (Spec.rowOf (V c main_v18))) (emb6 t r j).symm)
  exact fuse_rows (rowAt t) (V c main_v19) (V c main_v32) (iblk2 (F := Ideal) V c 0 t) (iblk2 (F := Ideal) V c 1 t) (V c main_arg14)
    (Spec.rowOf (V c main_v17)) (V c main_arg16) (Spec.rowOf (V c main_v18)) (rblk0 V c t) (rblk1 V c t) r j

/-- An index of the array is in tile t's block iff each coordinate is in the block's range on its axis. -/
theorem mem_blk (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v33).slice (win2_6.rect t)).set ↔ _
  rw [View.set_slice_whole, Rect.mem_set_unit]
  exact Iff.rfl

/-- THE COVER: row i of the array is in the block of tile i / 2000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  have ht : (i 0).val / 2000 < cfg2.N := lt_of_lt_of_eq (by omega : (i 0).val / 2000 < 50) hN.symm
  obtain ⟨-, -, -, -, -, -, ⟨e0, e1⟩⟩ := idx_facts ⟨(i 0).val / 2000, ht⟩
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

/-- The array the third launch leaves: the closing network of the arrays it was entered with. -/
theorem final2 (c : Dev nD) :
    (dat2 (F := Ideal) V c).arrAt 6 cfg2.N
      = Spec.fuse (M := 100000) (V c main_v19) (V c main_v32) (V c main_arg14) (Spec.rowOf (V c main_v17)) (V c main_arg16)
          (Spec.rowOf (V c main_v18)) :=
  (dat2 (F := Ideal) V c).arrAt_eq_of_cover 6 _ (fun t _ => flushed_eq V c t) (fun i => cover i)

end Cert.KernelIdeal.Region2

end
-- ==== Proof.Final.lean ====
/-
  The whole computation as ONE function of the eighteen argument arrays.

  Node i's section row and its own row go through the node gate; every edge's destination row and source section row
  go through the edge gate; the edge values are averaged per destination node (sum of the values landing on the node over
  the number of edges landing there, at least one); the node gate's result plus that average goes through the closing
  network. Both programs are shown to compute this function.
-/
import Idealize.ShloMosaic.PureOps.Ideal
import Idealize.ShloMosaic.Lib.ValueIdx
import proofs.«409560_j59931973649030_1_alg».proof.Proof.Spec

noncomputable section

namespace Cert.Final

open Idealize.ShloMosaic Idealize.ShloMosaic.ValueIdx Cert.Spec

/-- The per-node average of the edge values: the scattered sum over the scattered count (at least one), entry by entry.
    The scatter records and the layout facts are parameters, so that each program's own instances fit. -/
def segMean
    (d1 : ScatterDims ⟨2, ![100000, 128]⟩ ⟨2, ![400000, 1]⟩ ⟨2, ![400000, 128]⟩)
    (d2 : ScatterDims ⟨1, ![100000]⟩ ⟨2, ![400000, 1]⟩ ⟨1, ![400000]⟩)
    (hz2 : (⟨0, ![]⟩ : Shape).BroadcastsInDim ⟨2, ![100000, 128]⟩ (![] : Fin 0 → Fin 2))
    (hcol : (⟨1, ![400000]⟩ : Shape).BroadcastsInDim ⟨2, ![400000, 1]⟩ (![0] : Fin 1 → Fin 2))
    (hz1 : (⟨0, ![]⟩ : Shape).BroadcastsInDim ⟨1, ![100000]⟩ (![] : Fin 0 → Fin 1))
    (ho : (⟨0, ![]⟩ : Shape).BroadcastsInDim ⟨1, ![400000]⟩ (![] : Fin 0 → Fin 1))
    (hc1 : (⟨1, ![100000]⟩ : Shape).BroadcastsInDim ⟨2, ![100000, 1]⟩ (![0] : Fin 1 → Fin 2))
    (hc2 : (⟨2, ![100000, 1]⟩ : Shape).BroadcastsInDim ⟨2, ![100000, 128]⟩ (![0, 1] : Fin 2 → Fin 2))
    (vals : FVec Ideal ⟨2, ![400000, 128]⟩ .f32) (dst : IVec ⟨1, ![400000]⟩ 32) : FVec Ideal ⟨2, ![100000, 128]⟩ .f32 :=
  Host.divf
    (Host.scatterAdd d1 (broadcastInDim ⟨2, ![100000, 128]⟩ ![] hz2 (constant ⟨0, ![]⟩ .f32 0x00000000#32))
      (broadcastInDim ⟨2, ![400000, 1]⟩ ![0] hcol dst) vals)
    (broadcastInDim ⟨2, ![100000, 128]⟩ ![0, 1] hc2
      (broadcastInDim ⟨2, ![100000, 1]⟩ ![0] hc1
        (maximumf
          (Host.scatterAdd d2 (broadcastInDim ⟨1, ![100000]⟩ ![] hz1 (constant ⟨0, ![]⟩ .f32 0x00000000#32))
            (broadcastInDim ⟨2, ![400000, 1]⟩ ![0] hcol dst)
            (broadcastInDim ⟨1, ![400000]⟩ ![] ho (constant ⟨0, ![]⟩ .f32 0x3F800000#32)))
          (broadcastInDim ⟨1, ![100000]⟩ ![] hz1 (constant ⟨0, ![]⟩ .f32 0x3F800000#32)))))

/-- Row k of the edge array, as a vector of 400000 words. -/
def edgeRow (k : ℕ) (hs : (⟨2, ![2, 400000]⟩ : Shape).Slices ![k, 0] ⟨2, ![1, 400000]⟩)
    (hc : (⟨2, ![1, 400000]⟩ : Shape).ShapeCasts ⟨1, ![400000]⟩) (x4 : IVec ⟨2, ![2, 400000]⟩ 32) : IVec ⟨1, ![400000]⟩ 32 :=
  shapeCast ⟨1, ![400000]⟩ (extractStridedSlice ⟨2, ![1, 400000]⟩ ![k, 0] x4 hs) hc

/-- The result of both programs, as a function of the argument arrays. -/
def out
    (d1 : ScatterDims ⟨2, ![100000, 128]⟩ ⟨2, ![400000, 1]⟩ ⟨2, ![400000, 128]⟩)
    (d2 : ScatterDims ⟨1, ![100000]⟩ ⟨2, ![400000, 1]⟩ ⟨1, ![400000]⟩)
    (hz2 : (⟨0, ![]⟩ : Shape).BroadcastsInDim ⟨2, ![100000, 128]⟩ (![] : Fin 0 → Fin 2))
    (hcol : (⟨1, ![400000]⟩ : Shape).BroadcastsInDim ⟨2, ![400000, 1]⟩ (![0] : Fin 1 → Fin 2))
    (hz1 : (⟨0, ![]⟩ : Shape).BroadcastsInDim ⟨1, ![100000]⟩ (![] : Fin 0 → Fin 1))
    (ho : (⟨0, ![]⟩ : Shape).BroadcastsInDim ⟨1, ![400000]⟩ (![] : Fin 0 → Fin 1))
    (hc1 : (⟨1, ![100000]⟩ : Shape).BroadcastsInDim ⟨2, ![100000, 1]⟩ (![0] : Fin 1 → Fin 2))
    (hc2 : (⟨2, ![100000, 1]⟩ : Shape).BroadcastsInDim ⟨2, ![100000, 128]⟩ (![0, 1] : Fin 2 → Fin 2))
    (hs0 : (⟨2, ![2, 400000]⟩ : Shape).Slices ![0, 0] ⟨2, ![1, 400000]⟩)
    (hs1 : (⟨2, ![2, 400000]⟩ : Shape).Slices ![1, 0] ⟨2, ![1, 400000]⟩)
    (hc : (⟨2, ![1, 400000]⟩ : Shape).ShapeCasts ⟨1, ![400000]⟩)
    (x0 : Mat 100000 128) (x1 : Mat 2000 128) (x2 : IVec ⟨1, ![100000]⟩ 32) (x3 : Mat 100000 3)
    (x4 : IVec ⟨2, ![2, 400000]⟩ 32) (x5 : Mat 400000 3)
    (x6 : Mat 259 128) (x7 : Vec1 128) (x8 : Mat 128 128) (x9 : Vec1 128)
    (x10 : Mat 259 128) (x11 : Vec1 128) (x12 : Mat 128 128) (x13 : Vec1 128)
    (x14 : Mat 128 128) (x15 : Vec1 128) (x16 : Mat 128 128) (x17 : Vec1 128) : Mat 100000 128 :=
  Spec.fuse
    (Spec.gate1 x0 (Spec.rowsel (by decide : 0 < 2000) x1 x2) x3
      (Spec.rowsFrom 0 (by decide) x6) (Spec.rowsFrom 128 (by decide) x6) (Spec.rowsFrom 256 (by decide) x6) x7 x8 x9)
    (segMean d1 d2 hz2 hcol hz1 ho hc1 hc2
      (Spec.gate2 (Spec.rowsel (by decide : 0 < 100000) x0 (edgeRow 1 hs1 hc x4)) (Spec.rowsel (by decide : 0 < 2000) x1 (edgeRow 0 hs0 hc x4)) x5
        (Spec.rowsFrom 0 (by decide) x10) (Spec.rowsFrom 128 (by decide) x10) (Spec.rowsFrom 256 (by decide) x10) x11 x12 x13)
      (edgeRow 1 hs1 hc x4))
    x14 x15 x16 x17

end Cert.Final

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.LibTakeFill.lean ====
/-
  jnp.take of whole rows in its default out-of-range mode, as it reaches the host program: a negative row number is
  moved up once by the table's height; whole rows are gathered at the numbers so obtained (clamped into the table); and
  a row whose number is still outside [0, N − 1] is replaced by a fill value, through a mask that is the "and" of the two
  range tests reduced along the index vector's unit axis. When every row number lies in [0, N) to begin with, nothing
  is moved and nothing is filled: the result is the plain selection of rows. Stated for any table height N, width C
  and number E of row numbers, and for any vectors standing for the constants, so that every call site is an instance.
-/
import Idealize.ShloMosaic.PureOps.Ideal
import Idealize.ShloMosaic.PureOps.Contract
import Idealize.ShloMosaic.PureOps.Reduce
import Idealize.ShloMosaic.Lib.ValueIdx
import proofs.«409560_j59931973649030_1_alg».proof.Proof.LibRowGatherScatter

noncomputable section

namespace Idealize.ShloMosaic.TakeFill

open Idealize.ShloMosaic Idealize.ShloMosaic.ValueIdx

/-- A fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = (1#1 : BitVec 1) := by decide
    rw [e]
    exact foldl_andi_one f l (fun n hn => h n (List.mem_cons_of_mem _ hn))

/-- A reduction by "and", started at 1, of a mask that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

theorem ofBool_true : BitVec.ofBool true = 1#1 := rfl
theorem ofBool_false : BitVec.ofBool false = 0#1 := rfl

/-- A nonnegative word is not below zero, ... -/
theorem slt_zero_of_nonneg (w : BitVec 32) (h : 0 ≤ w.toInt) : IntOp.cmpi .slt w 0#32 = 0#1 := by
  have h0 : (0#32 : BitVec 32).toInt = 0 := by decide
  have : w.slt 0#32 = false := by
    simp only [BitVec.slt, h0, decide_eq_false_iff_not]; omega
  show BitVec.ofBool (w.slt 0#32) = 0#1
  rw [this]; rfl

/-- ... is at least zero, ... -/
theorem sge_zero_of_nonneg (w : BitVec 32) (h : 0 ≤ w.toInt) : IntOp.cmpi .sge w 0#32 = 1#1 := by
  have h0 : (0#32 : BitVec 32).toInt = 0 := by decide
  have : (0#32 : BitVec 32).sle w = true := by
    simp only [BitVec.sle, h0, decide_eq_true_eq]; exact h
  show BitVec.ofBool ((0#32 : BitVec 32).sle w) = 1#1
  rw [this]; rfl

/-- ... and a word whose integer is at most another's compares so. -/
theorem sle_of_le (w hi : BitVec 32) (h : w.toInt ≤ hi.toInt) : IntOp.cmpi .sle w hi = 1#1 := by
  have : w.sle hi = true := by
    simp only [BitVec.sle, decide_eq_true_eq]; exact h
  show BitVec.ofBool (w.sle hi) = 1#1
  rw [this]; rfl

/-- A vector laid out as an [n × 1] column reads, at (p, ·), the vector at p. -/
theorem bcast_col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector laid along the first axis of an [n × m] array (constant along each row) reads, at (p, q), the vector at p. -/
theorem bcast_rows_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- The take: with every row number in [0, N), entry (e, k) of the result is the table's entry (number e, k). -/
theorem take_fill_rows {α : Type} {N C E : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (bc : (⟨1, ![E]⟩ : Shape).BroadcastsInDim ⟨2, ![E, 1]⟩ ![0])
    (bm : (⟨1, ![E]⟩ : Shape).BroadcastsInDim ⟨2, ![E, C]⟩ ![0])
    {u : Shape} (hred : (⟨2, ![E, 1]⟩ : Shape).ReducesTo [1] ⟨1, ![E]⟩) (hu : 0 < u.numel)
    (x : (⟨2, ![N, C]⟩ : Shape).Idx → α) (fill : (⟨2, ![E, C]⟩ : Shape).Idx → α)
    (idx zero nv : IVec ⟨1, ![E]⟩ 32) (lo hi : IVec ⟨2, ![E, 1]⟩ 32) (init : u.Idx → BitVec 1)
    (hz : ∀ j, zero j = 0#32) (hlo : ∀ j, lo j = 0#32) (hhi : ∀ j, (hi j).toInt = (N : Int) - 1)
    (hinit : init (Shape.Idx.first hu) = 1#1)
    (hr : ∀ e : Fin E, 0 ≤ (idx (ix1 e)).toInt ∧ (idx (ix1 e)).toInt < N) :
    select (broadcastInDim ⟨2, ![E, C]⟩ ![0] bm
        (Host.reduce IntOp.andi
          (andi (cmpi .sge (broadcastInDim ⟨2, ![E, 1]⟩ ![0] bc (select (cmpi .slt idx zero) (addi idx nv) idx)) lo)
                (cmpi .sle (broadcastInDim ⟨2, ![E, 1]⟩ ![0] bc (select (cmpi .slt idx zero) (addi idx nv) idx)) hi))
          init hred hu))
      (Host.gather d x (broadcastInDim ⟨2, ![E, 1]⟩ ![0] bc (select (cmpi .slt idx zero) (addi idx nv) idx)))
      fill
    = fun j => x (ix2 (⟨min (idx (ix1 ⟨(j 0).val, (j 0).isLt⟩)).toInt.toNat (N - 1), by omega⟩ : Fin N) ⟨(j 1).val, (j 1).isLt⟩) := by
  -- no row number is negative, so none is moved
  have hwrap : select (cmpi .slt idx zero) (addi idx nv) idx = idx := by
    funext j
    show Scalar.select (IntOp.cmpi .slt (idx j) (zero j)) _ (idx j) = idx j
    rw [hz, slt_zero_of_nonneg _ (by rw [eq_ix1 j]; exact (hr _).1)]
    rfl
  rw [hwrap]
  -- the column of row numbers, read at (e, ·)
  have hcol : ∀ (e : Fin E) (z : Fin 1), broadcastInDim ⟨2, ![E, 1]⟩ ![0] bc idx (ix2 e z) = idx (ix1 e) :=
    fun e z => bcast_col_apply bc idx e z
  -- both range tests pass everywhere, so the mask is 1 everywhere
  have hmask : ∀ e : (⟨1, ![E]⟩ : Shape).Idx, Host.reduce IntOp.andi
      (andi (cmpi .sge (broadcastInDim ⟨2, ![E, 1]⟩ ![0] bc idx) lo) (cmpi .sle (broadcastInDim ⟨2, ![E, 1]⟩ ![0] bc idx) hi))
      init hred hu e = 1#1 := by
    refine reduce_andi_one _ _ hred hu hinit (fun i => ?_)
    obtain ⟨e, z, rfl⟩ : ∃ (e : Fin E) (z : Fin 1), i = ix2 e z := ⟨i 0, i 1, eq_ix2 i⟩
    show IntOp.andi (IntOp.cmpi .sge (broadcastInDim ⟨2, ![E, 1]⟩ ![0] bc idx (ix2 e z)) (lo (ix2 e z)))
      (IntOp.cmpi .sle (broadcastInDim ⟨2, ![E, 1]⟩ ![0] bc idx (ix2 e z)) (hi (ix2 e z))) = 1#1
    rw [hcol, hlo, sge_zero_of_nonneg _ (hr e).1, sle_of_le _ _ (by rw [hhi]; have := (hr e).2; omega)]
    decide
  funext j
  obtain ⟨e, k, rfl⟩ : ∃ (e : Fin E) (k : Fin C), j = ix2 e k := ⟨j 0, j 1, eq_ix2 j⟩
  show Scalar.select _ (Host.gather d x _ (ix2 e k)) (fill (ix2 e k)) = x (ix2 _ k)
  rw [bcast_rows_apply bm _ e k, hmask, RowOps.gather_rows_apply d hoff hcoll hob hsim hivd hss x _ e k hN]
  have hsel : ∀ (a b : α), Scalar.select (1#1) a b = a := fun _ _ => rfl
  rw [hsel]
  refine congrArg x (congrArg (fun r => ix2 r k) (Fin.ext ?_))
  show min (broadcastInDim ⟨2, ![E, 1]⟩ ![0] bc idx (ix2 e 0)).toInt.toNat (N - 1) = min (idx (ix1 e)).toInt.toNat (N - 1)
  rw [hcol]

end Idealize.ShloMosaic.TakeFill

end
-- ==== Proof.RefGather.lean ====
/-
  The reference's row lookups, read as a selection of rows. numpy-style indexing `table[idx]` reaches the host program
  as: a negative row number is moved up once by the table's height, and whole rows are gathered at the numbers so
  obtained (clamped into the table). When every row number is in [0, N) nothing is moved, and the result is the plain
  selection of rows.
-/
import Idealize.ShloMosaic.PureOps.Ideal
import Idealize.ShloMosaic.PureOps.Contract
import Idealize.ShloMosaic.Lib.ValueIdx
import proofs.«409560_j59931973649030_1_alg».proof.Proof.Spec
import proofs.«409560_j59931973649030_1_alg».proof.Proof.LibTakeFill

noncomputable section

namespace Cert.RefGather

open Idealize.ShloMosaic Idealize.ShloMosaic.ValueIdx Cert.Spec

/-- With every row number in [0, N), the gather at the wrapped row numbers is the selection of rows. -/
theorem gather_wrap_eq_rowsel {N C E : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (bc : (⟨1, ![E]⟩ : Shape).BroadcastsInDim ⟨2, ![E, 1]⟩ ![0])
    (x : FVec Ideal ⟨2, ![N, C]⟩ .f32) (idx zero nv : IVec ⟨1, ![E]⟩ 32) (hz : ∀ j, zero j = 0#32)
    (hr : ∀ e : Fin E, 0 ≤ (idx (ix1 e)).toInt ∧ (idx (ix1 e)).toInt < N) :
    Host.gather d x (broadcastInDim ⟨2, ![E, 1]⟩ ![0] bc (select (cmpi .slt idx zero) (addi idx nv) idx))
      = Spec.rowsel hN x idx := by
  -- No row number is negative: the test "below zero" is 0 at every position, so the selection keeps the number itself.
  have hwrap : select (cmpi .slt idx zero) (addi idx nv) idx = idx := by
    funext j
    have hj : IntOp.cmpi .slt (idx j) (zero j) = 0#1 := by
      rw [hz j, eq_ix1 j]
      exact TakeFill.slt_zero_of_nonneg _ (hr _).1
    show Scalar.select (IntOp.cmpi .slt (idx j) (zero j)) (IntOp.addi (idx j) (nv j)) (idx j) = idx j
    rw [hj]
    rfl
  rw [hwrap]
  -- Entry (e, k): the gather reads the table's row at the column's entry (e, 0), which is the e-th row number.
  funext j
  obtain ⟨e, k, rfl⟩ : ∃ (e : Fin E) (k : Fin C), j = ix2 e k := ⟨j 0, j 1, eq_ix2 j⟩
  rw [RowOps.gather_rows_apply d hoff hcoll hob hsim hivd hss x _ e k hN]
  have hcol : broadcastInDim ⟨2, ![E, 1]⟩ ![0] bc idx (ix2 e 0) = idx (ix1 e) := TakeFill.bcast_col_apply bc idx e 0
  -- Equal words give equal clamped row numbers, hence the same row of the table; the right side is that row spelled out.
  exact congrArg (fun r : Fin N => x (ix2 r k))
    (Fin.ext (congrArg (fun w : BitVec 32 => min w.toInt.toNat (N - 1)) hcol))

/-- The same selection as the fill-mode take computes it (a mask of the two range tests selecting between the gather
    and a fill value): with every row number in range the mask is 1 everywhere. -/
theorem take_fill_eq_rowsel {N C E : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (bc : (⟨1, ![E]⟩ : Shape).BroadcastsInDim ⟨2, ![E, 1]⟩ ![0])
    (bm : (⟨1, ![E]⟩ : Shape).BroadcastsInDim ⟨2, ![E, C]⟩ ![0])
    {u : Shape} (hred : (⟨2, ![E, 1]⟩ : Shape).ReducesTo [1] ⟨1, ![E]⟩) (hu : 0 < u.numel)
    (x : FVec Ideal ⟨2, ![N, C]⟩ .f32) (fill : FVec Ideal ⟨2, ![E, C]⟩ .f32)
    (idx zero nv : IVec ⟨1, ![E]⟩ 32) (lo hi : IVec ⟨2, ![E, 1]⟩ 32) (init : u.Idx → BitVec 1)
    (hz : ∀ j, zero j = 0#32) (hlo : ∀ j, lo j = 0#32) (hhi : ∀ j, (hi j).toInt = (N : Int) - 1)
    (hinit : init (Shape.Idx.first hu) = 1#1)
    (hr : ∀ e : Fin E, 0 ≤ (idx (ix1 e)).toInt ∧ (idx (ix1 e)).toInt < N) :
    select (broadcastInDim ⟨2, ![E, C]⟩ ![0] bm
        (Host.reduce IntOp.andi
          (andi (cmpi .sge (broadcastInDim ⟨2, ![E, 1]⟩ ![0] bc (select (cmpi .slt idx zero) (addi idx nv) idx)) lo)
                (cmpi .sle (broadcastInDim ⟨2, ![E, 1]⟩ ![0] bc (select (cmpi .slt idx zero) (addi idx nv) idx)) hi))
          init hred hu))
      (Host.gather d x (broadcastInDim ⟨2, ![E, 1]⟩ ![0] bc (select (cmpi .slt idx zero) (addi idx nv) idx)))
      fill
    = Spec.rowsel hN x idx :=
  Idealize.ShloMosaic.TakeFill.take_fill_rows hN d hoff hcoll hob hsim hivd hss bc bm hred hu x fill idx zero nv lo hi init hz hlo hhi hinit hr

end Cert.RefGather

end
-- ==== Proof.KernelHostReads.lean ====
/-
  What the host operations before the first launch leave in the buffers the three launches read, as functions of the
  argument arrays: the three row lookups (selections of rows, the row numbers being in range), the two edge-index rows,
  the three row blocks of each 259-row weight array, and the bias vectors laid out as single rows. No host operation
  writes an argument array.
-/
import proofs.«409560_j59931973649030_1_alg».proof.Proof.Gen.KernelIdeal.Frame
import proofs.«409560_j59931973649030_1_alg».proof.Proof.Final
import proofs.«409560_j59931973649030_1_alg».proof.Proof.RefGather
import Idealize.ShloMosaic.Lib.StableHlo.Run
import Idealize.ShloMosaic.Lib.Pipeline.Value
import Idealize.ShloMosaic.Lib.Pipeline.RowLoads

set_option maxRecDepth 16384

noncomputable section

namespace Cert.KernelIdeal.HostReads

open Cert.KernelIdeal Cert.KernelIdeal.Gen
open Idealize.ShloMosaic Idealize.ShloMosaic.TcCoe Idealize.ShloMosaic.ValueIdx Idealize.SL.Sem Idealize.ShloMosaic.StableHlo
open Cert.Spec

variable (m : (ℓ : Loc nD τ sig) → Buf (Elt Ideal) ℓ) (ρ : Dev nD → PrngReg) (c : Dev nD)

/-- A buffer that none of a stretch's operations writes holds after the stretch what it held before it: each operation
    writes one buffer, and the buffer asked about is a different one from each of them. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## No host operation writes an argument array

Each argument array the later stretches read still holds, where it is read, what the launch memory holds. -/

theorem W1_arg4 : W1 m ρ c (Proc.devRef .tc main_arg4) = (m ((c : Thread nD τ).loc main_arg4)) := by
  calc W1 m ρ c (Proc.devRef .tc main_arg4)
    _ = W0 m ρ c (Proc.devRef .tc main_arg4) := by host_keeps hostOps0
    _ = (m ((c : Thread nD τ).loc main_arg4)) := rfl

theorem W2_arg1 : W2 m ρ c (Proc.devRef .tc main_arg1) = (m ((c : Thread nD τ).loc main_arg1)) := by
  calc W2 m ρ c (Proc.devRef .tc main_arg1)
    _ = W1 m ρ c (Proc.devRef .tc main_arg1) := by host_keeps hostOps0_1
    _ = W0 m ρ c (Proc.devRef .tc main_arg1) := by host_keeps hostOps0
    _ = (m ((c : Thread nD τ).loc main_arg1)) := rfl

theorem W3_arg0 : W3 m ρ c (Proc.devRef .tc main_arg0) = (m ((c : Thread nD τ).loc main_arg0)) := by
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = (m ((c : Thread nD τ).loc main_arg0)) := rfl

theorem W4_arg6 : W4 m ρ c (Proc.devRef .tc main_arg6) = (m ((c : Thread nD τ).loc main_arg6)) := by
  calc W4 m ρ c (Proc.devRef .tc main_arg6)
    _ = W3 m ρ c (Proc.devRef .tc main_arg6) := by host_keeps hostOps0_3
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = (m ((c : Thread nD τ).loc main_arg6)) := rfl

theorem W4_arg10 : W4 m ρ c (Proc.devRef .tc main_arg10) = (m ((c : Thread nD τ).loc main_arg10)) := by
  calc W4 m ρ c (Proc.devRef .tc main_arg10)
    _ = W3 m ρ c (Proc.devRef .tc main_arg10) := by host_keeps hostOps0_3
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = (m ((c : Thread nD τ).loc main_arg10)) := rfl

theorem W4_arg7 : W4 m ρ c (Proc.devRef .tc main_arg7) = (m ((c : Thread nD τ).loc main_arg7)) := by
  calc W4 m ρ c (Proc.devRef .tc main_arg7)
    _ = W3 m ρ c (Proc.devRef .tc main_arg7) := by host_keeps hostOps0_3
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = (m ((c : Thread nD τ).loc main_arg7)) := rfl

theorem W4_arg9 : W4 m ρ c (Proc.devRef .tc main_arg9) = (m ((c : Thread nD τ).loc main_arg9)) := by
  calc W4 m ρ c (Proc.devRef .tc main_arg9)
    _ = W3 m ρ c (Proc.devRef .tc main_arg9) := by host_keeps hostOps0_3
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = (m ((c : Thread nD τ).loc main_arg9)) := rfl

theorem W4_arg11 : W4 m ρ c (Proc.devRef .tc main_arg11) = (m ((c : Thread nD τ).loc main_arg11)) := by
  calc W4 m ρ c (Proc.devRef .tc main_arg11)
    _ = W3 m ρ c (Proc.devRef .tc main_arg11) := by host_keeps hostOps0_3
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = (m ((c : Thread nD τ).loc main_arg11)) := rfl

theorem W4_arg13 : W4 m ρ c (Proc.devRef .tc main_arg13) = (m ((c : Thread nD τ).loc main_arg13)) := by
  calc W4 m ρ c (Proc.devRef .tc main_arg13)
    _ = W3 m ρ c (Proc.devRef .tc main_arg13) := by host_keeps hostOps0_3
    _ = W2 m ρ c (Proc.devRef .tc main_arg13) := by host_keeps hostOps0_2
    _ = W1 m ρ c (Proc.devRef .tc main_arg13) := by host_keeps hostOps0_1
    _ = W0 m ρ c (Proc.devRef .tc main_arg13) := by host_keeps hostOps0
    _ = (m ((c : Thread nD τ).loc main_arg13)) := rfl

theorem W4_arg15 : W4 m ρ c (Proc.devRef .tc main_arg15) = (m ((c : Thread nD τ).loc main_arg15)) := by
  calc W4 m ρ c (Proc.devRef .tc main_arg15)
    _ = W3 m ρ c (Proc.devRef .tc main_arg15) := by host_keeps hostOps0_3
    _ = W2 m ρ c (Proc.devRef .tc main_arg15) := by host_keeps hostOps0_2
    _ = W1 m ρ c (Proc.devRef .tc main_arg15) := by host_keeps hostOps0_1
    _ = W0 m ρ c (Proc.devRef .tc main_arg15) := by host_keeps hostOps0
    _ = (m ((c : Thread nD τ).loc main_arg15)) := rfl

theorem W4_arg17 : W4 m ρ c (Proc.devRef .tc main_arg17) = (m ((c : Thread nD τ).loc main_arg17)) := by
  calc W4 m ρ c (Proc.devRef .tc main_arg17)
    _ = W3 m ρ c (Proc.devRef .tc main_arg17) := by host_keeps hostOps0_3
    _ = W2 m ρ c (Proc.devRef .tc main_arg17) := by host_keeps hostOps0_2
    _ = W1 m ρ c (Proc.devRef .tc main_arg17) := by host_keeps hostOps0_1
    _ = W0 m ρ c (Proc.devRef .tc main_arg17) := by host_keeps hostOps0
    _ = (m ((c : Thread nD τ).loc main_arg17)) := rfl

/-! ## The argument arrays at the first launch's entry -/

theorem W5_arg0 : W5 m ρ c (Proc.devRef .tc main_arg0) = m ((c : Thread nD τ).loc main_arg0) := by
  calc W5 m ρ c (Proc.devRef .tc main_arg0)
    _ = W4 m ρ c (Proc.devRef .tc main_arg0) := by host_keeps hostOps0_4
    _ = W3 m ρ c (Proc.devRef .tc main_arg0) := by host_keeps hostOps0_3
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = (m ((c : Thread nD τ).loc main_arg0)) := rfl
theorem W5_arg3 : W5 m ρ c (Proc.devRef .tc main_arg3) = m ((c : Thread nD τ).loc main_arg3) := by
  calc W5 m ρ c (Proc.devRef .tc main_arg3)
    _ = W4 m ρ c (Proc.devRef .tc main_arg3) := by host_keeps hostOps0_4
    _ = W3 m ρ c (Proc.devRef .tc main_arg3) := by host_keeps hostOps0_3
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = (m ((c : Thread nD τ).loc main_arg3)) := rfl
theorem W5_arg5 : W5 m ρ c (Proc.devRef .tc main_arg5) = m ((c : Thread nD τ).loc main_arg5) := by
  calc W5 m ρ c (Proc.devRef .tc main_arg5)
    _ = W4 m ρ c (Proc.devRef .tc main_arg5) := by host_keeps hostOps0_4
    _ = W3 m ρ c (Proc.devRef .tc main_arg5) := by host_keeps hostOps0_3
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = (m ((c : Thread nD τ).loc main_arg5)) := rfl
theorem W5_arg8 : W5 m ρ c (Proc.devRef .tc main_arg8) = m ((c : Thread nD τ).loc main_arg8) := by
  calc W5 m ρ c (Proc.devRef .tc main_arg8)
    _ = W4 m ρ c (Proc.devRef .tc main_arg8) := by host_keeps hostOps0_4
    _ = W3 m ρ c (Proc.devRef .tc main_arg8) := by host_keeps hostOps0_3
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = (m ((c : Thread nD τ).loc main_arg8)) := rfl
theorem W5_arg12 : W5 m ρ c (Proc.devRef .tc main_arg12) = m ((c : Thread nD τ).loc main_arg12) := by
  calc W5 m ρ c (Proc.devRef .tc main_arg12)
    _ = W4 m ρ c (Proc.devRef .tc main_arg12) := by host_keeps hostOps0_4
    _ = W3 m ρ c (Proc.devRef .tc main_arg12) := by host_keeps hostOps0_3
    _ = W2 m ρ c (Proc.devRef .tc main_arg12) := by host_keeps hostOps0_2
    _ = W1 m ρ c (Proc.devRef .tc main_arg12) := by host_keeps hostOps0_1
    _ = W0 m ρ c (Proc.devRef .tc main_arg12) := by host_keeps hostOps0
    _ = (m ((c : Thread nD τ).loc main_arg12)) := rfl
theorem W5_arg14 : W5 m ρ c (Proc.devRef .tc main_arg14) = m ((c : Thread nD τ).loc main_arg14) := by
  calc W5 m ρ c (Proc.devRef .tc main_arg14)
    _ = W4 m ρ c (Proc.devRef .tc main_arg14) := by host_keeps hostOps0_4
    _ = W3 m ρ c (Proc.devRef .tc main_arg14) := by host_keeps hostOps0_3
    _ = W2 m ρ c (Proc.devRef .tc main_arg14) := by host_keeps hostOps0_2
    _ = W1 m ρ c (Proc.devRef .tc main_arg14) := by host_keeps hostOps0_1
    _ = W0 m ρ c (Proc.devRef .tc main_arg14) := by host_keeps hostOps0
    _ = (m ((c : Thread nD τ).loc main_arg14)) := rfl
theorem W5_arg16 : W5 m ρ c (Proc.devRef .tc main_arg16) = m ((c : Thread nD τ).loc main_arg16) := by
  calc W5 m ρ c (Proc.devRef .tc main_arg16)
    _ = W4 m ρ c (Proc.devRef .tc main_arg16) := by host_keeps hostOps0_4
    _ = W3 m ρ c (Proc.devRef .tc main_arg16) := by host_keeps hostOps0_3
    _ = W2 m ρ c (Proc.devRef .tc main_arg16) := by host_keeps hostOps0_2
    _ = W1 m ρ c (Proc.devRef .tc main_arg16) := by host_keeps hostOps0_1
    _ = W0 m ρ c (Proc.devRef .tc main_arg16) := by host_keeps hostOps0
    _ = (m ((c : Thread nD τ).loc main_arg16)) := rfl

/-- Row 0 of the edge array where the second stretch leaves it: the slice of that row, reshaped to a vector. -/
theorem W2_v2 : W2 m ρ c (Proc.devRef .tc main_v2) = Cert.Final.edgeRow 0 slices_S2x400000_S1x400000_0_0 shapeCasts_S1x400000_S400000 (m ((c : Thread nD τ).loc main_arg4)) := by
  calc W2 m ρ c (Proc.devRef .tc main_v2)
    _ = shapeCast S400000 (extractStridedSlice S1x400000 ![0, 0] (W1 m ρ c (Proc.devRef .tc main_arg4)) slices_S2x400000_S1x400000_0_0) shapeCasts_S1x400000_S400000 := by
        show StableHlo.after hostOps0_1 (W1 m ρ c) _ = _
        generalize W1 (F := Ideal) m ρ c = G
        dsimp only [hostOps0_1]
        after_results_simp <;> rfl
    _ = Cert.Final.edgeRow 0 slices_S2x400000_S1x400000_0_0 shapeCasts_S1x400000_S400000 (m ((c : Thread nD τ).loc main_arg4)) := by rw [W1_arg4]; rfl

/-- Row 1 of the edge array where the second stretch leaves it: the slice of that row, reshaped to a vector. -/
theorem W2_v4 : W2 m ρ c (Proc.devRef .tc main_v4) = Cert.Final.edgeRow 1 slices_S2x400000_S1x400000_1_0 shapeCasts_S1x400000_S400000 (m ((c : Thread nD τ).loc main_arg4)) := by
  calc W2 m ρ c (Proc.devRef .tc main_v4)
    _ = shapeCast S400000 (extractStridedSlice S1x400000 ![1, 0] (W1 m ρ c (Proc.devRef .tc main_arg4)) slices_S2x400000_S1x400000_1_0) shapeCasts_S1x400000_S400000 := by
        show StableHlo.after hostOps0_1 (W1 m ρ c) _ = _
        generalize W1 (F := Ideal) m ρ c = G
        dsimp only [hostOps0_1]
        after_results_simp <;> rfl
    _ = Cert.Final.edgeRow 1 slices_S2x400000_S1x400000_1_0 shapeCasts_S1x400000_S400000 (m ((c : Thread nD τ).loc main_arg4)) := by rw [W1_arg4]; rfl

/-- The third stretch does not write the second row's vector. -/
theorem W3_v4 : W3 m ρ c (Proc.devRef .tc main_v4) = Cert.Final.edgeRow 1 slices_S2x400000_S1x400000_1_0 shapeCasts_S1x400000_S400000 (m ((c : Thread nD τ).loc main_arg4)) := by
  calc W3 m ρ c (Proc.devRef .tc main_v4)
    _ = W2 m ρ c (Proc.devRef .tc main_v4) := by host_keeps hostOps0_2
    _ = Cert.Final.edgeRow 1 slices_S2x400000_S1x400000_1_0 shapeCasts_S1x400000_S400000 (m ((c : Thread nD τ).loc main_arg4)) := W2_v4 m ρ c

/-! ## The edge-index rows -/

theorem W5_v2 : W5 m ρ c (Proc.devRef .tc main_v2) = Cert.Final.edgeRow 0 slices_S2x400000_S1x400000_0_0 shapeCasts_S1x400000_S400000 (m ((c : Thread nD τ).loc main_arg4)) := by
  calc W5 m ρ c (Proc.devRef .tc main_v2)
    _ = W4 m ρ c (Proc.devRef .tc main_v2) := by host_keeps hostOps0_4
    _ = W3 m ρ c (Proc.devRef .tc main_v2) := by host_keeps hostOps0_3
    _ = W2 m ρ c (Proc.devRef .tc main_v2) := by host_keeps hostOps0_2
    _ = Cert.Final.edgeRow 0 slices_S2x400000_S1x400000_0_0 shapeCasts_S1x400000_S400000 (m ((c : Thread nD τ).loc main_arg4)) := W2_v2 m ρ c
theorem W5_v4 : W5 m ρ c (Proc.devRef .tc main_v4) = Cert.Final.edgeRow 1 slices_S2x400000_S1x400000_1_0 shapeCasts_S1x400000_S400000 (m ((c : Thread nD τ).loc main_arg4)) := by
  calc W5 m ρ c (Proc.devRef .tc main_v4)
    _ = W4 m ρ c (Proc.devRef .tc main_v4) := by host_keeps hostOps0_4
    _ = W3 m ρ c (Proc.devRef .tc main_v4) := by host_keeps hostOps0_3
    _ = Cert.Final.edgeRow 1 slices_S2x400000_S1x400000_1_0 shapeCasts_S1x400000_S400000 (m ((c : Thread nD τ).loc main_arg4)) := W3_v4 m ρ c

/-- The first lookup where its stretch leaves it. The stretch computes the take of rows in its fill mode (wrap of negative
    numbers, gather, mask of the two range tests, fill); with the section numbers in range that is the selection of rows. -/
theorem W1_v0 (hsec : ∀ e : Fin 100000, 0 ≤ ((m ((c : Thread nD τ).loc main_arg2)) (ix1 e)).toInt ∧ ((m ((c : Thread nD τ).loc main_arg2)) (ix1 e)).toInt < 2000) :
    W1 m ρ c (Proc.devRef .tc main_v0) = Spec.rowsel (by decide : 0 < 2000) (m ((c : Thread nD τ).loc main_arg1)) (m ((c : Thread nD τ).loc main_arg2)) := by
  refine Eq.trans ?_ (Cert.RefGather.take_fill_eq_rowsel (by decide : 0 < 2000)
      gather_S2000x128_S100000x1_S100000x128_1_0_n_n_0_1_1128 rfl rfl rfl rfl rfl rfl
      bcast_S100000_S100000x1_0 bcast_S100000_S100000x128_0 reducesTo_S100000x1_S100000_d1 h_S_
      (W0 m ρ c (Proc.devRef .tc main_arg1))
      (broadcastInDim S100000x128 ![] bcast_S_S100000x128 (constant S_ .f32 0x7FC00000#32))
      (W0 m ρ c (Proc.devRef .tc main_arg2))
      (broadcastInDim S100000 ![] bcast_S_S100000 (constantI S_ 32 0#32))
      (broadcastInDim S100000 ![] bcast_S_S100000 (constantI S_ 32 2000#32))
      (broadcastInDim S100000x1 ![] bcast_S_S100000x1 (constantI S_ 32 0#32))
      (broadcastInDim S100000x1 ![0, 1] bcast_S1x1_S100000x1_0_1 (broadcastInDim S1x1 ![1] bcast_S1_S1x1_1 (constantI S1 32 1999#32)))
      (constantI S_ 1 1#1) (fun _ => rfl) (fun _ => rfl)
      (fun _ => show (1999#32 : BitVec 32).toInt = _ from by decide) rfl hsec)
  show StableHlo.after hostOps0 (W0 m ρ c) _ = _
  generalize W0 (F := Ideal) m ρ c = G
  dsimp only [hostOps0]
  after_results_simp
  simp only [TRef.ofBuf, TRef.toBuf, cast_cast, cast_eq]

/-- The second lookup where its stretch leaves it: the same take, of the table's rows at the edges' sources. -/
theorem W3_v5 (hsrc : ∀ e : Fin 400000, 0 ≤ ((Cert.Final.edgeRow 0 slices_S2x400000_S1x400000_0_0 shapeCasts_S1x400000_S400000 (m ((c : Thread nD τ).loc main_arg4))) (ix1 e)).toInt ∧ ((Cert.Final.edgeRow 0 slices_S2x400000_S1x400000_0_0 shapeCasts_S1x400000_S400000 (m ((c : Thread nD τ).loc main_arg4))) (ix1 e)).toInt < 2000) :
    W3 m ρ c (Proc.devRef .tc main_v5) = Spec.rowsel (by decide : 0 < 2000) (m ((c : Thread nD τ).loc main_arg1)) (Cert.Final.edgeRow 0 slices_S2x400000_S1x400000_0_0 shapeCasts_S1x400000_S400000 (m ((c : Thread nD τ).loc main_arg4))) := by
  rw [← W2_v2 m ρ c, ← W2_arg1 m ρ c]
  refine Eq.trans ?_ (Cert.RefGather.take_fill_eq_rowsel (by decide : 0 < 2000)
      gather_S2000x128_S400000x1_S400000x128_1_0_n_n_0_1_1128 rfl rfl rfl rfl rfl rfl
      bcast_S400000_S400000x1_0 bcast_S400000_S400000x128_0 reducesTo_S400000x1_S400000_d1 h_S_
      (W2 m ρ c (Proc.devRef .tc main_arg1))
      (broadcastInDim S400000x128 ![] bcast_S_S400000x128 (constant S_ .f32 0x7FC00000#32))
      (W2 m ρ c (Proc.devRef .tc main_v2))
      (broadcastInDim S400000 ![] bcast_S_S400000 (constantI S_ 32 0#32))
      (broadcastInDim S400000 ![] bcast_S_S400000 (constantI S_ 32 2000#32))
      (broadcastInDim S400000x1 ![] bcast_S_S400000x1 (constantI S_ 32 0#32))
      (broadcastInDim S400000x1 ![0, 1] bcast_S1x1_S400000x1_0_1 (broadcastInDim S1x1 ![1] bcast_S1_S1x1_1 (constantI S1 32 1999#32)))
      (constantI S_ 1 1#1) (fun _ => rfl) (fun _ => rfl)
      (fun _ => show (1999#32 : BitVec 32).toInt = _ from by decide) rfl (by rw [W2_v2]; exact hsrc))
  show StableHlo.after hostOps0_2 (W2 m ρ c) _ = _
  generalize W2 (F := Ideal) m ρ c = G
  dsimp only [hostOps0_2]
  after_results_simp
  simp only [TRef.ofBuf, TRef.toBuf, cast_cast, cast_eq]

/-- The third lookup where its stretch leaves it: the take of the node array's rows at the edges' destinations. -/
theorem W4_v6 (hdst : ∀ e : Fin 400000, 0 ≤ ((Cert.Final.edgeRow 1 slices_S2x400000_S1x400000_1_0 shapeCasts_S1x400000_S400000 (m ((c : Thread nD τ).loc main_arg4))) (ix1 e)).toInt ∧ ((Cert.Final.edgeRow 1 slices_S2x400000_S1x400000_1_0 shapeCasts_S1x400000_S400000 (m ((c : Thread nD τ).loc main_arg4))) (ix1 e)).toInt < 100000) :
    W4 m ρ c (Proc.devRef .tc main_v6) = Spec.rowsel (by decide : 0 < 100000) (m ((c : Thread nD τ).loc main_arg0)) (Cert.Final.edgeRow 1 slices_S2x400000_S1x400000_1_0 shapeCasts_S1x400000_S400000 (m ((c : Thread nD τ).loc main_arg4))) := by
  rw [← W3_v4 m ρ c, ← W3_arg0 m ρ c]
  refine Eq.trans ?_ (Cert.RefGather.take_fill_eq_rowsel (by decide : 0 < 100000)
      gather_S100000x128_S400000x1_S400000x128_1_0_n_n_0_1_1128 rfl rfl rfl rfl rfl rfl
      bcast_S400000_S400000x1_0 bcast_S400000_S400000x128_0 reducesTo_S400000x1_S400000_d1 h_S_
      (W3 m ρ c (Proc.devRef .tc main_arg0))
      (broadcastInDim S400000x128 ![] bcast_S_S400000x128 (constant S_ .f32 0x7FC00000#32))
      (W3 m ρ c (Proc.devRef .tc main_v4))
      (broadcastInDim S400000 ![] bcast_S_S400000 (constantI S_ 32 0#32))
      (broadcastInDim S400000 ![] bcast_S_S400000 (constantI S_ 32 100000#32))
      (broadcastInDim S400000x1 ![] bcast_S_S400000x1 (constantI S_ 32 0#32))
      (broadcastInDim S400000x1 ![0, 1] bcast_S1x1_S400000x1_0_1 (broadcastInDim S1x1 ![1] bcast_S1_S1x1_1 (constantI S1 32 99999#32)))
      (constantI S_ 1 1#1) (fun _ => rfl) (fun _ => rfl)
      (fun _ => show (99999#32 : BitVec 32).toInt = _ from by decide) rfl (by rw [W3_v4]; exact hdst))
  show StableHlo.after hostOps0_3 (W3 m ρ c) _ = _
  generalize W3 (F := Ideal) m ρ c = G
  dsimp only [hostOps0_3]
  after_results_simp
  simp only [TRef.ofBuf, TRef.toBuf, cast_cast, cast_eq]

/-! ## The row lookups -/

theorem W5_v0 (hsec : ∀ e : Fin 100000, 0 ≤ ((m ((c : Thread nD τ).loc main_arg2)) (ix1 e)).toInt ∧ ((m ((c : Thread nD τ).loc main_arg2)) (ix1 e)).toInt < 2000) :
    W5 m ρ c (Proc.devRef .tc main_v0) = Spec.rowsel (by decide : 0 < 2000) (m ((c : Thread nD τ).loc main_arg1)) (m ((c : Thread nD τ).loc main_arg2)) := by
  calc W5 m ρ c (Proc.devRef .tc main_v0)
    _ = W4 m ρ c (Proc.devRef .tc main_v0) := by host_keeps hostOps0_4
    _ = W3 m ρ c (Proc.devRef .tc main_v0) := by host_keeps hostOps0_3
    _ = W2 m ρ c (Proc.devRef .tc main_v0) := by host_keeps hostOps0_2
    _ = W1 m ρ c (Proc.devRef .tc main_v0) := by host_keeps hostOps0_1
    _ = _ := W1_v0 m ρ c hsec

theorem W5_v5 (hsrc : ∀ e : Fin 400000, 0 ≤ ((Cert.Final.edgeRow 0 slices_S2x400000_S1x400000_0_0 shapeCasts_S1x400000_S400000 (m ((c : Thread nD τ).loc main_arg4))) (ix1 e)).toInt ∧ ((Cert.Final.edgeRow 0 slices_S2x400000_S1x400000_0_0 shapeCasts_S1x400000_S400000 (m ((c : Thread nD τ).loc main_arg4))) (ix1 e)).toInt < 2000) :
    W5 m ρ c (Proc.devRef .tc main_v5) = Spec.rowsel (by decide : 0 < 2000) (m ((c : Thread nD τ).loc main_arg1)) (Cert.Final.edgeRow 0 slices_S2x400000_S1x400000_0_0 shapeCasts_S1x400000_S400000 (m ((c : Thread nD τ).loc main_arg4))) := by
  calc W5 m ρ c (Proc.devRef .tc main_v5)
    _ = W4 m ρ c (Proc.devRef .tc main_v5) := by host_keeps hostOps0_4
    _ = W3 m ρ c (Proc.devRef .tc main_v5) := by host_keeps hostOps0_3
    _ = _ := W3_v5 m ρ c hsrc

theorem W5_v6 (hdst : ∀ e : Fin 400000, 0 ≤ ((Cert.Final.edgeRow 1 slices_S2x400000_S1x400000_1_0 shapeCasts_S1x400000_S400000 (m ((c : Thread nD τ).loc main_arg4))) (ix1 e)).toInt ∧ ((Cert.Final.edgeRow 1 slices_S2x400000_S1x400000_1_0 shapeCasts_S1x400000_S400000 (m ((c : Thread nD τ).loc main_arg4))) (ix1 e)).toInt < 100000) :
    W5 m ρ c (Proc.devRef .tc main_v6) = Spec.rowsel (by decide : 0 < 100000) (m ((c : Thread nD τ).loc main_arg0)) (Cert.Final.edgeRow 1 slices_S2x400000_S1x400000_1_0 shapeCasts_S1x400000_S400000 (m ((c : Thread nD τ).loc main_arg4))) := by
  calc W5 m ρ c (Proc.devRef .tc main_v6)
    _ = W4 m ρ c (Proc.devRef .tc main_v6) := by host_keeps hostOps0_4
    _ = _ := W4_v6 m ρ c hdst

/-! ## The weight blocks -/

theorem W5_v7 : W5 m ρ c (Proc.devRef .tc main_v7) = Spec.rowsFrom (K := 128) 0 (by decide) (m ((c : Thread nD τ).loc main_arg6)) := by
  calc W5 m ρ c (Proc.devRef .tc main_v7)
    _ = extractStridedSlice S128x128 ![0, 0] (W4 m ρ c (Proc.devRef .tc main_arg6)) slices_S259x128_S128x128_0_0 := by
        show StableHlo.after hostOps0_4 (W4 m ρ c) _ = _
        generalize W4 (F := Ideal) m ρ c = G
        dsimp only [hostOps0_4]
        after_results_simp <;> rfl
    _ = RowLoads.rowsFrom 128 ((m ((c : Thread nD τ).loc main_arg6)) : Spec.Mat 259 128) 0 (by decide) := by
        rw [W4_arg6]
        exact RowLoads.extractStridedSlice_rows_eq_rowsFrom ((m ((c : Thread nD τ).loc main_arg6)) : Spec.Mat 259 128) 0 (by decide) _
    _ = Spec.rowsFrom (K := 128) 0 (by decide) (m ((c : Thread nD τ).loc main_arg6)) := rfl
theorem W5_v8 : W5 m ρ c (Proc.devRef .tc main_v8) = Spec.rowsFrom (K := 128) 128 (by decide) (m ((c : Thread nD τ).loc main_arg6)) := by
  calc W5 m ρ c (Proc.devRef .tc main_v8)
    _ = extractStridedSlice S128x128 ![128, 0] (W4 m ρ c (Proc.devRef .tc main_arg6)) slices_S259x128_S128x128_128_0 := by
        show StableHlo.after hostOps0_4 (W4 m ρ c) _ = _
        generalize W4 (F := Ideal) m ρ c = G
        dsimp only [hostOps0_4]
        after_results_simp <;> rfl
    _ = RowLoads.rowsFrom 128 ((m ((c : Thread nD τ).loc main_arg6)) : Spec.Mat 259 128) 128 (by decide) := by
        rw [W4_arg6]
        exact RowLoads.extractStridedSlice_rows_eq_rowsFrom ((m ((c : Thread nD τ).loc main_arg6)) : Spec.Mat 259 128) 128 (by decide) _
    _ = Spec.rowsFrom (K := 128) 128 (by decide) (m ((c : Thread nD τ).loc main_arg6)) := rfl
theorem W5_v9 : W5 m ρ c (Proc.devRef .tc main_v9) = Spec.rowsFrom (K := 3) 256 (by decide) (m ((c : Thread nD τ).loc main_arg6)) := by
  calc W5 m ρ c (Proc.devRef .tc main_v9)
    _ = extractStridedSlice S3x128 ![256, 0] (W4 m ρ c (Proc.devRef .tc main_arg6)) slices_S259x128_S3x128_256_0 := by
        show StableHlo.after hostOps0_4 (W4 m ρ c) _ = _
        generalize W4 (F := Ideal) m ρ c = G
        dsimp only [hostOps0_4]
        after_results_simp <;> rfl
    _ = RowLoads.rowsFrom 3 ((m ((c : Thread nD τ).loc main_arg6)) : Spec.Mat 259 128) 256 (by decide) := by
        rw [W4_arg6]
        exact RowLoads.extractStridedSlice_rows_eq_rowsFrom ((m ((c : Thread nD τ).loc main_arg6)) : Spec.Mat 259 128) 256 (by decide) _
    _ = Spec.rowsFrom (K := 3) 256 (by decide) (m ((c : Thread nD τ).loc main_arg6)) := rfl
theorem W5_v10 : W5 m ρ c (Proc.devRef .tc main_v10) = Spec.rowsFrom (K := 128) 0 (by decide) (m ((c : Thread nD τ).loc main_arg10)) := by
  calc W5 m ρ c (Proc.devRef .tc main_v10)
    _ = extractStridedSlice S128x128 ![0, 0] (W4 m ρ c (Proc.devRef .tc main_arg10)) slices_S259x128_S128x128_0_0 := by
        show StableHlo.after hostOps0_4 (W4 m ρ c) _ = _
        generalize W4 (F := Ideal) m ρ c = G
        dsimp only [hostOps0_4]
        after_results_simp <;> rfl
    _ = RowLoads.rowsFrom 128 ((m ((c : Thread nD τ).loc main_arg10)) : Spec.Mat 259 128) 0 (by decide) := by
        rw [W4_arg10]
        exact RowLoads.extractStridedSlice_rows_eq_rowsFrom ((m ((c : Thread nD τ).loc main_arg10)) : Spec.Mat 259 128) 0 (by decide) _
    _ = Spec.rowsFrom (K := 128) 0 (by decide) (m ((c : Thread nD τ).loc main_arg10)) := rfl
theorem W5_v11 : W5 m ρ c (Proc.devRef .tc main_v11) = Spec.rowsFrom (K := 128) 128 (by decide) (m ((c : Thread nD τ).loc main_arg10)) := by
  calc W5 m ρ c (Proc.devRef .tc main_v11)
    _ = extractStridedSlice S128x128 ![128, 0] (W4 m ρ c (Proc.devRef .tc main_arg10)) slices_S259x128_S128x128_128_0 := by
        show StableHlo.after hostOps0_4 (W4 m ρ c) _ = _
        generalize W4 (F := Ideal) m ρ c = G
        dsimp only [hostOps0_4]
        after_results_simp <;> rfl
    _ = RowLoads.rowsFrom 128 ((m ((c : Thread nD τ).loc main_arg10)) : Spec.Mat 259 128) 128 (by decide) := by
        rw [W4_arg10]
        exact RowLoads.extractStridedSlice_rows_eq_rowsFrom ((m ((c : Thread nD τ).loc main_arg10)) : Spec.Mat 259 128) 128 (by decide) _
    _ = Spec.rowsFrom (K := 128) 128 (by decide) (m ((c : Thread nD τ).loc main_arg10)) := rfl
theorem W5_v12 : W5 m ρ c (Proc.devRef .tc main_v12) = Spec.rowsFrom (K := 3) 256 (by decide) (m ((c : Thread nD τ).loc main_arg10)) := by
  calc W5 m ρ c (Proc.devRef .tc main_v12)
    _ = extractStridedSlice S3x128 ![256, 0] (W4 m ρ c (Proc.devRef .tc main_arg10)) slices_S259x128_S3x128_256_0 := by
        show StableHlo.after hostOps0_4 (W4 m ρ c) _ = _
        generalize W4 (F := Ideal) m ρ c = G
        dsimp only [hostOps0_4]
        after_results_simp <;> rfl
    _ = RowLoads.rowsFrom 3 ((m ((c : Thread nD τ).loc main_arg10)) : Spec.Mat 259 128) 256 (by decide) := by
        rw [W4_arg10]
        exact RowLoads.extractStridedSlice_rows_eq_rowsFrom ((m ((c : Thread nD τ).loc main_arg10)) : Spec.Mat 259 128) 256 (by decide) _
    _ = Spec.rowsFrom (K := 3) 256 (by decide) (m ((c : Thread nD τ).loc main_arg10)) := rfl

/-- A vector laid out as a single row, read back as that row, is the vector: position (0, k) of the row and position k
    of the vector are the same position in row-major order. -/
theorem rowOf_shapeCast {N : ℕ} (b : Spec.Vec1 N) (h : (⟨1, ![N]⟩ : Shape).ShapeCasts ⟨2, ![1, N]⟩) :
    Spec.rowOf (shapeCast ⟨2, ![1, N]⟩ b h) = b := by
  funext k
  show shapeCast ⟨2, ![1, N]⟩ b h (ix2 0 (k 0)) = b k
  refine shapeCast_apply b h _ k ?_
  rw [Shape.rowMajor_val_one, Shape.rowMajor_val_two]
  show (k 0).val = (0 : Fin 1).val * N + (k 0).val
  simp

/-! ## The bias vectors, each laid out as one row -/

theorem W5_v13 : Spec.rowOf (W5 m ρ c (Proc.devRef .tc main_v13)) = m ((c : Thread nD τ).loc main_arg7) := by
  have h : W5 m ρ c (Proc.devRef .tc main_v13) = shapeCast S1x128 (W4 m ρ c (Proc.devRef .tc main_arg7)) shapeCasts_S128_S1x128 := by
    show StableHlo.after hostOps0_4 (W4 m ρ c) _ = _
    generalize W4 (F := Ideal) m ρ c = G
    dsimp only [hostOps0_4]
    after_results_simp <;> rfl
  rw [h, W4_arg7]
  exact rowOf_shapeCast (N := 128) (m ((c : Thread nD τ).loc main_arg7)) shapeCasts_S128_S1x128
theorem W5_v14 : Spec.rowOf (W5 m ρ c (Proc.devRef .tc main_v14)) = m ((c : Thread nD τ).loc main_arg9) := by
  have h : W5 m ρ c (Proc.devRef .tc main_v14) = shapeCast S1x128 (W4 m ρ c (Proc.devRef .tc main_arg9)) shapeCasts_S128_S1x128 := by
    show StableHlo.after hostOps0_4 (W4 m ρ c) _ = _
    generalize W4 (F := Ideal) m ρ c = G
    dsimp only [hostOps0_4]
    after_results_simp <;> rfl
  rw [h, W4_arg9]
  exact rowOf_shapeCast (N := 128) (m ((c : Thread nD τ).loc main_arg9)) shapeCasts_S128_S1x128
theorem W5_v15 : Spec.rowOf (W5 m ρ c (Proc.devRef .tc main_v15)) = m ((c : Thread nD τ).loc main_arg11) := by
  have h : W5 m ρ c (Proc.devRef .tc main_v15) = shapeCast S1x128 (W4 m ρ c (Proc.devRef .tc main_arg11)) shapeCasts_S128_S1x128 := by
    show StableHlo.after hostOps0_4 (W4 m ρ c) _ = _
    generalize W4 (F := Ideal) m ρ c = G
    dsimp only [hostOps0_4]
    after_results_simp <;> rfl
  rw [h, W4_arg11]
  exact rowOf_shapeCast (N := 128) (m ((c : Thread nD τ).loc main_arg11)) shapeCasts_S128_S1x128
theorem W5_v16 : Spec.rowOf (W5 m ρ c (Proc.devRef .tc main_v16)) = m ((c : Thread nD τ).loc main_arg13) := by
  have h : W5 m ρ c (Proc.devRef .tc main_v16) = shapeCast S1x128 (W4 m ρ c (Proc.devRef .tc main_arg13)) shapeCasts_S128_S1x128 := by
    show StableHlo.after hostOps0_4 (W4 m ρ c) _ = _
    generalize W4 (F := Ideal) m ρ c = G
    dsimp only [hostOps0_4]
    after_results_simp <;> rfl
  rw [h, W4_arg13]
  exact rowOf_shapeCast (N := 128) (m ((c : Thread nD τ).loc main_arg13)) shapeCasts_S128_S1x128
theorem W5_v17 : Spec.rowOf (W5 m ρ c (Proc.devRef .tc main_v17)) = m ((c : Thread nD τ).loc main_arg15) := by
  have h : W5 m ρ c (Proc.devRef .tc main_v17) = shapeCast S1x128 (W4 m ρ c (Proc.devRef .tc main_arg15)) shapeCasts_S128_S1x128 := by
    show StableHlo.after hostOps0_4 (W4 m ρ c) _ = _
    generalize W4 (F := Ideal) m ρ c = G
    dsimp only [hostOps0_4]
    after_results_simp <;> rfl
  rw [h, W4_arg15]
  exact rowOf_shapeCast (N := 128) (m ((c : Thread nD τ).loc main_arg15)) shapeCasts_S128_S1x128
theorem W5_v18 : Spec.rowOf (W5 m ρ c (Proc.devRef .tc main_v18)) = m ((c : Thread nD τ).loc main_arg17) := by
  have h : W5 m ρ c (Proc.devRef .tc main_v18) = shapeCast S1x128 (W4 m ρ c (Proc.devRef .tc main_arg17)) shapeCasts_S128_S1x128 := by
    show StableHlo.after hostOps0_4 (W4 m ρ c) _ = _
    generalize W4 (F := Ideal) m ρ c = G
    dsimp only [hostOps0_4]
    after_results_simp <;> rfl
  rw [h, W4_arg17]
  exact rowOf_shapeCast (N := 128) (m ((c : Thread nD τ).loc main_arg17)) shapeCasts_S128_S1x128

end Cert.KernelIdeal.HostReads

end
-- ==== Proof.KernelValue.lean ====
/-
  The kernel program's result buffer, as the function of Final.lean.

  The third launch's output is the closing network of its two row arrays (Region2Value); the first of those is the first
  launch's output, untouched since (the node gate of the argument arrays and the looked-up section rows, Region0Value);
  the second is what the host operations between the launches make of the second launch's output (the per-node average of
  the edge gate's values, Region1Value). Every other buffer the launches read was settled before the first launch
  (KernelHostReads) and no later step writes it.
-/
import proofs.«409560_j59931973649030_1_alg».proof.Proof.Region0Value
import proofs.«409560_j59931973649030_1_alg».proof.Proof.Region1Value
import proofs.«409560_j59931973649030_1_alg».proof.Proof.Region2Value
import proofs.«409560_j59931973649030_1_alg».proof.Proof.KernelHostReads
import proofs.«409560_j59931973649030_1_alg».proof.Proof.Final
import Idealize.ShloMosaic.Lib.StableHlo.Run

set_option maxRecDepth 16384

noncomputable section

namespace Cert.KernelIdeal.ResultValue

open Cert.KernelIdeal Cert.KernelIdeal.Gen Cert.KernelIdeal.HostReads
open Idealize.ShloMosaic Idealize.ShloMosaic.TcCoe Idealize.ShloMosaic.ValueIdx Idealize.SL.Sem Idealize.ShloMosaic.StableHlo
open Cert.Spec

variable (m : (ℓ : Loc nD τ sig) → Buf (Elt Ideal) ℓ) (ρ : Dev nD → PrngReg) (c : Dev nD)

/-- A buffer none of the host operations between the second and third launch writes keeps its contents. -/
macro "between_launches" : tactic => `(tactic| (
  refine StableHlo.after_of_forall_not_mem _ _ (List.forall_iff_forall_mem.mp ?_)
  simp only [hostOps2, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer that is no array of the first two launches and that the host operations between the launches do not write
    holds, at the third launch's entry, what it held at the first launch's entry. -/
theorem W8_eq_W5 (r : Ref sig .tc) (h2 : W8 (F := Ideal) m ρ c (Proc.devRef .tc r) = W7 m ρ c (Proc.devRef .tc r))
    (h1 : ∀ w, Pipeline.arrRef spec1 w ≠ r) (h0 : ∀ w, Pipeline.arrRef spec0 w ≠ r) :
    W8 (F := Ideal) m ρ c (Proc.devRef .tc r) = W5 m ρ c (Proc.devRef .tc r) :=
  h2.trans ((W7_of_ne m ρ c r h1).trans (W6_of_ne m ρ c r h0))

/-- The host operations between the launches leave, at the third launch's second row array, the per-node average of the
    second launch's output by the edges' destinations. -/
theorem W8_v32 :
    W8 (F := Ideal) m ρ c (Proc.devRef .tc main_v32)
      = Cert.Final.segMean scatter_S100000x128_S400000x1_S400000x128_1_0_0_1 scatter_S100000_S400000x1_S400000_n_0_0_1 bcast_S_S100000x128 bcast_S400000_S400000x1_0 bcast_S_S100000 bcast_S_S400000 bcast_S100000_S100000x1_0 bcast_S100000x1_S100000x128_0_1
          (W7 m ρ c (Proc.devRef .tc main_v20)) (W7 m ρ c (Proc.devRef .tc main_v4)) := by
  show StableHlo.after hostOps2 (W7 m ρ c) _ = _
  generalize W7 (F := Ideal) m ρ c = G
  dsimp only [hostOps2]
  after_results_simp
  rfl

/-- The first launch's output, at the third launch's entry. -/
theorem W8_v19 (hsec : ∀ e : Fin 100000, 0 ≤ ((m ((c : Thread nD τ).loc main_arg2)) (ix1 e)).toInt ∧ ((m ((c : Thread nD τ).loc main_arg2)) (ix1 e)).toInt < 2000)
    (hsrc : ∀ e : Fin 400000, 0 ≤ ((Cert.Final.edgeRow 0 slices_S2x400000_S1x400000_0_0 shapeCasts_S1x400000_S400000 (m ((c : Thread nD τ).loc main_arg4))) (ix1 e)).toInt ∧ ((Cert.Final.edgeRow 0 slices_S2x400000_S1x400000_0_0 shapeCasts_S1x400000_S400000 (m ((c : Thread nD τ).loc main_arg4))) (ix1 e)).toInt < 2000)
    (hdst : ∀ e : Fin 400000, 0 ≤ ((Cert.Final.edgeRow 1 slices_S2x400000_S1x400000_1_0 shapeCasts_S1x400000_S400000 (m ((c : Thread nD τ).loc main_arg4))) (ix1 e)).toInt ∧ ((Cert.Final.edgeRow 1 slices_S2x400000_S1x400000_1_0 shapeCasts_S1x400000_S400000 (m ((c : Thread nD τ).loc main_arg4))) (ix1 e)).toInt < 100000) :
    W8 (F := Ideal) m ρ c (Proc.devRef .tc main_v19)
      = Spec.gate1 (M := 100000) (m ((c : Thread nD τ).loc main_arg0)) (Spec.rowsel (by decide : 0 < 2000) (m ((c : Thread nD τ).loc main_arg1)) (m ((c : Thread nD τ).loc main_arg2))) (m ((c : Thread nD τ).loc main_arg3))
          (Spec.rowsFrom (K := 128) 0 (by decide) (m ((c : Thread nD τ).loc main_arg6))) (Spec.rowsFrom (K := 128) 128 (by decide) (m ((c : Thread nD τ).loc main_arg6)))
          (Spec.rowsFrom (K := 3) 256 (by decide) (m ((c : Thread nD τ).loc main_arg6))) (m ((c : Thread nD τ).loc main_arg7)) (m ((c : Thread nD τ).loc main_arg8)) (m ((c : Thread nD τ).loc main_arg9)) := by
  have e8 : W8 (F := Ideal) m ρ c (Proc.devRef .tc main_v19) = W7 m ρ c (Proc.devRef .tc main_v19) := by between_launches
  refine e8.trans ((W7_of_ne m ρ c main_v19 (by decide)).trans ((W6_arr m ρ c 9).trans ?_))
  rw [Cert.KernelIdeal.Region0.final0 (V5 m ρ) c]
  show Spec.gate1 (M := 100000) (W5 m ρ c (Proc.devRef .tc main_arg0)) (W5 m ρ c (Proc.devRef .tc main_v0)) (W5 m ρ c (Proc.devRef .tc main_arg3))
      (W5 m ρ c (Proc.devRef .tc main_v7)) (W5 m ρ c (Proc.devRef .tc main_v8)) (W5 m ρ c (Proc.devRef .tc main_v9)) (Spec.rowOf (W5 m ρ c (Proc.devRef .tc main_v13)))
      (W5 m ρ c (Proc.devRef .tc main_arg8)) (Spec.rowOf (W5 m ρ c (Proc.devRef .tc main_v14))) = _
  rw [W5_arg0 m ρ c, W5_v0 m ρ c hsec, W5_arg3 m ρ c, W5_v7 m ρ c, W5_v8 m ρ c, W5_v9 m ρ c, W5_v13 m ρ c, W5_arg8 m ρ c, W5_v14 m ρ c]

/-- The second launch's output, at its exit. -/
theorem W7_v20 (hsec : ∀ e : Fin 100000, 0 ≤ ((m ((c : Thread nD τ).loc main_arg2)) (ix1 e)).toInt ∧ ((m ((c : Thread nD τ).loc main_arg2)) (ix1 e)).toInt < 2000)
    (hsrc : ∀ e : Fin 400000, 0 ≤ ((Cert.Final.edgeRow 0 slices_S2x400000_S1x400000_0_0 shapeCasts_S1x400000_S400000 (m ((c : Thread nD τ).loc main_arg4))) (ix1 e)).toInt ∧ ((Cert.Final.edgeRow 0 slices_S2x400000_S1x400000_0_0 shapeCasts_S1x400000_S400000 (m ((c : Thread nD τ).loc main_arg4))) (ix1 e)).toInt < 2000)
    (hdst : ∀ e : Fin 400000, 0 ≤ ((Cert.Final.edgeRow 1 slices_S2x400000_S1x400000_1_0 shapeCasts_S1x400000_S400000 (m ((c : Thread nD τ).loc main_arg4))) (ix1 e)).toInt ∧ ((Cert.Final.edgeRow 1 slices_S2x400000_S1x400000_1_0 shapeCasts_S1x400000_S400000 (m ((c : Thread nD τ).loc main_arg4))) (ix1 e)).toInt < 100000) :
    W7 (F := Ideal) m ρ c (Proc.devRef .tc main_v20)
      = Spec.gate2 (M := 400000) (Spec.rowsel (by decide : 0 < 100000) (m ((c : Thread nD τ).loc main_arg0)) (Cert.Final.edgeRow 1 slices_S2x400000_S1x400000_1_0 shapeCasts_S1x400000_S400000 (m ((c : Thread nD τ).loc main_arg4))))
          (Spec.rowsel (by decide : 0 < 2000) (m ((c : Thread nD τ).loc main_arg1)) (Cert.Final.edgeRow 0 slices_S2x400000_S1x400000_0_0 shapeCasts_S1x400000_S400000 (m ((c : Thread nD τ).loc main_arg4)))) (m ((c : Thread nD τ).loc main_arg5))
          (Spec.rowsFrom (K := 128) 0 (by decide) (m ((c : Thread nD τ).loc main_arg10))) (Spec.rowsFrom (K := 128) 128 (by decide) (m ((c : Thread nD τ).loc main_arg10)))
          (Spec.rowsFrom (K := 3) 256 (by decide) (m ((c : Thread nD τ).loc main_arg10))) (m ((c : Thread nD τ).loc main_arg11)) (m ((c : Thread nD τ).loc main_arg12)) (m ((c : Thread nD τ).loc main_arg13)) := by
  refine (W7_arr m ρ c 9).trans ?_
  rw [Cert.KernelIdeal.Region1.final1 (V6 m ρ) c]
  show Spec.gate2 (M := 400000) (W6 m ρ c (Proc.devRef .tc main_v6)) (W6 m ρ c (Proc.devRef .tc main_v5)) (W6 m ρ c (Proc.devRef .tc main_arg5))
      (W6 m ρ c (Proc.devRef .tc main_v10)) (W6 m ρ c (Proc.devRef .tc main_v11)) (W6 m ρ c (Proc.devRef .tc main_v12)) (Spec.rowOf (W6 m ρ c (Proc.devRef .tc main_v15)))
      (W6 m ρ c (Proc.devRef .tc main_arg12)) (Spec.rowOf (W6 m ρ c (Proc.devRef .tc main_v16))) = _
  rw [W6_of_ne m ρ c main_v6 (by decide), W6_of_ne m ρ c main_v5 (by decide), W6_of_ne m ρ c main_arg5 (by decide),
    W6_of_ne m ρ c main_v10 (by decide), W6_of_ne m ρ c main_v11 (by decide), W6_of_ne m ρ c main_v12 (by decide),
    W6_of_ne m ρ c main_v15 (by decide), W6_of_ne m ρ c main_arg12 (by decide), W6_of_ne m ρ c main_v16 (by decide)]
  rw [W5_v6 m ρ c hdst, W5_v5 m ρ c hsrc, W5_arg5 m ρ c, W5_v10 m ρ c, W5_v11 m ρ c, W5_v12 m ρ c, W5_v15 m ρ c, W5_arg12 m ρ c, W5_v16 m ρ c]

/-- The edges' destinations, at the second launch's exit. -/
theorem W7_v4 : W7 (F := Ideal) m ρ c (Proc.devRef .tc main_v4) = Cert.Final.edgeRow 1 slices_S2x400000_S1x400000_1_0 shapeCasts_S1x400000_S400000 (m ((c : Thread nD τ).loc main_arg4)) :=
  (W7_of_ne m ρ c main_v4 (by decide)).trans ((W6_of_ne m ρ c main_v4 (by decide)).trans (W5_v4 m ρ c))

/-- THE RESULT: the buffer the third launch writes holds the common function of the argument arrays. -/
theorem kernel_value (hsec : ∀ e : Fin 100000, 0 ≤ ((m ((c : Thread nD τ).loc main_arg2)) (ix1 e)).toInt ∧ ((m ((c : Thread nD τ).loc main_arg2)) (ix1 e)).toInt < 2000)
    (hsrc : ∀ e : Fin 400000, 0 ≤ ((Cert.Final.edgeRow 0 slices_S2x400000_S1x400000_0_0 shapeCasts_S1x400000_S400000 (m ((c : Thread nD τ).loc main_arg4))) (ix1 e)).toInt ∧ ((Cert.Final.edgeRow 0 slices_S2x400000_S1x400000_0_0 shapeCasts_S1x400000_S400000 (m ((c : Thread nD τ).loc main_arg4))) (ix1 e)).toInt < 2000)
    (hdst : ∀ e : Fin 400000, 0 ≤ ((Cert.Final.edgeRow 1 slices_S2x400000_S1x400000_1_0 shapeCasts_S1x400000_S400000 (m ((c : Thread nD τ).loc main_arg4))) (ix1 e)).toInt ∧ ((Cert.Final.edgeRow 1 slices_S2x400000_S1x400000_1_0 shapeCasts_S1x400000_S400000 (m ((c : Thread nD τ).loc main_arg4))) (ix1 e)).toInt < 100000) :
    W9 (F := Ideal) m ρ c (Proc.devRef .tc main_v33)
      = Cert.Final.out scatter_S100000x128_S400000x1_S400000x128_1_0_0_1 scatter_S100000_S400000x1_S400000_n_0_0_1 bcast_S_S100000x128 bcast_S400000_S400000x1_0 bcast_S_S100000 bcast_S_S400000 bcast_S100000_S100000x1_0 bcast_S100000x1_S100000x128_0_1
          slices_S2x400000_S1x400000_0_0 slices_S2x400000_S1x400000_1_0 shapeCasts_S1x400000_S400000
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W9_arr m ρ c 6).trans ?_
  rw [Cert.KernelIdeal.Region2.final2 (V8 m ρ) c]
  show Spec.fuse (M := 100000) (W8 m ρ c (Proc.devRef .tc main_v19)) (W8 m ρ c (Proc.devRef .tc main_v32)) (W8 m ρ c (Proc.devRef .tc main_arg14))
      (Spec.rowOf (W8 m ρ c (Proc.devRef .tc main_v17))) (W8 m ρ c (Proc.devRef .tc main_arg16)) (Spec.rowOf (W8 m ρ c (Proc.devRef .tc main_v18))) = _
  have a14 : W8 (F := Ideal) m ρ c (Proc.devRef .tc main_arg14) = m ((c : Thread nD τ).loc main_arg14) :=
    (W8_eq_W5 m ρ c main_arg14 (by between_launches) (by decide) (by decide)).trans (W5_arg14 m ρ c)
  have a16 : W8 (F := Ideal) m ρ c (Proc.devRef .tc main_arg16) = m ((c : Thread nD τ).loc main_arg16) :=
    (W8_eq_W5 m ρ c main_arg16 (by between_launches) (by decide) (by decide)).trans (W5_arg16 m ρ c)
  have b17 : W8 (F := Ideal) m ρ c (Proc.devRef .tc main_v17) = W5 m ρ c (Proc.devRef .tc main_v17) :=
    W8_eq_W5 m ρ c main_v17 (by between_launches) (by decide) (by decide)
  have b18 : W8 (F := Ideal) m ρ c (Proc.devRef .tc main_v18) = W5 m ρ c (Proc.devRef .tc main_v18) :=
    W8_eq_W5 m ρ c main_v18 (by between_launches) (by decide) (by decide)
  rw [W8_v19 m ρ c hsec hsrc hdst, W8_v32 m ρ c, W7_v20 m ρ c hsec hsrc hdst, W7_v4 m ρ c, a14, a16, b17, b18, W5_v17 m ρ c, W5_v18 m ρ c]
  rfl

end Cert.KernelIdeal.ResultValue

end
-- ==== Proof.RefStages.lean ====
/-
  The reference's two-layer networks, read as the functions of Spec.lean, for any number M of rows.

  The reference multiplies the joined rows [x | y | z] (width 128 + 128 + 3) by one 259 × 128 weight array; a sum over
  the 259 joined columns is the sum over the first 128, the next 128 and the last 3, each against the matching rows of the
  weight array, so the product is the sum of three products with the weight array's three row blocks. Bias vectors are laid
  along the rows, the positive part is a maximum with a zero array, and the second layer is a plain product.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate
import proofs.«409560_j59931973649030_1_alg».proof.Proof.Spec
import proofs.«409560_j59931973649030_1_alg».proof.Proof.LibDotPlain

set_option maxRecDepth 16384

noncomputable section

namespace Cert.RefStages

open Idealize.ShloMosaic Idealize.ShloMosaic.ValueIdx MatProd Cert.Spec

variable {M : ℕ}

/-- What it takes for a contraction record to be the plain matrix product (left axis 1 against right axis 0, no batch). -/
def Plain {M K N : ℕ} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- A plain contraction is the matrix product. -/
theorem host_dot {M K N : ℕ} (d : DotDims ⟨2, ![M, K]⟩ ⟨2, ![K, N]⟩ ⟨2, ![M, N]⟩) (e : Plain d)
    (X : FVec Ideal ⟨2, ![M, K]⟩ .f32) (Y : FVec Ideal ⟨2, ![K, N]⟩ .f32) :
    Host.dotGeneral d none X Y = mmP X Y := by
  obtain ⟨hlc, hrc, hln, hrn, hlb, hrb⟩ := e
  exact DotPlain.dotGeneral_eq d hlc hrc hln hrn hlb hrb none .single X Y

/-- A bias vector laid along the rows reads, at (r, s), its entry s. -/
theorem bias_apply
    (hb1 : (⟨1, ![128]⟩ : Shape).BroadcastsInDim ⟨2, ![1, 128]⟩ (![1] : Fin 1 → Fin 2))
    (hb2 : (⟨2, ![1, 128]⟩ : Shape).BroadcastsInDim ⟨2, ![M, 128]⟩ (![0, 1] : Fin 2 → Fin 2))
    (b : FVec Ideal ⟨1, ![128]⟩ .f32) (r : Fin M) (s : Fin 128) :
    broadcastInDim ⟨2, ![M, 128]⟩ ![0, 1] hb2 (broadcastInDim ⟨2, ![1, 128]⟩ ![1] hb1 b) (ix2 r s) = b (ix1 s) := by
  have h := StableHlo.Predicate.bcast_cols hb1 hb2 b r s
  have e1 : StableHlo.Predicate.ij r s = ix2 r s := by
    funext a; match a with | ⟨0, _⟩ => rfl | ⟨1, _⟩ => rfl
  have e2 : Shape.Idx.ofFin s = ix1 s := by
    funext a; match a with | ⟨0, _⟩ => rfl
  rw [e1, e2] at h
  exact h

/-- The zero scalar laid over the whole array reads 0 everywhere. -/
theorem zero_apply
    (hb0 : (⟨0, ![]⟩ : Shape).BroadcastsInDim ⟨2, ![M, 128]⟩ (![] : Fin 0 → Fin 2))
    (j : (⟨2, ![M, 128]⟩ : Shape).Idx) :
    broadcastInDim ⟨2, ![M, 128]⟩ ![] hb0 (constant (F := Ideal) ⟨0, ![]⟩ .f32 0x00000000#32) j = (0 : EReal) := by
  rw [StableHlo.Predicate.bcast_scalar hb0 (by decide) _ j, constant_apply, Ideal.ofBits_zero_f32]

/-- Rows [o, o + K) of a taller array, read at (j, s): row o + j of the taller array. -/
theorem rowsFrom_apply {R K N : ℕ} (o : ℕ) (h : o + K ≤ R) (W : Mat R N) (j : Fin K) (s : Fin N) (c : Fin R)
    (hc : c.val = o + j.val) : rowsFrom o h W (ix2 j s) = W (ix2 c s) := by
  unfold rowsFrom
  congr 1
  funext a
  match a with
  | ⟨0, _⟩ => exact Fin.ext hc.symm
  | ⟨1, _⟩ => rfl

/-- A sum over 259 columns is the sum over the first 128, the next 128 and the last 3. -/
theorem sum_259 (f : Fin 259 → EReal) :
    ∑ j : Fin 259, f j
      = (∑ j : Fin 128, f ⟨j.val, by omega⟩ + ∑ j : Fin 128, f ⟨128 + j.val, by omega⟩)
          + ∑ j : Fin 3, f ⟨256 + j.val, by omega⟩ := by
  have h1 : ∑ j : Fin 259, f j
      = ∑ i : Fin (128 + 128), f (Fin.castAdd 3 i) + ∑ i : Fin 3, f (Fin.natAdd (128 + 128) i) :=
    Fin.sum_univ_add (a := 128 + 128) (b := 3) f
  rw [h1, Fin.sum_univ_add (a := 128) (b := 128)]
  rfl

/-- The joined rows [x | y | z] read at a column of the first block: x. -/
theorem cat_left
    (hcat : Shape.Concatenates [(⟨2, ![M, 128]⟩ : Shape), ⟨2, ![M, 128]⟩, ⟨2, ![M, 3]⟩] ⟨2, ![M, 259]⟩ 1)
    (X Y : FVec Ideal ⟨2, ![M, 128]⟩ .f32) (Z : FVec Ideal ⟨2, ![M, 3]⟩ .f32)
    (r : Fin M) (k : Fin 128) (c : Fin 259) (hc : c.val = k.val) :
    concatenate ⟨2, ![M, 259]⟩ 1 [⟨⟨2, ![M, 128]⟩, X⟩, ⟨⟨2, ![M, 128]⟩, Y⟩, ⟨⟨2, ![M, 3]⟩, Z⟩] hcat (ix2 r c)
      = X (ix2 r k) := by
  refine concatenate_apply_piece (t := ⟨2, ![M, 259]⟩) (1 : Fin 2) [⟨⟨2, ![M, 128]⟩, X⟩, ⟨⟨2, ![M, 128]⟩, Y⟩, ⟨⟨2, ![M, 3]⟩, Z⟩] hcat (ix2 r c) 0 (by simp) ⟨2, ![M, 128]⟩ X rfl rfl 0 rfl (ix2 r k) ?_ ?_
  · intro b hb
    match b with
    | ⟨0, _⟩ => rfl
    | ⟨1, _⟩ => exact absurd rfl hb
  · show 0 + k.val = c.val
    omega

/-- The joined rows read at a column of the second block: y. -/
theorem cat_mid
    (hcat : Shape.Concatenates [(⟨2, ![M, 128]⟩ : Shape), ⟨2, ![M, 128]⟩, ⟨2, ![M, 3]⟩] ⟨2, ![M, 259]⟩ 1)
    (X Y : FVec Ideal ⟨2, ![M, 128]⟩ .f32) (Z : FVec Ideal ⟨2, ![M, 3]⟩ .f32)
    (r : Fin M) (k : Fin 128) (c : Fin 259) (hc : c.val = 128 + k.val) :
    concatenate ⟨2, ![M, 259]⟩ 1 [⟨⟨2, ![M, 128]⟩, X⟩, ⟨⟨2, ![M, 128]⟩, Y⟩, ⟨⟨2, ![M, 3]⟩, Z⟩] hcat (ix2 r c)
      = Y (ix2 r k) := by
  refine concatenate_apply_piece (t := ⟨2, ![M, 259]⟩) (1 : Fin 2) [⟨⟨2, ![M, 128]⟩, X⟩, ⟨⟨2, ![M, 128]⟩, Y⟩, ⟨⟨2, ![M, 3]⟩, Z⟩] hcat (ix2 r c) 1 (by simp) ⟨2, ![M, 128]⟩ Y rfl rfl 128 rfl (ix2 r k) ?_ ?_
  · intro b hb
    match b with
    | ⟨0, _⟩ => rfl
    | ⟨1, _⟩ => exact absurd rfl hb
  · show 128 + k.val = c.val
    omega

/-- The joined rows read at a column of the last block: z. -/
theorem cat_right
    (hcat : Shape.Concatenates [(⟨2, ![M, 128]⟩ : Shape), ⟨2, ![M, 128]⟩, ⟨2, ![M, 3]⟩] ⟨2, ![M, 259]⟩ 1)
    (X Y : FVec Ideal ⟨2, ![M, 128]⟩ .f32) (Z : FVec Ideal ⟨2, ![M, 3]⟩ .f32)
    (r : Fin M) (k : Fin 3) (c : Fin 259) (hc : c.val = 256 + k.val) :
    concatenate ⟨2, ![M, 259]⟩ 1 [⟨⟨2, ![M, 128]⟩, X⟩, ⟨⟨2, ![M, 128]⟩, Y⟩, ⟨⟨2, ![M, 3]⟩, Z⟩] hcat (ix2 r c)
      = Z (ix2 r k) := by
  refine concatenate_apply_piece (t := ⟨2, ![M, 259]⟩) (1 : Fin 2) [⟨⟨2, ![M, 128]⟩, X⟩, ⟨⟨2, ![M, 128]⟩, Y⟩, ⟨⟨2, ![M, 3]⟩, Z⟩] hcat (ix2 r c) 2 (by simp) ⟨2, ![M, 3]⟩ Z rfl rfl 256 rfl (ix2 r k) ?_ ?_
  · intro b hb
    match b with
    | ⟨0, _⟩ => rfl
    | ⟨1, _⟩ => exact absurd rfl hb
  · show 256 + k.val = c.val
    omega

/-- The product of the joined rows with one weight array is the sum of the three blocks' products with the weight
    array's three row blocks: the sum over the joined columns, split at 128 and 256. -/
theorem mmP_cat
    (hcat : Shape.Concatenates [(⟨2, ![M, 128]⟩ : Shape), ⟨2, ![M, 128]⟩, ⟨2, ![M, 3]⟩] ⟨2, ![M, 259]⟩ 1)
    (X Y : FVec Ideal ⟨2, ![M, 128]⟩ .f32) (Z : FVec Ideal ⟨2, ![M, 3]⟩ .f32) (W1 : FVec Ideal ⟨2, ![259, 128]⟩ .f32)
    (r : Fin M) (s : Fin 128) :
    mmP (concatenate ⟨2, ![M, 259]⟩ 1 [⟨⟨2, ![M, 128]⟩, X⟩, ⟨⟨2, ![M, 128]⟩, Y⟩, ⟨⟨2, ![M, 3]⟩, Z⟩] hcat) W1 (ix2 r s)
      = (mmP X (Spec.rowsFrom 0 (by omega) W1) (ix2 r s) + mmP Y (Spec.rowsFrom 128 (by omega) W1) (ix2 r s))
          + mmP Z (Spec.rowsFrom 256 (by omega) W1) (ix2 r s) := by
  rw [mmP_apply, mmP_apply, mmP_apply, mmP_apply, sum_259]
  congr 1
  · congr 1
    · refine Finset.sum_congr rfl fun j _ => ?_
      rw [cat_left hcat X Y Z r j ⟨j.val, by omega⟩ rfl,
        rowsFrom_apply 0 (by omega) W1 j s ⟨j.val, by omega⟩ (by simp)]
    · refine Finset.sum_congr rfl fun j _ => ?_
      rw [cat_mid hcat X Y Z r j ⟨128 + j.val, by omega⟩ rfl,
        rowsFrom_apply 128 (by omega) W1 j s ⟨128 + j.val, by omega⟩ rfl]
  · refine Finset.sum_congr rfl fun j _ => ?_
    rw [cat_right hcat X Y Z r j ⟨256 + j.val, by omega⟩ rfl,
      rowsFrom_apply 256 (by omega) W1 j s ⟨256 + j.val, by omega⟩ rfl]

/-- The gate network over joined rows is the gate weight of the three row blocks. -/
theorem gate_stage
    (d259 : DotDims ⟨2, ![M, 259]⟩ ⟨2, ![259, 128]⟩ ⟨2, ![M, 128]⟩) (e259 : Plain d259)
    (d128 : DotDims ⟨2, ![M, 128]⟩ ⟨2, ![128, 128]⟩ ⟨2, ![M, 128]⟩) (e128 : Plain d128)
    (hcat : Shape.Concatenates [(⟨2, ![M, 128]⟩ : Shape), ⟨2, ![M, 128]⟩, ⟨2, ![M, 3]⟩] ⟨2, ![M, 259]⟩ 1)
    (hb1 : (⟨1, ![128]⟩ : Shape).BroadcastsInDim ⟨2, ![1, 128]⟩ (![1] : Fin 1 → Fin 2))
    (hb2 : (⟨2, ![1, 128]⟩ : Shape).BroadcastsInDim ⟨2, ![M, 128]⟩ (![0, 1] : Fin 2 → Fin 2))
    (hb0 : (⟨0, ![]⟩ : Shape).BroadcastsInDim ⟨2, ![M, 128]⟩ (![] : Fin 0 → Fin 2))
    (X Y : FVec Ideal ⟨2, ![M, 128]⟩ .f32) (Z : FVec Ideal ⟨2, ![M, 3]⟩ .f32) (W1 : FVec Ideal ⟨2, ![259, 128]⟩ .f32)
    (b1 : FVec Ideal ⟨1, ![128]⟩ .f32) (W2 : FVec Ideal ⟨2, ![128, 128]⟩ .f32) (b2 : FVec Ideal ⟨1, ![128]⟩ .f32) :
    addf (Host.dotGeneral d128 none
        (maximumf
          (addf (Host.dotGeneral d259 none
              (concatenate ⟨2, ![M, 259]⟩ 1 [⟨⟨2, ![M, 128]⟩, X⟩, ⟨⟨2, ![M, 128]⟩, Y⟩, ⟨⟨2, ![M, 3]⟩, Z⟩] hcat) W1)
            (broadcastInDim ⟨2, ![M, 128]⟩ ![0, 1] hb2 (broadcastInDim ⟨2, ![1, 128]⟩ ![1] hb1 b1)))
          (broadcastInDim ⟨2, ![M, 128]⟩ ![] hb0 (constant ⟨0, ![]⟩ .f32 0x00000000#32)))
        W2)
      (broadcastInDim ⟨2, ![M, 128]⟩ ![0, 1] hb2 (broadcastInDim ⟨2, ![1, 128]⟩ ![1] hb1 b2))
    = Spec.gateW X Y Z (Spec.rowsFrom 0 (by omega) W1) (Spec.rowsFrom 128 (by omega) W1) (Spec.rowsFrom 256 (by omega) W1) b1 W2 b2 := by
  rw [host_dot d259 e259, host_dot d128 e128]
  have hH : maximumf
        (addf (mmP (concatenate ⟨2, ![M, 259]⟩ 1 [⟨⟨2, ![M, 128]⟩, X⟩, ⟨⟨2, ![M, 128]⟩, Y⟩, ⟨⟨2, ![M, 3]⟩, Z⟩] hcat) W1)
          (broadcastInDim ⟨2, ![M, 128]⟩ ![0, 1] hb2 (broadcastInDim ⟨2, ![1, 128]⟩ ![1] hb1 b1)))
        (broadcastInDim ⟨2, ![M, 128]⟩ ![] hb0 (constant ⟨0, ![]⟩ .f32 0x00000000#32))
      = Spec.relu (Spec.hidden3 X Y Z (Spec.rowsFrom 0 (by omega) W1) (Spec.rowsFrom 128 (by omega) W1)
          (Spec.rowsFrom 256 (by omega) W1) b1) := by
    funext i
    obtain ⟨r, s, rfl⟩ : ∃ (r : Fin M) (s : Fin 128), i = ix2 r s := ⟨i 0, i 1, eq_ix2 i⟩
    rw [maximumf_apply, addf_apply, bias_apply hb1 hb2 b1 r s, zero_apply hb0, mmP_cat hcat X Y Z W1 r s]
    rfl
  rw [hH]
  funext i
  obtain ⟨r, s, rfl⟩ : ∃ (r : Fin M) (s : Fin 128), i = ix2 r s := ⟨i 0, i 1, eq_ix2 i⟩
  rw [addf_apply, bias_apply hb1 hb2 b2 r s]
  rfl

/-- The closing network: two plain layers with the positive part between. -/
theorem fuse_stage
    (d128 : DotDims ⟨2, ![M, 128]⟩ ⟨2, ![128, 128]⟩ ⟨2, ![M, 128]⟩) (e128 : Plain d128)
    (hb1 : (⟨1, ![128]⟩ : Shape).BroadcastsInDim ⟨2, ![1, 128]⟩ (![1] : Fin 1 → Fin 2))
    (hb2 : (⟨2, ![1, 128]⟩ : Shape).BroadcastsInDim ⟨2, ![M, 128]⟩ (![0, 1] : Fin 2 → Fin 2))
    (hb0 : (⟨0, ![]⟩ : Shape).BroadcastsInDim ⟨2, ![M, 128]⟩ (![] : Fin 0 → Fin 2))
    (A : FVec Ideal ⟨2, ![M, 128]⟩ .f32) (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) :
    addf (Host.dotGeneral d128 none
        (maximumf
          (addf (Host.dotGeneral d128 none A W1)
            (broadcastInDim ⟨2, ![M, 128]⟩ ![0, 1] hb2 (broadcastInDim ⟨2, ![1, 128]⟩ ![1] hb1 b1)))
          (broadcastInDim ⟨2, ![M, 128]⟩ ![] hb0 (constant ⟨0, ![]⟩ .f32 0x00000000#32)))
        W2)
      (broadcastInDim ⟨2, ![M, 128]⟩ ![0, 1] hb2 (broadcastInDim ⟨2, ![1, 128]⟩ ![1] hb1 b2))
    = Spec.affine (Spec.relu (Spec.affine A W1 b1)) W2 b2 := by
  rw [host_dot d128 e128, host_dot d128 e128]
  have hH : maximumf
        (addf (mmP A W1)
          (broadcastInDim ⟨2, ![M, 128]⟩ ![0, 1] hb2 (broadcastInDim ⟨2, ![1, 128]⟩ ![1] hb1 b1)))
        (broadcastInDim ⟨2, ![M, 128]⟩ ![] hb0 (constant ⟨0, ![]⟩ .f32 0x00000000#32))
      = Spec.relu (Spec.affine A W1 b1) := by
    funext i
    obtain ⟨r, s, rfl⟩ : ∃ (r : Fin M) (s : Fin 128), i = ix2 r s := ⟨i 0, i 1, eq_ix2 i⟩
    rw [maximumf_apply, addf_apply, bias_apply hb1 hb2 b1 r s, zero_apply hb0]
    rfl
  rw [hH]
  funext i
  obtain ⟨r, s, rfl⟩ : ∃ (r : Fin M) (s : Fin 128), i = ix2 r s := ⟨i 0, i 1, eq_ix2 i⟩
  rw [addf_apply, bias_apply hb1 hb2 b2 r s]
  rfl

end Cert.RefStages

end
-- ==== Proof.RefValue.lean ====
/-
  The reference program's result, as the function of Final.lean: its row lookups are selections of rows when the row
  numbers are in range, its two gate networks over joined rows are the gate weights of the three row blocks, its
  per-node average is the shared chain of host operations, and its last two layers are the closing network.
-/
import proofs.«409560_j59931973649030_1_alg».proof.Proof.Gen.ReferenceIdeal.Read
import proofs.«409560_j59931973649030_1_alg».proof.Proof.Final
import proofs.«409560_j59931973649030_1_alg».proof.Proof.RefStages
import proofs.«409560_j59931973649030_1_alg».proof.Proof.RefGather

set_option maxRecDepth 16384

noncomputable section

namespace Cert.RefValue

open Cert.ReferenceIdeal Cert.ReferenceIdeal.Gen Cert.ReferenceIdeal.Read
open Idealize.ShloMosaic Idealize.ShloMosaic.ValueIdx Cert.Spec

/-- The reference's result is the common function of the arguments, when the three index inputs are in range. -/
theorem ref_value (x0 : FVec Ideal S100000x128 .f32) (x1 : FVec Ideal S2000x128 .f32) (x2 : IVec S100000 32) (x3 : FVec Ideal S100000x3 .f32) (x4 : IVec S2x400000 32) (x5 : FVec Ideal S400000x3 .f32) (x6 : FVec Ideal S259x128 .f32) (x7 : FVec Ideal S128 .f32) (x8 : FVec Ideal S128x128 .f32) (x9 : FVec Ideal S128 .f32) (x10 : FVec Ideal S259x128 .f32) (x11 : FVec Ideal S128 .f32) (x12 : FVec Ideal S128x128 .f32) (x13 : FVec Ideal S128 .f32) (x14 : FVec Ideal S128x128 .f32) (x15 : FVec Ideal S128 .f32) (x16 : FVec Ideal S128x128 .f32) (x17 : FVec Ideal S128 .f32)
    (hsec : ∀ e : Fin 100000, 0 ≤ (x2 (ix1 e)).toInt ∧ (x2 (ix1 e)).toInt < 2000)
    (hsrc : ∀ e : Fin 400000, 0 ≤ (Cert.Final.edgeRow 0 slices_S2x400000_S1x400000_0_0 shapeCasts_S1x400000_S400000 x4 (ix1 e)).toInt
      ∧ (Cert.Final.edgeRow 0 slices_S2x400000_S1x400000_0_0 shapeCasts_S1x400000_S400000 x4 (ix1 e)).toInt < 2000)
    (hdst : ∀ e : Fin 400000, 0 ≤ (Cert.Final.edgeRow 1 slices_S2x400000_S1x400000_1_0 shapeCasts_S1x400000_S400000 x4 (ix1 e)).toInt
      ∧ (Cert.Final.edgeRow 1 slices_S2x400000_S1x400000_1_0 shapeCasts_S1x400000_S400000 x4 (ix1 e)).toInt < 100000) :
    val_main_v73 (F := Ideal) x0 x1 x2 x3 x4 x5 x6 x7 x8 x9 x10 x11 x12 x13 x14 x15 x16 x17
      = Cert.Final.out scatter_S100000x128_S400000x1_S400000x128_1_0_0_1 scatter_S100000_S400000x1_S400000_n_0_0_1
          bcast_S_S100000x128 bcast_S400000_S400000x1_0 bcast_S_S100000 bcast_S_S400000 bcast_S100000_S100000x1_0
          bcast_S100000x1_S100000x128_0_1 slices_S2x400000_S1x400000_0_0 slices_S2x400000_S1x400000_1_0
          shapeCasts_S1x400000_S400000 x0 x1 x2 x3 x4 x5 x6 x7 x8 x9 x10 x11 x12 x13 x14 x15 x16 x17 := by
  -- The two rows of the edge array.
  have e0 : val_main_v20 (F := Ideal) x4 = Cert.Final.edgeRow 0 slices_S2x400000_S1x400000_0_0 shapeCasts_S1x400000_S400000 x4 := rfl
  have e1 : val_main_v22 (F := Ideal) x4 = Cert.Final.edgeRow 1 slices_S2x400000_S1x400000_1_0 shapeCasts_S1x400000_S400000 x4 := rfl
  -- The three row lookups are selections of rows.
  have g6 : val_main_v6 (F := Ideal) x1 x2 = Spec.rowsel (by decide : 0 < 2000) x1 x2 := by
    unfold val_main_v6 val_main_v5 val_main_v4 val_main_v3 val_main_v1
    exact Cert.RefGather.gather_wrap_eq_rowsel (by decide) gather_S2000x128_S100000x1_S100000x128_1_0_n_n_0_1_1128
      rfl rfl rfl rfl rfl rfl bcast_S100000_S100000x1_0 x1 x2 (val_main_v0 (F := Ideal)) (val_main_v2 (F := Ideal)) (fun _ => rfl) hsec
  have g29 : val_main_v29 (F := Ideal) x1 x4 = Spec.rowsel (by decide : 0 < 2000) x1 (Cert.Final.edgeRow 0 slices_S2x400000_S1x400000_0_0 shapeCasts_S1x400000_S400000 x4) := by
    unfold val_main_v29 val_main_v28 val_main_v27 val_main_v26 val_main_v24
    rw [e0]
    exact Cert.RefGather.gather_wrap_eq_rowsel (by decide) gather_S2000x128_S400000x1_S400000x128_1_0_n_n_0_1_1128
      rfl rfl rfl rfl rfl rfl bcast_S400000_S400000x1_0 x1 _ (val_main_v23 (F := Ideal)) (val_main_v25 (F := Ideal)) (fun _ => rfl) hsrc
  have g36 : val_main_v36 (F := Ideal) x0 x4 = Spec.rowsel (by decide : 0 < 100000) x0 (Cert.Final.edgeRow 1 slices_S2x400000_S1x400000_1_0 shapeCasts_S1x400000_S400000 x4) := by
    unfold val_main_v36 val_main_v35 val_main_v34 val_main_v33 val_main_v31
    rw [e1]
    exact Cert.RefGather.gather_wrap_eq_rowsel (by decide) gather_S100000x128_S400000x1_S400000x128_1_0_n_n_0_1_1128
      rfl rfl rfl rfl rfl rfl bcast_S400000_S400000x1_0 x0 _ (val_main_v30 (F := Ideal)) (val_main_v32 (F := Ideal)) (fun _ => rfl) hdst
  -- The sign change of the third block.
  have n7 : val_main_v7 (F := Ideal) x3 = fun k => -(x3 k) := rfl
  -- The two gate networks over joined rows.
  have h18 : val_main_v18 (F := Ideal) x0 x1 x2 x3 x6 x7 x8 x9
      = Spec.gateW x0 (val_main_v6 (F := Ideal) x1 x2) (val_main_v7 (F := Ideal) x3) (Spec.rowsFrom 0 (by decide) x6) (Spec.rowsFrom 128 (by decide) x6) (Spec.rowsFrom 256 (by decide) x6) x7 x8 x9 := by
    unfold val_main_v18 val_main_v17 val_main_v16 val_main_v15 val_main_v14 val_main_v13 val_main_cst val_main_v12
      val_main_v11 val_main_v10 val_main_v9 val_main_v8
    exact Cert.RefStages.gate_stage (M := 100000) dot_S100000x259_S259x128_S100000x128_1_0_0_1_n_n ⟨rfl, rfl, rfl, rfl, rfl, rfl⟩
      dot_S100000x128_S128x128_S100000x128_1_0_0_1_n_n ⟨rfl, rfl, rfl, rfl, rfl, rfl⟩
      concatenates_S100000x128_S100000x128_S100000x3_S100000x259_d1 bcast_S128_S1x128_1 bcast_S1x128_S100000x128_0_1
      bcast_S_S100000x128 x0 (val_main_v6 (F := Ideal) x1 x2) (val_main_v7 (F := Ideal) x3) x6 x7 x8 x9
  have h47 : val_main_v47 (F := Ideal) x0 x1 x4 x5 x10 x11 x12 x13
      = Spec.gateW (val_main_v36 (F := Ideal) x0 x4) (val_main_v29 (F := Ideal) x1 x4) x5 (Spec.rowsFrom 0 (by decide) x10) (Spec.rowsFrom 128 (by decide) x10) (Spec.rowsFrom 256 (by decide) x10) x11 x12 x13 := by
    unfold val_main_v47 val_main_v46 val_main_v45 val_main_v44 val_main_v43 val_main_v42 val_main_cst_5 val_main_v41
      val_main_v40 val_main_v39 val_main_v38 val_main_v37
    exact Cert.RefStages.gate_stage (M := 400000) dot_S400000x259_S259x128_S400000x128_1_0_0_1_n_n ⟨rfl, rfl, rfl, rfl, rfl, rfl⟩
      dot_S400000x128_S128x128_S400000x128_1_0_0_1_n_n ⟨rfl, rfl, rfl, rfl, rfl, rfl⟩
      concatenates_S400000x128_S400000x128_S400000x3_S400000x259_d1 bcast_S128_S1x128_1 bcast_S1x128_S400000x128_0_1
      bcast_S_S400000x128 (val_main_v36 (F := Ideal) x0 x4) (val_main_v29 (F := Ideal) x1 x4) x5 x10 x11 x12 x13
  -- The node gate and the edge gate.
  have h62 : val_main_v62 (F := Ideal) x0 x1 x2 x3 x6 x7 x8 x9 = Spec.gate1 x0 (Spec.rowsel (by decide : 0 < 2000) x1 x2) x3 (Spec.rowsFrom 0 (by decide) x6) (Spec.rowsFrom 128 (by decide) x6) (Spec.rowsFrom 256 (by decide) x6) x7 x8 x9 := by
    unfold val_main_v62 val_main_v61
    rw [h18, n7, g6]
    rfl
  have h48 : val_main_v48 (F := Ideal) x0 x1 x4 x5 x10 x11 x12 x13 = Spec.gate2 (Spec.rowsel (by decide : 0 < 100000) x0 (Cert.Final.edgeRow 1 slices_S2x400000_S1x400000_1_0 shapeCasts_S1x400000_S400000 x4)) (Spec.rowsel (by decide : 0 < 2000) x1 (Cert.Final.edgeRow 0 slices_S2x400000_S1x400000_0_0 shapeCasts_S1x400000_S400000 x4)) x5 (Spec.rowsFrom 0 (by decide) x10) (Spec.rowsFrom 128 (by decide) x10) (Spec.rowsFrom 256 (by decide) x10) x11 x12 x13 := by
    unfold val_main_v48
    rw [h47, g29, g36]
    rfl
  -- The per-node average: the same chain of operations on both sides.
  have h60 : val_main_v60 (F := Ideal) x0 x1 x4 x5 x10 x11 x12 x13
      = Cert.Final.segMean scatter_S100000x128_S400000x1_S400000x128_1_0_0_1 scatter_S100000_S400000x1_S400000_n_0_0_1
        bcast_S_S100000x128 bcast_S400000_S400000x1_0 bcast_S_S100000 bcast_S_S400000 bcast_S100000_S100000x1_0
        bcast_S100000x1_S100000x128_0_1 (val_main_v48 (F := Ideal) x0 x1 x4 x5 x10 x11 x12 x13) (Cert.Final.edgeRow 1 slices_S2x400000_S1x400000_1_0 shapeCasts_S1x400000_S400000 x4) := by
    unfold val_main_v60 val_main_v59 val_main_v58 val_main_v57 val_main_v56 val_main_v55 val_main_v54 val_main_v53
      val_main_v52 val_main_v51 val_main_v50 val_main_v49 val_main_cst_6 val_main_cst_7 val_main_cst_8 val_main_cst_9
      Cert.Final.segMean
    rw [e1]
  -- The sum going into the closing network.
  have h63 : val_main_v63 (F := Ideal) x0 x1 x2 x3 x4 x5 x6 x7 x8 x9 x10 x11 x12 x13
      = fun i => (Spec.gate1 x0 (Spec.rowsel (by decide : 0 < 2000) x1 x2) x3 (Spec.rowsFrom 0 (by decide) x6) (Spec.rowsFrom 128 (by decide) x6) (Spec.rowsFrom 256 (by decide) x6) x7 x8 x9) i
          + (Cert.Final.segMean scatter_S100000x128_S400000x1_S400000x128_1_0_0_1 scatter_S100000_S400000x1_S400000_n_0_0_1
        bcast_S_S100000x128 bcast_S400000_S400000x1_0 bcast_S_S100000 bcast_S_S400000 bcast_S100000_S100000x1_0
        bcast_S100000x1_S100000x128_0_1 (Spec.gate2 (Spec.rowsel (by decide : 0 < 100000) x0 (Cert.Final.edgeRow 1 slices_S2x400000_S1x400000_1_0 shapeCasts_S1x400000_S400000 x4)) (Spec.rowsel (by decide : 0 < 2000) x1 (Cert.Final.edgeRow 0 slices_S2x400000_S1x400000_0_0 shapeCasts_S1x400000_S400000 x4)) x5 (Spec.rowsFrom 0 (by decide) x10) (Spec.rowsFrom 128 (by decide) x10) (Spec.rowsFrom 256 (by decide) x10) x11 x12 x13) (Cert.Final.edgeRow 1 slices_S2x400000_S1x400000_1_0 shapeCasts_S1x400000_S400000 x4)) i := by
    unfold val_main_v63
    rw [h62, h60, h48]
    rfl
  -- The closing network.
  unfold val_main_v73 val_main_v72 val_main_v71 val_main_v70 val_main_v69 val_main_v68 val_main_cst_10 val_main_v67
    val_main_v66 val_main_v65 val_main_v64
  rw [Cert.RefStages.fuse_stage (M := 100000) dot_S100000x128_S128x128_S100000x128_1_0_0_1_n_n ⟨rfl, rfl, rfl, rfl, rfl, rfl⟩
    bcast_S128_S1x128_1 bcast_S1x128_S100000x128_0_1 bcast_S_S100000x128
    (val_main_v63 (F := Ideal) x0 x1 x2 x3 x4 x5 x6 x7 x8 x9 x10 x11 x12 x13) x14 x15 x16 x17, h63]
  rfl

end Cert.RefValue

end
-- ==== Proof.PreDecode.lean ====
/-
  The precondition read back: beside the finiteness of the float inputs it says that every node's section number is a
  row number of the section table (in [0, 2000)), that every edge's source is one too, and that every edge's
  destination is a node number (in [0, 100000)). The precondition is one bit, the "and" of its conjuncts; it is 1
  exactly when each conjunct is, and each of the three range conjuncts is an "and" over all positions of two signed
  comparisons against constants.
-/
import proofs.«409560_j59931973649030_1_alg».proof.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.PreDecode

open Cert.Pre_finite_inputs
open Idealize.ShloMosaic Idealize.ShloMosaic.ValueIdx

variable [Cert.Pre_finite_inputs.Facts]

/-- The rank-0 shape has one index: two of them agree at every (nonexistent) axis. -/
local instance subsingleton_scalar_idx : Subsingleton S_.Idx := ⟨fun a b => funext fun d => d.elim0⟩

/-- One range conjunct read back. The conjunct is the "and" over all positions of `lo ≤ v` and `v < hi`, both signed
    and both against a scalar broadcast to the shape of `v`. If that "and" is 1 then the "and" of the two comparison
    bits is 1 at each position, so each bit is; a broadcast scalar reads the scalar at every position, and the two
    signed comparisons are then the two inequalities between the words read as integers. -/
theorem range_at {s : Shape} {axes : List (Fin s.rank)} (v : IVec s 32) (lo hi : BitVec 32)
    (hb : S_.BroadcastsInDim s (![] : Fin 0 → Fin s.rank)) (hr : s.ReducesTo axes S_) (h0 : 0 < S_.numel)
    (e : Host.reduce IntOp.andi
          (andi (cmpi .sge v (broadcastInDim s ![] hb (constantI S_ 32 lo)))
                (cmpi .slt v (broadcastInDim s ![] hb (constantI S_ 32 hi))))
          (constantI S_ 1 1#1) hr h0 ix0 = 1#1)
    (i : s.Idx) : lo.toInt ≤ (v i).toInt ∧ (v i).toInt < hi.toInt := by
  have hi1 := Host.reduce_andi_all _ _ hr h0 ix0 e i
  change IntOp.andi (IntOp.cmpi .sge (v i) lo) (IntOp.cmpi .slt (v i) hi) = 1#1 at hi1
  obtain ⟨hge, hlt⟩ := IntOp.andi_eq_one.1 hi1
  exact ⟨IntOp.cmpi_sge.1 hge, IntOp.cmpi_slt.1 hlt⟩

/-- The three constants the comparisons are made against, read as signed integers. -/
theorem toInt_zero : (0#32 : BitVec 32).toInt = 0 := by decide
theorem toInt_2000 : (2000#32 : BitVec 32).toInt = 2000 := by decide
theorem toInt_100000 : (100000#32 : BitVec 32).toInt = 100000 := by decide

/-- Under the precondition the three index inputs are in range: the section numbers, the edges' sources (row 0 of the
    edge array, as a vector) and the edges' destinations (row 1). -/
theorem index_ranges (a0 : FVec Ideal S100000x128 .f32) (a1 : FVec Ideal S2000x128 .f32) (a2 : IVec S100000 32) (a3 : FVec Ideal S100000x3 .f32) (a4 : IVec S2x400000 32) (a5 : FVec Ideal S400000x3 .f32) (a6 : FVec Ideal S259x128 .f32) (a7 : FVec Ideal S128 .f32) (a8 : FVec Ideal S128x128 .f32) (a9 : FVec Ideal S128 .f32) (a10 : FVec Ideal S259x128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32)
    (h : Cert.Pre_finite_inputs.fn (F := Ideal) a0 a1 a2 a3 a4 a5 a6 a7 a8 a9 a10 a11 a12 a13 a14 a15 a16 a17 = fun _ => 1#1)
    (hs0 : S2x400000.Slices ![0, 0] S1x400000) (hs1 : S2x400000.Slices ![1, 0] S1x400000) (hc : S1x400000.ShapeCasts S400000) :
    (∀ e : Fin 100000, 0 ≤ (a2 (ix1 e)).toInt ∧ (a2 (ix1 e)).toInt < 2000)
    ∧ (∀ e : Fin 400000, 0 ≤ ((shapeCast S400000 (extractStridedSlice S1x400000 ![0, 0] a4 hs0) hc : IVec S400000 32) (ix1 e)).toInt
        ∧ ((shapeCast S400000 (extractStridedSlice S1x400000 ![0, 0] a4 hs0) hc : IVec S400000 32) (ix1 e)).toInt < 2000)
    ∧ (∀ e : Fin 400000, 0 ≤ ((shapeCast S400000 (extractStridedSlice S1x400000 ![1, 0] a4 hs1) hc : IVec S400000 32) (ix1 e)).toInt
        ∧ ((shapeCast S400000 (extractStridedSlice S1x400000 ![1, 0] a4 hs1) hc : IVec S400000 32) (ix1 e)).toInt < 100000) := by
  -- The precondition at its one index: a left-nested "and" of bits, the three range conjuncts outermost.
  have e := congrFun h ix0
  dsimp only [fn, fn_part1, fn_part2, fn_part3, fn_part4, fn_part5, fn_part6] at e
  change IntOp.andi (IntOp.andi (IntOp.andi _ _) _) _ = 1#1 at e
  -- An "and" of bits is 1 exactly when both are: peel the three outermost, leave the finiteness part alone.
  obtain ⟨e12, e3⟩ := IntOp.andi_eq_one.1 e
  obtain ⟨e1', e2⟩ := IntOp.andi_eq_one.1 e12
  obtain ⟨-, e1⟩ := IntOp.andi_eq_one.1 e1'
  refine ⟨fun i => ?_, fun i => ?_, fun i => ?_⟩
  · have r := range_at a2 0#32 2000#32 _ _ _ e1 (ix1 i)
    rw [toInt_zero, toInt_2000] at r
    exact r
  · have r := range_at _ 0#32 2000#32 _ _ _ e2 (ix1 i)
    rw [toInt_zero, toInt_2000] at r
    exact r
  · have r := range_at _ 0#32 100000#32 _ _ _ e3 (ix1 i)
    rw [toInt_zero, toInt_100000] at r
    exact r

end Cert.PreDecode

end
-- ==== Proof.lean ====
/-
  The certificate: the kernel program (three tiled launches among host operations) and the reference compute one
  function of the eighteen argument arrays on the extended reals, when the three index inputs are in range.

  The frames of the two kernel programs are the generated ones; the reference's frame is its generated run with the
  result dropped. The kernel's value: its run ends with the result buffer at the last boundary's contents
  (KernelResultRun), which is the common function (KernelValue, over the three launches' values and the host reads). The
  reference's value: its generated run's term is the same function (RefValue). The index ranges come from the
  precondition (PreDecode). The idealization rewrote nothing, so the preservation claim is trivial.
-/
import proofs.«409560_j59931973649030_1_alg».proof.Defs
import proofs.«409560_j59931973649030_1_alg».proof.Proof.Gen.Kernel
import proofs.«409560_j59931973649030_1_alg».proof.Proof.Gen.Kernel.Skeleton
import proofs.«409560_j59931973649030_1_alg».proof.Proof.Gen.Kernel.Launch
import proofs.«409560_j59931973649030_1_alg».proof.Proof.Gen.Kernel.Points
import proofs.«409560_j59931973649030_1_alg».proof.Proof.Gen.Kernel.Frame
import proofs.«409560_j59931973649030_1_alg».proof.Proof.Gen.KernelIdeal
import proofs.«409560_j59931973649030_1_alg».proof.Proof.Gen.KernelIdeal.Skeleton
import proofs.«409560_j59931973649030_1_alg».proof.Proof.Gen.KernelIdeal.Launch
import proofs.«409560_j59931973649030_1_alg».proof.Proof.Gen.KernelIdeal.Points
import proofs.«409560_j59931973649030_1_alg».proof.Proof.Gen.KernelIdeal.Frame
import proofs.«409560_j59931973649030_1_alg».proof.Proof.Gen.ReferenceIdeal
import proofs.«409560_j59931973649030_1_alg».proof.Proof.Gen.Pre_finite_inputs
import proofs.«409560_j59931973649030_1_alg».proof.Proof.Gen.ReferenceIdeal.Run
import proofs.«409560_j59931973649030_1_alg».proof.Proof.Gen.ReferenceIdeal.Read
import proofs.«409560_j59931973649030_1_alg».proof.Proof.KernelResultRun
import proofs.«409560_j59931973649030_1_alg».proof.Proof.KernelValue
import proofs.«409560_j59931973649030_1_alg».proof.Proof.RefValue
import proofs.«409560_j59931973649030_1_alg».proof.Proof.PreDecode
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result term, at arrays equal to its launch memory's argument arrays, is the common function of them. -/
theorem ref_side (m' : (ℓ : Loc Cert.ReferenceIdeal.nD Cert.ReferenceIdeal.τ Cert.ReferenceIdeal.sig) → Buf (Elt Ideal) ℓ)
    (c : Dev Cert.ReferenceIdeal.nD) (x0 : FVec Ideal Cert.KernelIdeal.S100000x128 .f32) (x1 : FVec Ideal Cert.KernelIdeal.S2000x128 .f32) (x2 : IVec Cert.KernelIdeal.S100000 32) (x3 : FVec Ideal Cert.KernelIdeal.S100000x3 .f32) (x4 : IVec Cert.KernelIdeal.S2x400000 32) (x5 : FVec Ideal Cert.KernelIdeal.S400000x3 .f32) (x6 : FVec Ideal Cert.KernelIdeal.S259x128 .f32) (x7 : FVec Ideal Cert.KernelIdeal.S128 .f32) (x8 : FVec Ideal Cert.KernelIdeal.S128x128 .f32) (x9 : FVec Ideal Cert.KernelIdeal.S128 .f32) (x10 : FVec Ideal Cert.KernelIdeal.S259x128 .f32) (x11 : FVec Ideal Cert.KernelIdeal.S128 .f32) (x12 : FVec Ideal Cert.KernelIdeal.S128x128 .f32) (x13 : FVec Ideal Cert.KernelIdeal.S128 .f32) (x14 : FVec Ideal Cert.KernelIdeal.S128x128 .f32) (x15 : FVec Ideal Cert.KernelIdeal.S128 .f32) (x16 : FVec Ideal Cert.KernelIdeal.S128x128 .f32) (x17 : FVec Ideal Cert.KernelIdeal.S128 .f32)
    (e0 : m' ((c.tc : Thread Cert.ReferenceIdeal.nD Cert.ReferenceIdeal.τ).loc Cert.ReferenceIdeal.main_arg0) = x0) (e1 : m' ((c.tc : Thread Cert.ReferenceIdeal.nD Cert.ReferenceIdeal.τ).loc Cert.ReferenceIdeal.main_arg1) = x1) (e2 : m' ((c.tc : Thread Cert.ReferenceIdeal.nD Cert.ReferenceIdeal.τ).loc Cert.ReferenceIdeal.main_arg2) = x2) (e3 : m' ((c.tc : Thread Cert.ReferenceIdeal.nD Cert.ReferenceIdeal.τ).loc Cert.ReferenceIdeal.main_arg3) = x3) (e4 : m' ((c.tc : Thread Cert.ReferenceIdeal.nD Cert.ReferenceIdeal.τ).loc Cert.ReferenceIdeal.main_arg4) = x4) (e5 : m' ((c.tc : Thread Cert.ReferenceIdeal.nD Cert.ReferenceIdeal.τ).loc Cert.ReferenceIdeal.main_arg5) = x5) (e6 : m' ((c.tc : Thread Cert.ReferenceIdeal.nD Cert.ReferenceIdeal.τ).loc Cert.ReferenceIdeal.main_arg6) = x6) (e7 : m' ((c.tc : Thread Cert.ReferenceIdeal.nD Cert.ReferenceIdeal.τ).loc Cert.ReferenceIdeal.main_arg7) = x7) (e8 : m' ((c.tc : Thread Cert.ReferenceIdeal.nD Cert.ReferenceIdeal.τ).loc Cert.ReferenceIdeal.main_arg8) = x8) (e9 : m' ((c.tc : Thread Cert.ReferenceIdeal.nD Cert.ReferenceIdeal.τ).loc Cert.ReferenceIdeal.main_arg9) = x9) (e10 : m' ((c.tc : Thread Cert.ReferenceIdeal.nD Cert.ReferenceIdeal.τ).loc Cert.ReferenceIdeal.main_arg10) = x10) (e11 : m' ((c.tc : Thread Cert.ReferenceIdeal.nD Cert.ReferenceIdeal.τ).loc Cert.ReferenceIdeal.main_arg11) = x11) (e12 : m' ((c.tc : Thread Cert.ReferenceIdeal.nD Cert.ReferenceIdeal.τ).loc Cert.ReferenceIdeal.main_arg12) = x12) (e13 : m' ((c.tc : Thread Cert.ReferenceIdeal.nD Cert.ReferenceIdeal.τ).loc Cert.ReferenceIdeal.main_arg13) = x13) (e14 : m' ((c.tc : Thread Cert.ReferenceIdeal.nD Cert.ReferenceIdeal.τ).loc Cert.ReferenceIdeal.main_arg14) = x14) (e15 : m' ((c.tc : Thread Cert.ReferenceIdeal.nD Cert.ReferenceIdeal.τ).loc Cert.ReferenceIdeal.main_arg15) = x15) (e16 : m' ((c.tc : Thread Cert.ReferenceIdeal.nD Cert.ReferenceIdeal.τ).loc Cert.ReferenceIdeal.main_arg16) = x16) (e17 : m' ((c.tc : Thread Cert.ReferenceIdeal.nD Cert.ReferenceIdeal.τ).loc Cert.ReferenceIdeal.main_arg17) = x17)
    (hsec : ∀ e : Fin 100000, 0 ≤ (x2 (ValueIdx.ix1 e)).toInt ∧ (x2 (ValueIdx.ix1 e)).toInt < 2000)
    (hsrc : ∀ e : Fin 400000, 0 ≤ (Cert.Final.edgeRow 0 Cert.KernelIdeal.Gen.slices_S2x400000_S1x400000_0_0 Cert.KernelIdeal.Gen.shapeCasts_S1x400000_S400000 x4 (ValueIdx.ix1 e)).toInt
      ∧ (Cert.Final.edgeRow 0 Cert.KernelIdeal.Gen.slices_S2x400000_S1x400000_0_0 Cert.KernelIdeal.Gen.shapeCasts_S1x400000_S400000 x4 (ValueIdx.ix1 e)).toInt < 2000)
    (hdst : ∀ e : Fin 400000, 0 ≤ (Cert.Final.edgeRow 1 Cert.KernelIdeal.Gen.slices_S2x400000_S1x400000_1_0 Cert.KernelIdeal.Gen.shapeCasts_S1x400000_S400000 x4 (ValueIdx.ix1 e)).toInt
      ∧ (Cert.Final.edgeRow 1 Cert.KernelIdeal.Gen.slices_S2x400000_S1x400000_1_0 Cert.KernelIdeal.Gen.shapeCasts_S1x400000_S400000 x4 (ValueIdx.ix1 e)).toInt < 100000) :
    Cert.ReferenceIdeal.Value.res_main_v73 m' c
      = Cert.Final.out Cert.KernelIdeal.scatter_S100000x128_S400000x1_S400000x128_1_0_0_1 Cert.KernelIdeal.scatter_S100000_S400000x1_S400000_n_0_0_1 Cert.KernelIdeal.Gen.bcast_S_S100000x128 Cert.KernelIdeal.Gen.bcast_S400000_S400000x1_0 Cert.KernelIdeal.Gen.bcast_S_S100000 Cert.KernelIdeal.Gen.bcast_S_S400000 Cert.KernelIdeal.Gen.bcast_S100000_S100000x1_0 Cert.KernelIdeal.Gen.bcast_S100000x1_S100000x128_0_1 Cert.KernelIdeal.Gen.slices_S2x400000_S1x400000_0_0 Cert.KernelIdeal.Gen.slices_S2x400000_S1x400000_1_0 Cert.KernelIdeal.Gen.shapeCasts_S1x400000_S400000 x0 x1 x2 x3 x4 x5 x6 x7 x8 x9 x10 x11 x12 x13 x14 x15 x16 x17 := by
  subst e0 e1 e2 e3 e4 e5 e6 e7 e8 e9 e10 e11 e12 e13 e14 e15 e16 e17
  rw [Cert.ReferenceIdeal.Read.val_main_v73_eq]
  exact Cert.RefValue.ref_value _ _ _ _ _ _ _ _ _ _ _ _ _ _ _ _ _ _ hsec hsrc hdst

/-- Both programs end with the common function of the arguments in their result buffers. -/
theorem algebraic : Cert.algebraic_KernelIdeal_ReferenceIdeal := by
  intro m ρ m' ρ' hpre hagree
  have hr := fun c : Dev Cert.KernelIdeal.nD =>
    Cert.PreDecode.index_ranges _ _ _ _ _ _ _ _ _ _ _ _ _ _ _ _ _ _ (hpre c)
      Cert.KernelIdeal.Gen.slices_S2x400000_S1x400000_0_0 Cert.KernelIdeal.Gen.slices_S2x400000_S1x400000_1_0
      Cert.KernelIdeal.Gen.shapeCasts_S1x400000_S400000
  refine ⟨fun c => Cert.Final.out Cert.KernelIdeal.scatter_S100000x128_S400000x1_S400000x128_1_0_0_1 Cert.KernelIdeal.scatter_S100000_S400000x1_S400000_n_0_0_1 Cert.KernelIdeal.Gen.bcast_S_S100000x128 Cert.KernelIdeal.Gen.bcast_S400000_S400000x1_0 Cert.KernelIdeal.Gen.bcast_S_S100000 Cert.KernelIdeal.Gen.bcast_S_S400000 Cert.KernelIdeal.Gen.bcast_S100000_S100000x1_0 Cert.KernelIdeal.Gen.bcast_S100000x1_S100000x128_0_1
      Cert.KernelIdeal.Gen.slices_S2x400000_S1x400000_0_0 Cert.KernelIdeal.Gen.slices_S2x400000_S1x400000_1_0
      Cert.KernelIdeal.Gen.shapeCasts_S1x400000_S400000
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.ResultValue.kernel_value m ρ c (hr c).1 (hr c).2.1 (hr c).2.2), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    exact ref_side m' c _ _ _ _ _ _ _ _ _ _ _ _ _ _ _ _ _ _ a0 a1 a2 a3 a4 a5 a6 a7 a8 a9 a10 a11 a12 a13 a14 a15 a16 a17 (hr c).1 (hr c).2.1 (hr c).2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
